-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S4x256x256 : Shape := ⟨3, ![4, 256, 256]⟩
abbrev S512x1024 : Shape := ⟨2, ![512, 1024]⟩
abbrev S512x256 : Shape := ⟨2, ![512, 256]⟩
abbrev S4 : Shape := ⟨1, ![4]⟩
abbrev S2 : Shape := ⟨1, ![2]⟩
abbrev S8 : Shape := ⟨1, ![8]⟩
abbrev S1 : Shape := ⟨1, ![1]⟩
abbrev S_ : Shape := ⟨0, ![]⟩
abbrev S256x256 : Shape := ⟨2, ![256, 256]⟩
abbrev S1x256x256 : Shape := ⟨3, ![1, 256, 256]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S4x256x256, .bf16⟩
  | .local _ .vmem, ⟨1, _⟩ => ⟨S4x256x256, .bf16⟩
  | .local _ .vmem, ⟨2, _⟩ => ⟨S4x256x256, .bf16⟩
  | .local _ .vmem, ⟨3, _⟩ => ⟨S4x256x256, .bf16⟩
  | .local _ .vmem, ⟨4, _⟩ => ⟨S512x1024, .f32⟩
  | .local _ .vmem, ⟨5, _⟩ => ⟨S512x256, .f32⟩
  | .local _ .vmem, ⟨6, _⟩ => ⟨S512x256, .f32⟩
  | .local _ .vmem, ⟨7, _⟩ => ⟨S256x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_5 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c256_i32 : BitVec 32 := 256#32
  let v8 : BitVec 32 := Scalar.muli v7 c256_i32
  ![0, v8.toNat]
def k0_off2 (d0 : Dev nD) : Fin 2 → Nat :=
  let c0_i32_7 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_3 : BitVec 32 := 256#32
  let v9 : BitVec 32 := Scalar.muli v5 c256_i32_3
  ![0, v9.toNat]
def k0_off3 (d0 : Dev nD) (c0_i32_8 : BitVec 32) : Fin 2 → Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v16 c0_i32_8
  ![0, v17.toNat]
def k0_dev1 (d0 : Dev nD) : Nat :=
  let c0_i32_31 : BitVec 32 := 0#32
  let c1_i32_28 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v41 : BitVec 32 := Scalar.subi c1_i32_28 v2
  let c2_i32_30 : BitVec 32 := 2#32
  let v42 : BitVec 32 := Scalar.muli v41 c2_i32_30
  let v43 : BitVec 32 := Scalar.addi c0_i32_31 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v44 : BitVec 32 := Scalar.muli v5 c1_i32_32
  let v45 : BitVec 32 := Scalar.addi v43 v44
  v45.toNat
def k0_dev2 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v47 : BitVec 32 := Scalar.muli v2 c2_i32_35
  let v48 : BitVec 32 := Scalar.addi c0_i32_36 v47
  let c1_i32_33 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v46 : BitVec 32 := Scalar.subi c1_i32_33 v5
  let c1_i32_37 : BitVec 32 := 1#32
  let v49 : BitVec 32 := Scalar.muli v46 c1_i32_37
  let v50 : BitVec 32 := Scalar.addi v48 v49
  v50.toNat
def k0_dev3 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_56 : BitVec 32 := 2#32
  let v66 : BitVec 32 := Scalar.muli v2 c2_i32_56
  let v67 : BitVec 32 := Scalar.addi c0_i32_57 v66
  let c1_i32_51 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v65 : BitVec 32 := Scalar.subi c1_i32_51 v5
  let c1_i32_58 : BitVec 32 := 1#32
  let v68 : BitVec 32 := Scalar.muli v65 c1_i32_58
  let v69 : BitVec 32 := Scalar.addi v67 v68
  v69.toNat
def k0_dev4 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v90 : BitVec 32 := Scalar.muli v2 c2_i32_78
  let v91 : BitVec 32 := Scalar.addi c0_i32_79 v90
  let c1_i32_73 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v89 : BitVec 32 := Scalar.subi c1_i32_73 v5
  let c1_i32_80 : BitVec 32 := 1#32
  let v92 : BitVec 32 := Scalar.muli v89 c1_i32_80
  let v93 : BitVec 32 := Scalar.addi v91 v92
  v93.toNat
def k0_dev5 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v114 : BitVec 32 := Scalar.muli v2 c2_i32_100
  let v115 : BitVec 32 := Scalar.addi c0_i32_101 v114
  let c1_i32_95 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v113 : BitVec 32 := Scalar.subi c1_i32_95 v5
  let c1_i32_102 : BitVec 32 := 1#32
  let v116 : BitVec 32 := Scalar.muli v113 c1_i32_102
  let v117 : BitVec 32 := Scalar.addi v115 v116
  v117.toNat
def k0_dev6 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v138 : BitVec 32 := Scalar.muli v2 c2_i32_122
  let v139 : BitVec 32 := Scalar.addi c0_i32_123 v138
  let c1_i32_117 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v137 : BitVec 32 := Scalar.subi c1_i32_117 v5
  let c1_i32_124 : BitVec 32 := 1#32
  let v140 : BitVec 32 := Scalar.muli v137 c1_i32_124
  let v141 : BitVec 32 := Scalar.addi v139 v140
  v141.toNat
def k0_off4 (d0 : Dev nD) (c0_i32_157 : BitVec 32) : Fin 2 → Nat :=
  let c0_i32_159 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_156 : BitVec 32 := 1024#32
  let v179 : BitVec 32 := Scalar.muli v2 c1024_i32_156
  let v180 : BitVec 32 := Scalar.addi v179 c0_i32_157
  ![0, v180.toNat]
def k0_dev7 (d0 : Dev nD) : Nat :=
  let c0_i32_167 : BitVec 32 := 0#32
  let c1_i32_161 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v185 : BitVec 32 := Scalar.subi c1_i32_161 v2
  let c2_i32_166 : BitVec 32 := 2#32
  let v186 : BitVec 32 := Scalar.muli v185 c2_i32_166
  let v187 : BitVec 32 := Scalar.addi c0_i32_167 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v188 : BitVec 32 := Scalar.muli v5 c1_i32_168
  let v189 : BitVec 32 := Scalar.addi v187 v188
  v189.toNat
def k0_dev8 (d0 : Dev nD) : Nat :=
  let c0_i32_209 : BitVec 32 := 0#32
  let c1_i32_203 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v230 : BitVec 32 := Scalar.subi c1_i32_203 v2
  let c2_i32_208 : BitVec 32 := 2#32
  let v231 : BitVec 32 := Scalar.muli v230 c2_i32_208
  let v232 : BitVec 32 := Scalar.addi c0_i32_209 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v233 : BitVec 32 := Scalar.muli v5 c1_i32_210
  let v234 : BitVec 32 := Scalar.addi v232 v233
  v234.toNat
def k0_dev9 (d0 : Dev nD) : Nat :=
  let c0_i32_251 : BitVec 32 := 0#32
  let c1_i32_245 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v275 : BitVec 32 := Scalar.subi c1_i32_245 v2
  let c2_i32_250 : BitVec 32 := 2#32
  let v276 : BitVec 32 := Scalar.muli v275 c2_i32_250
  let v277 : BitVec 32 := Scalar.addi c0_i32_251 v276
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v278 : BitVec 32 := Scalar.muli v5 c1_i32_252
  let v279 : BitVec 32 := Scalar.addi v277 v278
  v279.toNat
def k0_dev10 (d0 : Dev nD) : Nat :=
  let c0_i32_293 : BitVec 32 := 0#32
  let c1_i32_287 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v320 : BitVec 32 := Scalar.subi c1_i32_287 v2
  let c2_i32_292 : BitVec 32 := 2#32
  let v321 : BitVec 32 := Scalar.muli v320 c2_i32_292
  let v322 : BitVec 32 := Scalar.addi c0_i32_293 v321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_294 : BitVec 32 := 1#32
  let v323 : BitVec 32 := Scalar.muli v5 c1_i32_294
  let v324 : BitVec 32 := Scalar.addi v322 v323
  v324.toNat
def k0_off5 (d0 : Dev nD) (c0_i32_315 : BitVec 32) : Fin 2 → Nat :=
  let c0_i32_316 : BitVec 32 := 0#32
  let c1_i32_313 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v348 : BitVec 32 := Scalar.subi c1_i32_313 v2
  let c1024_i32_314 : BitVec 32 := 1024#32
  let v349 : BitVec 32 := Scalar.muli v348 c1024_i32_314
  let v350 : BitVec 32 := Scalar.addi v349 c0_i32_315
  ![0, v350.toNat]

class Facts₀ : Prop where
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S4_S1_0 : ∀ a, (![0] : Fin 1 → Nat) a + S1.size a ≤ S4.size a
  inb_S512x1024_S512x256_0_0 : ∀ a, (![0, 0] : Fin 2 → Nat) a + S512x256.size a ≤ S512x1024.size a
  inb_S4_S1_1 : ∀ a, (![1] : Fin 1 → Nat) a + S1.size a ≤ S4.size a
  inb_S512x1024_S512x256_0_256 : ∀ a, (![0, 256] : Fin 2 → Nat) a + S512x256.size a ≤ S512x1024.size a
  inb_S4_S1_2 : ∀ a, (![2] : Fin 1 → Nat) a + S1.size a ≤ S4.size a
  inb_S512x1024_S512x256_0_512 : ∀ a, (![0, 512] : Fin 2 → Nat) a + S512x256.size a ≤ S512x1024.size a
  inb_S4_S1_3 : ∀ a, (![3] : Fin 1 → Nat) a + S1.size a ≤ S4.size a
  inb_S512x1024_S512x256_0_768 : ∀ a, (![0, 768] : Fin 2 → Nat) a + S512x256.size a ≤ S512x1024.size a
  hamt_1 : (1#32 : BitVec 32).msb = false
  hamt_2 : (2#32 : BitVec 32).msb = false
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S1x256x256 : S256x256.ShapeCasts S1x256x256
  packedbf16_S4x256x256_S1x256x256_0_0_0 : (Rect.unit (s := S4x256x256) ![0, 0, 0] S1x256x256.size inb_S4x256x256_S1x256x256_0_0_0).PackedRows (EltTy.packing .bf16)
  squeezes_S1x256x256_S256x256 : S1x256x256.Squeezes S256x256
  wordsbf16_S4x256x256_S1x256x256_0_0_0 : (Rect.unit (s := S4x256x256) ![0, 0, 0] S1x256x256.size inb_S4x256x256_S1x256x256_0_0_0).WholeWords (EltTy.packing .bf16)
  inb_S4x256x256_S1x256x256_1_0_0 : ∀ a, (![1, 0, 0] : Fin 3 → Nat) a + S1x256x256.size a ≤ S4x256x256.size a
  packedbf16_S4x256x256_S1x256x256_1_0_0 : (Rect.unit (s := S4x256x256) ![1, 0, 0] S1x256x256.size inb_S4x256x256_S1x256x256_1_0_0).PackedRows (EltTy.packing .bf16)
  wordsbf16_S4x256x256_S1x256x256_1_0_0 : (Rect.unit (s := S4x256x256) ![1, 0, 0] S1x256x256.size inb_S4x256x256_S1x256x256_1_0_0).WholeWords (EltTy.packing .bf16)
  inb_S4x256x256_S1x256x256_2_0_0 : ∀ a, (![2, 0, 0] : Fin 3 → Nat) a + S1x256x256.size a ≤ S4x256x256.size a
  packedbf16_S4x256x256_S1x256x256_2_0_0 : (Rect.unit (s := S4x256x256) ![2, 0, 0] S1x256x256.size inb_S4x256x256_S1x256x256_2_0_0).PackedRows (EltTy.packing .bf16)
  wordsbf16_S4x256x256_S1x256x256_2_0_0 : (Rect.unit (s := S4x256x256) ![2, 0, 0] S1x256x256.size inb_S4x256x256_S1x256x256_2_0_0).WholeWords (EltTy.packing .bf16)
  inb_S4x256x256_S1x256x256_3_0_0 : ∀ a, (![3, 0, 0] : Fin 3 → Nat) a + S1x256x256.size a ≤ S4x256x256.size a
  packedbf16_S4x256x256_S1x256x256_3_0_0 : (Rect.unit (s := S4x256x256) ![3, 0, 0] S1x256x256.size inb_S4x256x256_S1x256x256_3_0_0).PackedRows (EltTy.packing .bf16)
  wordsbf16_S4x256x256_S1x256x256_3_0_0 : (Rect.unit (s := S4x256x256) ![3, 0, 0] S1x256x256.size inb_S4x256x256_S1x256x256_3_0_0).WholeWords (EltTy.packing .bf16)
  inb_S256x2048_S256x256_0_0 : ∀ a, (![0, 0] : Fin 2 → Nat) a + S256x256.size a ≤ S256x2048.size a
  h_S256x256 : 0 < S256x256.numel
  shapeCasts_S256x256_S256x256 : S256x256.ShapeCasts S256x256
  inb_S256x2048_S256x256_0_1024 : ∀ a, (![0, 1024] : Fin 2 → Nat) a + S256x256.size a ≤ S256x2048.size a
  inb_S8_S1_0 : ∀ a, (![0] : Fin 1 → Nat) a + S1.size a ≤ S8.size a
  inb_S256x2048_S256x256_0_256 : ∀ a, (![0, 256] : Fin 2 → Nat) a + S256x256.size a ≤ S256x2048.size a
  inb_S256x2048_S256x256_0_1280 : ∀ a, (![0, 1280] : Fin 2 → Nat) a + S256x256.size a ≤ S256x2048.size a
  inb_S8_S1_1 : ∀ a, (![1] : Fin 1 → Nat) a + S1.size a ≤ S8.size a
  inb_S256x2048_S256x256_0_512 : ∀ a, (![0, 512] : Fin 2 → Nat) a + S256x256.size a ≤ S256x2048.size a
  inb_S256x2048_S256x256_0_1536 : ∀ a, (![0, 1536] : Fin 2 → Nat) a + S256x256.size a ≤ S256x2048.size a
  inb_S8_S1_2 : ∀ a, (![2] : Fin 1 → Nat) a + S1.size a ≤ S8.size a
  inb_S256x2048_S256x256_0_768 : ∀ a, (![0, 768] : Fin 2 → Nat) a + S256x256.size a ≤ S256x2048.size a
  inb_S256x2048_S256x256_0_1792 : ∀ a, (![0, 1792] : Fin 2 → Nat) a + S256x256.size a ≤ S256x2048.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  dot_S512x256_S512x256_S256x256_0_0_1_1_n_n_wf : DotDims.WF S512x256 S512x256 S256x256 [0] [0] [1] [1] [] []
  hcc0_scratch8 : 0 + S4.numel ≤ 30
  hcc0_scratch9 : 4 + S4.numel ≤ 30
  hcc0_scratch10 : 8 + S4.numel ≤ 30
  hcc0_scratch11 : 12 + S4.numel ≤ 30
  hcc0_scratch12 : 16 + S4.numel ≤ 30
  hcc0_scratch13 : 20 + S2.numel ≤ 30
  hcc0_scratch14 : 22 + S8.numel ≤ 30
  k0_off1_inb : ∀ d0 : Dev nD, ∀ a, (k0_off1 d0) a + S512x256.size a ≤ S512x512.size a
  k0_off2_inb : ∀ d0 : Dev nD, ∀ a, (k0_off2 d0) a + S512x256.size a ≤ S512x512.size a
  k0_off3_inb : ∀ d0 : Dev nD, ∀ (r : Fin 4), ∀ a, (k0_off3 d0 (BitVec.ofNat 32 (256 * r.val))) a + S512x256.size a ≤ S512x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 4), ∀ a, (k0_off4 d0 (BitVec.ofNat 32 (256 * r.val))) a + S256x256.size a ≤ S256x2048.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off5_inb : ∀ d0 : Dev nD, ∀ (r : Fin 4), ∀ a, (k0_off5 d0 (BitVec.ofNat 32 (256 * r.val))) a + S256x256.size a ≤ S256x2048.size a

variable [Facts₀]

abbrev cc0_scratch8 : DmaSems sig S4 := SemArray.consecutive 0 S4 hcc0_scratch8
abbrev cc0_scratch9 : DmaSems sig S4 := SemArray.consecutive 4 S4 hcc0_scratch9
abbrev cc0_scratch10 : DmaSems sig S4 := SemArray.consecutive 8 S4 hcc0_scratch10
abbrev cc0_scratch11 : DmaSems sig S4 := SemArray.consecutive 12 S4 hcc0_scratch11
abbrev cc0_scratch12 : DmaSems sig S4 := SemArray.consecutive 16 S4 hcc0_scratch12
abbrev cc0_scratch13 : DmaSems sig S2 := SemArray.consecutive 20 S2 hcc0_scratch13
abbrev cc0_scratch14 : DmaSems sig S8 := SemArray.consecutive 22 S8 hcc0_scratch14
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x512_S512x1024_1_0 : S1024x512.Transposes [1, 0] S512x1024
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Vals.lean ====
/-
  The values the kernel moves, named once and for every float instance: on device `c` of the 2×2 mesh (logical id
  `2·mx + my`) the two column halves of its block of `x` (the half it keeps, columns `256·my …`, and the half it sends,
  columns `256·(1−my) …`), the four 256-column chunks of its half of `dy` (columns `1024·mx + 256·j …`), the partial
  products `x_sendᵀ · dy_j` it sends to its y-neighbour, the sums `x_keepᵀ · dy_j + (the y-neighbour's partial)` it
  stores and sends to its x-neighbour, and the result array: columns `1024·mx + 256·j …` hold the device's own sums,
  columns `1024·(1−mx) + 256·j …` those of the x-neighbour.
-/
import proofs.«900593_g7700000000000594_dist_rsdw_v7x_xy2x2_y_m512_d512_f2048_f32_1_alg».proof.Proof.Gen.KernelIdeal
import Idealize.ShloMosaic.Lib.ValueIdx

noncomputable section

namespace Cert.KernelIdeal.Vals

open Idealize.ShloMosaic Idealize.ShloMosaic.TcCoe Idealize.SL.Sem
open Cert.KernelIdeal Cert.KernelIdeal.Gen

variable {F : FTy → Type} [FloatOps F]

/-- The neighbour along the mesh axis `x`: `(mx, my) ↦ (1 − mx, my)`. -/
def xnb (c : Dev nD) : Dev nD := ⟨(c.val + 2) % 4, Nat.mod_lt _ (by decide)⟩
/-- The neighbour along the mesh axis `y`: `(mx, my) ↦ (mx, 1 − my)`. -/
def ynb (c : Dev nD) : Dev nD := ⟨(c.val + 1) - 2 * (c.val % 2), by have h : c.val < 4 := c.isLt; show _ < 4; omega⟩

theorem xnb_xnb (c : Dev nD) : xnb (xnb c) = c := by revert c; decide
theorem ynb_ynb (c : Dev nD) : ynb (ynb c) = c := by revert c; decide
theorem xnb_ne (c : Dev nD) : xnb c ≠ c := by revert c; decide
theorem ynb_ne (c : Dev nD) : ynb c ≠ c := by revert c; decide
theorem xnb_ne_ynb (c : Dev nD) : xnb c ≠ ynb c := by revert c; decide
theorem xnb_ynb (c : Dev nD) : xnb (ynb c) = ynb (xnb c) := by revert c; decide

variable (m : (ℓ : Loc nD τ sig) → Buf (Elt F) ℓ)

/-- The word the printed body adds for chunk `j`: `256·j`. -/
abbrev cw (j : Fin 4) : BitVec 32 := BitVec.ofNat 32 (256 * j.val)

/-- The slices of the argument and result arrays the body's copies name. -/
abbrev xsSrc (c : Dev nD) : Memref sig .tc .hbm S512x256 .f32 :=
  (Memref.whole main_arg0).slice (Rect.unit (s := S512x512) (k0_off1 c) S512x256.size (k0_off1_inb c)) (fun _ => rfl)
abbrev xkSrc (c : Dev nD) : Memref sig .tc .hbm S512x256 .f32 :=
  (Memref.whole main_arg0).slice (Rect.unit (s := S512x512) (k0_off2 c) S512x256.size (k0_off2_inb c)) (fun _ => rfl)
abbrev dySrc (c : Dev nD) (j : Fin 4) : Memref sig .tc .hbm S512x256 .f32 :=
  (Memref.whole main_arg1).slice (Rect.unit (s := S512x2048) (k0_off3 c (cw j)) S512x256.size (k0_off3_inb c j)) (fun _ => rfl)
abbrev outMine (c : Dev nD) (j : Fin 4) : Memref sig .tc .hbm S256x256 .f32 :=
  (Memref.whole main_v1).slice (Rect.unit (s := S256x2048) (k0_off4 c (cw j)) S256x256.size (k0_off4_inb c j)) (fun _ => rfl)
abbrev outTheirs (c : Dev nD) (j : Fin 4) : Memref sig .tc .hbm S256x256 .f32 :=
  (Memref.whole main_v1).slice (Rect.unit (s := S256x2048) (k0_off5 c (cw j)) S256x256.size (k0_off5_inb c j)) (fun _ => rfl)

/-- Device `c`'s half of `x` it sends on (as the transposed left factor), the half it keeps, chunk `j` of its half of `dy`. -/
def xsV (c : Dev nD) : Vec F S512x256 .f32 := (xsSrc c).view.read (Elt F) (m ((c : Thread nD τ).loc main_arg0))
def xkV (c : Dev nD) : Vec F S512x256 .f32 := (xkSrc c).view.read (Elt F) (m ((c : Thread nD τ).loc main_arg0))
def dyV (c : Dev nD) (j : Fin 4) : Vec F S512x256 .f32 := (dySrc c j).view.read (Elt F) (m ((c : Thread nD τ).loc main_arg1))

/-- `aᵀ · b` into a zero accumulator, as the body's `tpu.matmul` prints. -/
def mm (a b : Vec F S512x256 .f32) : FVec F S256x256 .f32 :=
  matmul dot_S512x256_S512x256_S256x256_0_0_1_1_n_n none a b (constant S256x256 .f32 0x00000000#32)

/-- The partial product device `c` sends to its y-neighbour for chunk `j` (narrowed to bf16). -/
def p1V (c : Dev nD) (j : Fin 4) : FVec F S256x256 .bf16 := truncf .bf16 (mm (xsV m c) (dyV m c j)) bitsLt_bf16_f32
/-- Device `c`'s own product for chunk `j`. -/
def keepV (c : Dev nD) (j : Fin 4) : FVec F S256x256 .f32 := mm (xkV m c) (dyV m c j)
/-- The sum over both row halves: device `c`'s own product plus the partial its y-neighbour sent. -/
def valV (c : Dev nD) (j : Fin 4) : FVec F S256x256 .f32 := addf (keepV m c j) (extf .f32 (p1V m (ynb c) j) bitsLt_bf16_f32)
/-- That sum as device `c` sends it to its x-neighbour (narrowed to bf16). -/
def p2V (c : Dev nD) (j : Fin 4) : FVec F S256x256 .bf16 := truncf .bf16 (valV m c j) bitsLt_bf16_f32
/-- What device `c` stores for the other column half: the x-neighbour's sum, widened again. -/
def theirsV (c : Dev nD) (j : Fin 4) : FVec F S256x256 .f32 := extf .f32 (p2V m (xnb c) j) bitsLt_bf16_f32

/-- A slot of a four-slot bf16 scratch buffer as the body stores and loads it: the 256×256 value under a leading unit axis. -/
def slotV (v : FVec F S256x256 .bf16) : FVec F S1x256x256 .bf16 := shapeCast S1x256x256 v shapeCasts_S256x256_S1x256x256

/-- A result array is right on device `c` when each of its eight 256-column slices holds the value the protocol
    delivers there: the device's own sums in its own column half, the x-neighbour's in the other. -/
def OutOk (c : Dev nD) (f : Buf (Elt F) ((c : Thread nD τ).loc main_v1)) : Prop :=
  (∀ j : Fin 4, (outMine c j).view.read (Elt F) f = valV m c j) ∧ (∀ j : Fin 4, (outTheirs c j).view.read (Elt F) f = theirsV m c j)

end Cert.KernelIdeal.Vals

end
-- ==== Proof.Proto.lean ====
/-
  The protocol of the fused product-and-exchange kernel on the 2×2 mesh, stated once for every float instance.
  Device `c` signals the barrier semaphore of both neighbours and waits for two units; sends chunk `j` of its
  partial product to its y-neighbour (send semaphore `s1s j`, landing on the neighbour's `s1r j`); adds what lands on
  its own `s1r j` to its own product and sends the sum to its x-neighbour (`s2s j`, landing on `s2r j`); and stores both
  its own sums and what lands on its `s2r j` into the result. Each of these semaphores is a cell of one round; the
  barrier's round has two duties (one unit from each neighbour), every other cell's round one duty.
-/
import proofs.«900593_g7700000000000594_dist_rsdw_v7x_xy2x2_y_m512_d512_f2048_f32_1_alg».proof.Proof.Vals
import proofs.«900593_g7700000000000594_dist_rsdw_v7x_xy2x2_y_m512_d512_f2048_f32_1_alg».proof.Proof.Gen.KernelIdeal.Launch
import proofs.«900593_g7700000000000594_dist_rsdw_v7x_xy2x2_y_m512_d512_f2048_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the rounds of the kernel's cells (duties `Bool`), the counters of its local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices the body addresses -/

theorem dev1_eq (c : Dev nD) : (⟨k0_dev1 c, k0_dev1_lt c⟩ : Dev nD) = xnb c := by revert c; decide +kernel
theorem dev2_eq (c : Dev nD) : (⟨k0_dev2 c, k0_dev2_lt c⟩ : Dev nD) = ynb c := by revert c; decide +kernel
theorem dev3_eq (c : Dev nD) : (⟨k0_dev3 c, k0_dev3_lt c⟩ : Dev nD) = ynb c := by revert c; decide +kernel
theorem dev4_eq (c : Dev nD) : (⟨k0_dev4 c, k0_dev4_lt c⟩ : Dev nD) = ynb c := by revert c; decide +kernel
theorem dev5_eq (c : Dev nD) : (⟨k0_dev5 c, k0_dev5_lt c⟩ : Dev nD) = ynb c := by revert c; decide +kernel
theorem dev6_eq (c : Dev nD) : (⟨k0_dev6 c, k0_dev6_lt c⟩ : Dev nD) = ynb c := by revert c; decide +kernel
theorem dev7_eq (c : Dev nD) : (⟨k0_dev7 c, k0_dev7_lt c⟩ : Dev nD) = xnb c := by revert c; decide +kernel
theorem dev8_eq (c : Dev nD) : (⟨k0_dev8 c, k0_dev8_lt c⟩ : Dev nD) = xnb c := by revert c; decide +kernel
theorem dev9_eq (c : Dev nD) : (⟨k0_dev9 c, k0_dev9_lt c⟩ : Dev nD) = xnb c := by revert c; decide +kernel
theorem dev10_eq (c : Dev nD) : (⟨k0_dev10 c, k0_dev10_lt c⟩ : Dev nD) = xnb c := by revert c; decide +kernel

def xswap : Dev nD ≃ Dev nD := ⟨xnb, xnb, xnb_xnb, xnb_xnb⟩
def yswap : Dev nD ≃ Dev nD := ⟨ynb, ynb, ynb_ynb, ynb_ynb⟩

/-! ## The memrefs -/

abbrev csM : Memref sig .tc .vmem S4x256x256 .bf16 := Memref.whole cc0_scratch0
abbrev rsM : Memref sig .tc .vmem S4x256x256 .bf16 := Memref.whole cc0_scratch1
abbrev psM : Memref sig .tc .vmem S4x256x256 .bf16 := Memref.whole cc0_scratch2
abbrev prM : Memref sig .tc .vmem S4x256x256 .bf16 := Memref.whole cc0_scratch3
abbrev dyhM : Memref sig .tc .vmem S512x1024 .f32 := Memref.whole cc0_scratch4
abbrev xkM : Memref sig .tc .vmem S512x256 .f32 := Memref.whole cc0_scratch5
abbrev xsM : Memref sig .tc .vmem S512x256 .f32 := Memref.whole cc0_scratch6
abbrev ovM : Memref sig .tc .vmem S256x2048 .f32 := Memref.whole cc0_scratch7

theorem slot_inb (j : Fin 4) : ∀ a, (![j.val, 0, 0] : Fin 3 → Nat) a + S1x256x256.size a ≤ S4x256x256.size a := by
  revert j; decide

/-- Slot `j` of a four-slot scratch buffer, as the body's transfers name it: the slice under its leading index, squeezed. -/
abbrev slot (M : Memref sig .tc .vmem S4x256x256 .bf16) (j : Fin 4) : Memref sig .tc .vmem S256x256 .bf16 :=
  (M.slice (Rect.unit (s := S4x256x256) ![j.val, 0, 0] S1x256x256.size (slot_inb j)) (fun _ => rfl)).squeeze S256x256 squeezes_S1x256x256_S256x256

theorem sem4_inb (j : Fin 4) : ∀ a, (![j.val] : Fin 1 → Nat) a + S1.size a ≤ S4.size a := by revert j; decide

/-- Semaphore `j` of a four-semaphore array, as the body names it. -/
abbrev sem4 (A : DmaSems sig S4) (j : Fin 4) : DmaSem sig :=
  ((A.slice (Rect.unit (s := S4) ![j.val] S1.size (sem4_inb j))).squeeze S_ squeezes_S1_S_).sem

/-- The runtime's barrier semaphore of collective id 0 (unscoped). -/
abbrev barS : Sem sig := (SemArray.scalar (sig.barrier 0 rfl) : Sems sig S_).sem

abbrev s1s (j : Fin 4) : DmaSem sig := sem4 cc0_scratch8 j
abbrev s1r (j : Fin 4) : DmaSem sig := sem4 cc0_scratch9 j
abbrev s2s (j : Fin 4) : DmaSem sig := sem4 cc0_scratch10 j
abbrev s2r (j : Fin 4) : DmaSem sig := sem4 cc0_scratch11 j

theorem s1s_val (j : Fin 4) : (s1s j).val = j.val := by revert j; decide
theorem s1r_val (j : Fin 4) : (s1r j).val = 4 + j.val := by revert j; decide
theorem s2s_val (j : Fin 4) : (s2s j).val = 8 + j.val := by revert j; decide
theorem s2r_val (j : Fin 4) : (s2r j).val = 12 + j.val := by revert j; decide

abbrev barCell (c : Dev nD) : GSem nD τ sig := ((c : Thread nD τ), .reg barS)
abbrev dCell (c : Dev nD) (q : DmaSem sig) : GSem nD τ sig := ((c : Thread nD τ), .dma q)

/-- The credit of one slot's transfer. -/
abbrev N : ℕ := (slot rsM 0).view.dmaCredit
theorem N_pos : 0 < N := View.dmaCredit_pos _ (by decide)
theorem slot_credit (M : Memref sig .tc .vmem S4x256x256 .bf16) (j : Fin 4) : (slot M j).view.dmaCredit = N := rfl

/-! ## What the landings hand over -/

/-- A whole four-slot scratch buffer of device `c`, at any contents. -/
def bufAny (b : Ref sig .tc) (c : Dev nD) : sProp 𝕄 := iprop(∃ f : Buf (Elt F) ((c : Thread nD τ).loc b), ((c : Thread nD τ).loc b) ↦{fullShare} f)
/-- Slot `j` of a four-slot scratch buffer of device `c`, at any contents. -/
def slotAny (M : Memref sig .tc .vmem S4x256x256 .bf16) (c : Dev nD) (j : Fin 4) : sProp 𝕄 :=
  iprop(∃ f : Buf (Elt F) ((slot M j).view.loc (c : Thread nD τ)), (slot M j).view.loc (c : Thread nD τ) ↦[(slot M j).view.set]{fullShare} f)
/-- Slot `j` of a four-slot scratch buffer of device `c`, read through the slot's view as the value `v`. -/
def slotIs (M : Memref sig .tc .vmem S4x256x256 .bf16) (c : Dev nD) (j : Fin 4) (v : FVec F S256x256 .bf16) : sProp 𝕄 :=
  iprop(∃ f : Buf (Elt F) ((slot M j).view.loc (c : Thread nD τ)), ⌜(slot M j).view.read (Elt F) f = v⌝
    ∗ ((slot M j).view.loc (c : Thread nD τ) ↦[(slot M j).view.set]{fullShare} f))

/-- What lands on `s1r j` of device `c`: its receive slot `j` holding the y-neighbour's partial product. -/
def rsPay (c : Dev nD) (j : Fin 4) : sProp 𝕄 := slotIs rsM c j (p1V m (ynb c) j)
/-- What lands on `s2r j` of device `c`: its second receive slot `j` holding the x-neighbour's sum. -/
def prPay (c : Dev nD) (j : Fin 4) : sProp 𝕄 := slotIs prM c j (p2V m (xnb c) j)

def jOf (q : DmaSem sig) : Fin 4 := ⟨q.val % 4, Nat.mod_lt _ (by decide)⟩

/-- The payload of the one duty of an exchange cell, by the semaphore's place among the sixteen. -/
def xPay (c : Dev nD) (q : DmaSem sig) : sProp 𝕄 :=
  if q.val < 4 then slotAny csM c (jOf q) else if q.val < 8 then rsPay m c (jOf q)
  else if q.val < 12 then slotAny psM c (jOf q) else prPay m c (jOf q)

/-! ## The schedule -/

/-- One round. A barrier cell has two duties of one unit: `false`, paid by the x-neighbour, handing over that
    neighbour's second receive buffer; `true`, paid by the y-neighbour, handing over that neighbour's first receive buffer.
    Each of the sixteen exchange cells has the duty `false` of one slot's credit. -/
def sched : Rounds.Schedule (GSem nD τ sig) Bool 𝕄 where
  duties g r := if r = 0 ∧ g.1.2 = .tc then
      (match g.2 with | .reg s => if s = barS then Finset.univ else ∅ | .dma q => if q.val < 16 then {false} else ∅) else ∅
  unitless _ := False
  amount g _ _ := match g.2 with | .reg _ => 1 | .dma _ => N
  payload g _ d := match g.2 with
    | .reg _ => if d then bufAny cc0_scratch1 (ynb g.1.1) else bufAny cc0_scratch3 (xnb g.1.1)
    | .dma q => if q.val < 16 then xPay m g.1.1 q else iprop(emp)
  amount_pos g _ _ _ := by
    cases g.2
    · exact Nat.one_pos
    · exact N_pos

instance sched_payload_storable (g : GSem nD τ sig) (r : ℕ) (d : Bool) :
    BI.Storable (upEmb : UEmb _ 𝕄) ((sched (F := F) m).payload g r d) := by
  show BI.Storable upEmb (match g.2 with
    | .reg _ => if d then bufAny cc0_scratch1 (ynb g.1.1) else bufAny cc0_scratch3 (xnb g.1.1)
    | .dma q => if q.val < 16 then xPay m g.1.1 q else iprop(emp))
  unfold xPay rsPay prPay slotIs slotAny bufAny
  (repeat' split) <;> infer_instance

section Sched
variable (c : Dev nD)

theorem duties_bar : (sched (F := F) m).duties (barCell c) 0 = Finset.univ := by
  dsimp only [sched]; rw [if_pos ⟨rfl, rfl⟩]; exact if_pos rfl
theorem duties_x (q : DmaSem sig) (hq : q.val < 16) : (sched (F := F) m).duties (dCell c q) 0 = {false} := by
  dsimp only [sched]; rw [if_pos ⟨rfl, rfl⟩]; exact if_pos hq
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_x (q : DmaSem sig) (d : Bool) : (sched (F := F) m).amount (dCell c q) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x (q : DmaSem sig) (hq : q.val < 16) : (sched (F := F) m).expect (dCell c q) 0 = N := by
  unfold Schedule.expect Schedule.amountOf; rw [duties_x m c q hq, Finset.sum_singleton, amount_x]

theorem payload_bar_true : (sched (F := F) m).payload (barCell c) 0 true = bufAny cc0_scratch1 (ynb c) := by
  dsimp only [sched]; exact if_pos rfl
theorem payload_bar_false : (sched (F := F) m).payload (barCell c) 0 false = bufAny cc0_scratch3 (xnb c) := by
  dsimp only [sched]; exact if_neg Bool.false_ne_true
theorem payload_x (q : DmaSem sig) (hq : q.val < 16) (d : Bool) : (sched (F := F) m).payload (dCell c q) 0 d = xPay m c q := by
  dsimp only [sched]; exact if_pos hq
theorem payload_s1s (j : Fin 4) (d : Bool) : (sched (F := F) m).payload (dCell c (s1s j)) 0 d = slotAny csM c j := by
  rw [payload_x m c _ (by rw [s1s_val]; omega)]; revert j; intro j; fin_cases j <;> rfl
theorem payload_s1r (j : Fin 4) (d : Bool) : (sched (F := F) m).payload (dCell c (s1r j)) 0 d = rsPay m c j := by
  rw [payload_x m c _ (by rw [s1r_val]; omega)]; fin_cases j <;> rfl
theorem payload_s2s (j : Fin 4) (d : Bool) : (sched (F := F) m).payload (dCell c (s2s j)) 0 d = slotAny psM c j := by
  rw [payload_x m c _ (by rw [s2s_val]; omega)]; fin_cases j <;> rfl
theorem payload_s2r (j : Fin 4) (d : Bool) : (sched (F := F) m).payload (dCell c (s2r j)) 0 d = prPay m c j := by
  rw [payload_x m c _ (by rw [s2r_val]; omega)]; fin_cases j <;> rfl

/-- The whole of the barrier cell's round: both neighbours' receive buffers. -/
theorem rest_bar : bigSep ((sched (F := F) m).duties (barCell c) 0 \ ∅) (fun d => (sched (F := F) m).payload (barCell c) 0 d)
    = iprop(bufAny cc0_scratch3 (xnb c) ∗ bufAny cc0_scratch1 (ynb c)) := by
  rw [Finset.sdiff_empty, duties_bar, bigSep_univ_eq_bigSepL [false, true] (by decide) (by decide), bigSepL_cons_cons, bigSepL_singleton,
    payload_bar_false, payload_bar_true]
  rfl
theorem rest_x (q : DmaSem sig) (hq : q.val < 16) :
    bigSep ((sched (F := F) m).duties (dCell c q) 0 \ ∅) (fun d => (sched (F := F) m).payload (dCell c q) 0 d) = xPay m c q := by
  rw [Finset.sdiff_empty, duties_x m c q hq, bigSep_singleton, payload_x m c q hq]

end Sched

/-! ## What each device owes at launch, in the order it pays; the levels -/

def O9 (c : Dev nD) : CellTallies nD τ sig Unit := 0 + tallyAt (dCell (xnb c) (s2r 3)) () N
def O8 (c : Dev nD) : CellTallies nD τ sig Unit := O9 c + tallyAt (dCell (xnb c) (s2r 2)) () N
def O7 (c : Dev nD) : CellTallies nD τ sig Unit := O8 c + tallyAt (dCell (xnb c) (s2r 1)) () N
def O6 (c : Dev nD) : CellTallies nD τ sig Unit := O7 c + tallyAt (dCell (xnb c) (s2r 0)) () N
def O5 (c : Dev nD) : CellTallies nD τ sig Unit := O6 c + tallyAt (dCell (ynb c) (s1r 3)) () N
def O4 (c : Dev nD) : CellTallies nD τ sig Unit := O5 c + tallyAt (dCell (ynb c) (s1r 2)) () N
def O3 (c : Dev nD) : CellTallies nD τ sig Unit := O4 c + tallyAt (dCell (ynb c) (s1r 1)) () N
def O2 (c : Dev nD) : CellTallies nD τ sig Unit := O3 c + tallyAt (dCell (ynb c) (s1r 0)) () N
def O1 (c : Dev nD) : CellTallies nD τ sig Unit := O2 c + tallyAt (barCell (ynb c)) () 1
/-- Device `c` owes: one unit to each neighbour's barrier cell (the x-neighbour's first), then a slot's credit to each of
    the y-neighbour's four first receive cells, then to each of the x-neighbour's four second receive cells. -/
def O₀ (c : Dev nD) : CellTallies nD τ sig Unit := O1 c + tallyAt (barCell (xnb c)) () 1

def L (g : GSem nD τ sig) : Finset Unit := if g.1.2 = .tc then {()} else ∅
/-- Barrier cells at 1, first receive cells at 2, second receive cells at 3, every other cell at 0. -/
def lv (g : GSem nD τ sig) (_ : Unit) : ℕ :=
  match g.2 with
  | .reg _ => 1
  | .dma q => if 4 ≤ q.val ∧ q.val < 8 then 2 else if 12 ≤ q.val ∧ q.val < 16 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Where a sum of two tallies is positive, one of them is. -/
theorem add_pos' {A B : CellTallies nD τ sig Unit} {g : GSem nD τ sig} {u : Unit} (h : 0 < (A + B) g u) : 0 < A g u ∨ 0 < B g u := by
  rw [Pi.add_apply, Finsupp.add_apply] at h; omega
theorem tally_pos {g' g : GSem nD τ sig} {k : ℕ} {u : Unit} (h : 0 < tallyAt g' () k g u) : g = g' := by
  rw [tallyAt_apply] at h
  by_contra hn
  rw [if_neg (fun h' => hn h'.1)] at h
  exact Nat.lt_irrefl 0 h

theorem O6_pos {c : Dev nD} {g : GSem nD τ sig} {u : Unit} (h : 0 < O6 c g u) : ∃ j : Fin 4, g = dCell (xnb c) (s2r j) := by
  unfold O6 O7 O8 O9 at h
  rcases add_pos' h with h | h
  · rcases add_pos' h with h | h
    · rcases add_pos' h with h | h
      · rcases add_pos' h with h | h
        · exact absurd h (by simp)
        · exact ⟨3, tally_pos h⟩
      · exact ⟨2, tally_pos h⟩
    · exact ⟨1, tally_pos h⟩
  · exact ⟨0, tally_pos h⟩
theorem O2_pos {c : Dev nD} {g : GSem nD τ sig} {u : Unit} (h : 0 < O2 c g u) :
    (∃ j : Fin 4, g = dCell (xnb c) (s2r j)) ∨ ∃ j : Fin 4, g = dCell (ynb c) (s1r j) := by
  unfold O2 O3 O4 O5 at h
  rcases add_pos' h with h | h
  · rcases add_pos' h with h | h
    · rcases add_pos' h with h | h
      · rcases add_pos' h with h | h
        · exact .inl (O6_pos h)
        · exact .inr ⟨3, tally_pos h⟩
      · exact .inr ⟨2, tally_pos h⟩
    · exact .inr ⟨1, tally_pos h⟩
  · exact .inr ⟨0, tally_pos h⟩
theorem O₀_pos {c : Dev nD} {g : GSem nD τ sig} {u : Unit} (h : 0 < O₀ c g u) :
    (∃ j : Fin 4, g = dCell (xnb c) (s2r j)) ∨ (∃ j : Fin 4, g = dCell (ynb c) (s1r j)) ∨ g = barCell (ynb c) ∨ g = barCell (xnb c) := by
  unfold O₀ O1 at h
  rcases add_pos' h with h | h
  · rcases add_pos' h with h | h
    · rcases O2_pos h with h | h
      · exact .inl h
      · exact .inr (.inl h)
    · exact .inr (.inr (.inl (tally_pos h)))
  · exact .inr (.inr (.inr (tally_pos h)))

theorem lv_s1r (c : Dev nD) (j : Fin 4) : lv (dCell c (s1r j)) () = 2 := by fin_cases j <;> rfl
theorem lv_s2r (c : Dev nD) (j : Fin 4) : lv (dCell c (s2r j)) () = 3 := by fin_cases j <;> rfl
theorem lv_bar (c : Dev nD) : lv (barCell c) () = 1 := rfl

/-- A wait on device `c`'s cell `sm` is allowed when every cell the device still owes sits strictly above it. -/
theorem mayWait_of_pos (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    fun g i hg => ⟨by unfold L; rw [if_pos (h g i hg).1]; exact Finset.mem_singleton_self _, (h g i hg).2⟩

theorem pos_add_left {A B : CellTallies nD τ sig Unit} {g : GSem nD τ sig} {u : Unit} (h : 0 < A g u) : 0 < (A + B) g u := by
  rw [Pi.add_apply, Finsupp.add_apply]; omega

/-- While it still owes first or second receive credits only (from the barrier wait on), device `c` may wait on any
    of its cells of level at most 1. -/
theorem mayWait_O2 (c : Dev nD) (sm : SemLoc sig) (hsm : lv ((c : Thread nD τ), sm) () ≤ 1) (O : CellTallies nD τ sig Unit)
    (hO : ∀ g u, 0 < O g u → 0 < O2 c g u) : (levAts L lv : sProp 𝕄) ⊢ MayWait (c : Thread nD τ) sm () O :=
  mayWait_of_pos c sm O fun g u hg => by
    rcases O2_pos (hO g u hg) with ⟨j, rfl⟩ | ⟨j, rfl⟩
    · exact ⟨rfl, by rw [lv_s2r]; omega⟩
    · exact ⟨rfl, by rw [lv_s1r]; omega⟩
/-- While it still owes second receive credits only, device `c` may wait on any of its cells of level at most 2. -/
theorem mayWait_O6 (c : Dev nD) (sm : SemLoc sig) (hsm : lv ((c : Thread nD τ), sm) () ≤ 2) (O : CellTallies nD τ sig Unit)
    (hO : ∀ g u, 0 < O g u → 0 < O6 c g u) : (levAts L lv : sProp 𝕄) ⊢ MayWait (c : Thread nD τ) sm () O :=
  mayWait_of_pos c sm O fun g u hg => by
    rcases O6_pos (hO g u hg) with ⟨j, rfl⟩
    exact ⟨rfl, by rw [lv_s2r]; omega⟩

/-! ## The cells, indexed; the ghost state -/

/-- The seventeen cells of a device under the rounds discipline: the barrier, then the sixteen exchange semaphores. -/
abbrev csem : Fin 17 → SemLoc sig := fun k =>
  if k.val = 0 then .reg barS else .dma ⟨k.val - 1, by have := k.isLt; show k.val - 1 < 30; omega⟩
abbrev kcell (ck : Dev nD × Fin 17) : GSem nD τ sig := ((ck.1 : Thread nD τ), csem ck.2)
/-- The kernel's own (scoped) semaphores, as the launch indexes them: all thirty DMA semaphores. -/
abbrev osem : Fin 30 → SemLoc sig := fun k => .dma k
/-- The fourteen semaphores of the local copies. -/
abbrev lsem (k : Fin 14) : DmaSem sig := ⟨16 + k.val, by have := k.isLt; show 16 + k.val < 30; omega⟩

abbrev 𝒱₀ : Variants := Variants.none

/-- Every cell's invariant, under the names `K`, and that round 0 of every cell is reached. -/
def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

/-- The tokens of the duties device `c` pays: one on each neighbour's barrier cell, one on each of the y-neighbour's
    first receive cells and of the x-neighbour's second receive cells, one on each of its own send cells. -/
def payToks (c : Dev nD) : sProp 𝕄 :=
  iprop(dutyTok ER (barCell (xnb c)) 0 false ∗ dutyTok ER (barCell (ynb c)) 0 true
    ∗ (bigSep Finset.univ fun j : Fin 4 => dutyTok ER (dCell (ynb c) (s1r j)) 0 false)
    ∗ (bigSep Finset.univ fun j : Fin 4 => dutyTok ER (dCell (xnb c) (s2r j)) 0 false)
    ∗ (bigSep Finset.univ fun j : Fin 4 => dutyTok ER (dCell c (s1s j)) 0 false)
    ∗ (bigSep Finset.univ fun j : Fin 4 => dutyTok ER (dCell c (s2s j)) 0 false))
/-- What stays with device `c`: its position at the start of round 0 of each of its cells, and the tokens it pays with. -/
def linear (c : Dev nD) : sProp 𝕄 :=
  iprop((bigSep Finset.univ fun k : Fin 17 => atPos ER (kcell (c, k)) 0 ∅ 0) ∗ payToks c)
def ghost (K : Dev nD × Fin 17 → ℕ) (c : Dev nD) : sProp 𝕄 := iprop(records m K ∗ linear c)

/-- The local copies' semaphores at zero. -/
def localSems (c : Dev nD) : sProp 𝕄 := bigSep Finset.univ fun k : Fin 14 => semVal (dCell c (lsem k)) 0
/-- The credit dealt to device `c` at launch: its barrier's two units and a slot's credit on each receive cell. -/
def creds (c : Dev nD) : sProp 𝕄 :=
  iprop(cred (tallyAt (barCell c) () 2)
    ∗ (bigSep Finset.univ fun j : Fin 4 => cred (tallyAt (dCell c (s1r j)) () N))
    ∗ (bigSep Finset.univ fun j : Fin 4 => cred (tallyAt (dCell c (s2r j)) () N)))
/-- The argument arrays and the result array as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))
/-- The argument arrays unchanged and the result array right (`Vals.OutOk`). -/
def outArgs (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ f : Buf (Elt F) ((c : Thread nD τ).loc main_v1), ⌜OutOk m c f⌝ ∗ (((c : Thread nD τ).loc main_v1) ↦{fullShare} f))
/-- The eight scratch buffers, each whole at some contents. -/
def scratch (c : Dev nD) : sProp 𝕄 :=
  iprop(bufAny cc0_scratch0 c ∗ bufAny cc0_scratch1 c ∗ bufAny cc0_scratch2 c ∗ bufAny cc0_scratch3 c
    ∗ bufAny cc0_scratch4 c ∗ bufAny cc0_scratch5 c ∗ bufAny cc0_scratch6 c ∗ bufAny cc0_scratch7 c)

/-- What the global step deals device `c`. -/
def G' (c : Dev nD) : sProp 𝕄 := iprop((∃ K, ghost m K c) ∗ localSems c)
/-- What device `c`'s body starts from, the scratch buffers apart. -/
def start (c : Dev nD) : sProp 𝕄 := iprop(G' m c ∗ creds c ∗ levAts L lv ∗ args m c)
def Φ₀ (c : Dev nD) : sProp 𝕄 := iprop(start m c ∗ scratch c)
/-- After the body: the scratch buffers, every own semaphore at zero, the arrays. -/
def Φ₁ (c : Dev nD) : sProp 𝕄 :=
  iprop(scratch c ∗ Pipeline.ownSems0 (Ix := Unit) (Name := ℕ) (U := UU) (Lvl := ℕ) (Val := Elt F) (τ := τ) osem c ∗ outArgs m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body's proof starts from, the names `K` and the recorded waits `W` fixed. -/
def bodyPre (K : Dev nD × Fin 17 → ℕ) (c : Dev nD) (W : Waits sig Unit) : sProp 𝕄 :=
  iprop(ghost m K c ∗ localSems c ∗ creds c ∗ levAts L lv ∗ args m c ∗ scratch c ∗ owes (c : Thread nD τ) (O₀ c) W)
/-- What it ends with. -/
def bodyPost (c : Dev nD) : sProp 𝕄 := iprop(Φ₁ m c ∗ ∃ W', owes (c : Thread nD τ) 0 W')

end Cert.KernelIdeal.Proto

end
-- ==== Proof.Steps.lean ====
/-
  The protocol's steps as rules at the kernel's own cells: the two barrier signals and the barrier wait, and for each
  chunk `j` the transfer to the y-neighbour, the transfer to the x-neighbour, and the waits on the four exchange
  semaphores — each the rounds discipline's rule at this schedule's duty, amount and payload.
-/
import proofs.«900593_g7700000000000594_dist_rsdw_v7x_xy2x2_y_m512_d512_f2048_f32_1_alg».proof.Proof.Proto
import Idealize.ShloMosaic.Lib.Pipeline.Value
import Idealize.ShloMosaic.Lib.Tactic

noncomputable section

namespace Cert.KernelIdeal.Steps

open Cert.KernelIdeal Cert.KernelIdeal.Gen Cert.KernelIdeal.Vals Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells' invariants and reached rounds, out of the records -/

/-- The index of an exchange semaphore among a device's seventeen cells. -/
abbrev xIdx (q : DmaSem sig) (hq : q.val < 16) : Fin 17 := ⟨q.val + 1, by omega⟩

theorem kcell_bar (c : Dev nD) : kcell (c, (0 : Fin 17)) = barCell c := rfl
theorem kcell_x (c : Dev nD) (q : DmaSem sig) (hq : q.val < 16) : kcell (c, xIdx q hq) = dCell c q := by
  show ((c : Thread nD τ), csem (xIdx q hq)) = ((c : Thread nD τ), SemLoc.dma q)
  congr 1

theorem inv_bar (K : Dev nD × Fin 17 → ℕ) (c : Dev nD) :
    records m K ⊢ cellInv ER (sched m) (K (c, 0)) (barCell c) :=
  BI.Entails.trans (BI.Entails.trans BI.sep_and BI.and_elimL) (bigSep_elim (Finset.mem_univ ((c, 0) : Dev nD × Fin 17)))
theorem inv_x (K : Dev nD × Fin 17 → ℕ) (c : Dev nD) (q : DmaSem sig) (hq : q.val < 16) :
    records m K ⊢ cellInv ER (sched m) (K (c, xIdx q hq)) (dCell c q) := by
  rw [← kcell_x c q hq]
  exact BI.Entails.trans (BI.Entails.trans BI.sep_and BI.and_elimL) (bigSep_elim (Finset.mem_univ ((c, xIdx q hq) : Dev nD × Fin 17)))
theorem reached_bar (K : Dev nD × Fin 17 → ℕ) (c : Dev nD) :
    records m K ⊢ (reached ER (barCell c) 0 : sProp 𝕄) :=
  BI.Entails.trans (BI.Entails.trans BI.sep_and BI.and_elimR) (bigSep_elim (Finset.mem_univ ((c, 0) : Dev nD × Fin 17)))
theorem reached_x (K : Dev nD × Fin 17 → ℕ) (c : Dev nD) (q : DmaSem sig) (hq : q.val < 16) :
    records m K ⊢ (reached ER (dCell c q) 0 : sProp 𝕄) := by
  rw [← kcell_x c q hq]
  exact BI.Entails.trans (BI.Entails.trans BI.sep_and BI.and_elimR) (bigSep_elim (Finset.mem_univ ((c, xIdx q hq) : Dev nD × Fin 17)))

/-- Every slot's transfer credits the same amount: the credit depends on the shape and the element type alone. -/
theorem slot_credit' (M : Memref sig .tc .vmem S4x256x256 .bf16) (j : Fin 4) : (slot M j).view.dmaCredit = N := rfl

theorem s1s_lt (j : Fin 4) : (s1s j).val < 16 := by rw [s1s_val]; omega
theorem s1r_lt (j : Fin 4) : (s1r j).val < 16 := by rw [s1r_val]; omega
theorem s2s_lt (j : Fin 4) : (s2s j).val < 16 := by rw [s2s_val]; omega
theorem s2r_lt (j : Fin 4) : (s2r j).val < 16 := by rw [s2r_val]; omega

/-! ## The two barrier signals and the barrier wait -/

/-- The first signal, to the x-neighbour's barrier cell: its duty `false`, handing over the device's own second
    receive buffer. -/
theorem sig_x (K : Dev nD × Fin 17 → ℕ) (c n : Dev nD) (hn : n = xnb c)
    {α : Type} {Q : α → sProp 𝕄} {k : PUnit → Prog (TpuEff nD τ sig (Elt F) Λ₀ .tc) α}
    (W : Waits sig Unit) (f : Buf (Elt F) ((c : Thread nD τ).loc cc0_scratch3)) :
    iprop(records m K ∗ owes (c : Thread nD τ) (O₀ c) W ∗ dutyTok ER (barCell (xnb c)) 0 false
        ∗ (((c : Thread nD τ).loc cc0_scratch3) ↦{fullShare} f))
      ⊢ iprop((owes (c : Thread nD τ) (O1 c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  iintro ⟨#Hrec, HO, Htok, Hbuf⟩ Hk
  iapply (Rounds.wp_signal 𝒱₀ ER (sched m) (c : Thread nD τ) none (dst := (xnb c : Thread nD τ)) (κ := K (xnb c, 0))
      (d := false) (by rw [duties_bar]; exact Finset.mem_univ _) ((amount_bar m (xnb c) false).trans (by decide)) () (O1 c) rfl)
    $$ [HO Htok Hbuf] Hk
  isplitr; · iapply (inv_bar m K (xnb c)); iexact Hrec
  isplitl [HO]; · iexact HO
  isplitl [Htok]; · iexact Htok
  isplitl [Hbuf]
  · rw [payload_bar_false, xnb_xnb]; unfold bufAny; iexists f; iexact Hbuf
  · iapply (reached_bar m K (xnb c)); iexact Hrec

/-- The second signal, to the y-neighbour's barrier cell: its duty `true`, handing over the device's own first
    receive buffer. -/
theorem sig_y (K : Dev nD × Fin 17 → ℕ) (c n : Dev nD) (hn : n = ynb c)
    {α : Type} {Q : α → sProp 𝕄} {k : PUnit → Prog (TpuEff nD τ sig (Elt F) Λ₀ .tc) α}
    (W : Waits sig Unit) (f : Buf (Elt F) ((c : Thread nD τ).loc cc0_scratch1)) :
    iprop(records m K ∗ owes (c : Thread nD τ) (O1 c) W ∗ dutyTok ER (barCell (ynb c)) 0 true
        ∗ (((c : Thread nD τ).loc cc0_scratch1) ↦{fullShare} f))
      ⊢ iprop((owes (c : Thread nD τ) (O2 c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  iintro ⟨#Hrec, HO, Htok, Hbuf⟩ Hk
  iapply (Rounds.wp_signal 𝒱₀ ER (sched m) (c : Thread nD τ) none (dst := (ynb c : Thread nD τ)) (κ := K (ynb c, 0))
      (d := true) (by rw [duties_bar]; exact Finset.mem_univ _) ((amount_bar m (ynb c) true).trans (by decide)) () (O2 c) rfl)
    $$ [HO Htok Hbuf] Hk
  isplitr; · iapply (inv_bar m K (ynb c)); iexact Hrec
  isplitl [HO]; · iexact HO
  isplitl [Htok]; · iexact Htok
  isplitl [Hbuf]
  · rw [payload_bar_true, ynb_ynb]; unfold bufAny; iexists f; iexact Hbuf
  · iapply (reached_bar m K (ynb c)); iexact Hrec

/-- The wait for both units of the own barrier cell: both neighbours' receive buffers come with it. -/
theorem wait_bar (K : Dev nD × Fin 17 → ℕ) (c : Dev nD)
    {α : Type} {Q : α → sProp 𝕄} {k : PUnit → Prog (TpuEff nD τ sig (Elt F) Λ₀ .tc) α}
    (W : Waits sig Unit) :
    iprop(records m K ∗ cred (tallyAt (barCell c) () 2) ∗ owes (c : Thread nD τ) (O2 c) W
        ∗ atPos ER (barCell c) 0 ∅ 0 ∗ levAts L lv)
      ⊢ iprop(((owes (c : Thread nD τ) (O2 c) (insert (SemLoc.reg barS, ()) W) ∗ atPos ER (barCell c) 1 ∅ 0
              ∗ bufAny cc0_scratch3 (xnb c) ∗ bufAny cc0_scratch1 (ynb c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (2#32).toNat) k) Q) := by
  have h2 : (2#32).toNat = 2 := by decide
  rw [h2]
  iintro ⟨#Hrec, Hc, HO, Hat, #Hlev⟩ Hk
  iapply (Rounds.wp_wait_rest_token 𝒱₀ ER (sched m) (c : Thread nD τ) none (κ := K (c, 0))
      (wpE_semWait_eq 𝒱₀ (c : Thread nD τ) none Set.univ) (Set.mem_univ _) () (O := O2 c) (W := W) (R := 0) (m := 0) (T := ∅)
      (by rw [expect_bar])) $$ [Hc HO Hat]
  · isplitr; · iapply (inv_bar m K c); iexact Hrec
    isplitl [Hc]; · iexact Hc
    isplitl [HO]; · iexact HO
    isplitr
    · iapply (mayWait_O2 c (SemLoc.reg barS) (by rw [lv_bar]) (O2 c) (fun _ _ h => h)); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## The transfers -/

/-- The transfer of chunk `j` of the partial product to the y-neighbour. -/
theorem send1 (K : Dev nD × Fin 17 → ℕ) (c n : Dev nD) (hn : n = ynb c) (j : Fin 4)
    {hsc : (slot rsM j : Memref sig (Dev.tc n : Thread nD τ).2.kind .vmem S256x256 .bf16).view.ref.isScScratch = false}
    {hsrc : (slot csM j).view.WordExact} {hdst : (slot rsM j).view.WordExact}
    {hsem : DmaTarget.Typed .vmem (.dma (s1r j)) (.remote (Dev.tc n : Thread nD τ) (slot rsM j) (.dma (s1s j)) hsc)}
    {α : Type} {Q : α → sProp 𝕄} {k : PUnit → Prog (TpuEff nD τ sig (Elt F) Λ₀ .tc) α}
    (fs : Buf (Elt F) ((slot csM j).view.loc (c : Thread nD τ))) (hfs : (slot csM j).view.read (Elt F) fs = p1V m c j)
    (fd : Buf (Elt F) ((slot rsM j).view.loc (ynb c : Thread nD τ)))
    (O O' : CellTallies nD τ sig Unit) (hO : O' = O + tallyAt (dCell (ynb c) (s1r j)) () N) (W : Waits sig Unit) :
    iprop(records m K
        ∗ ((slot csM j).view.loc (c : Thread nD τ) ↦[(slot csM j).view.set]{fullShare} fs)
        ∗ ((slot rsM j).view.loc (ynb c : Thread nD τ) ↦[(slot rsM j).view.set]{fullShare} fd)
        ∗ owes (c : Thread nD τ) O' W
        ∗ dutyTok ER (dCell c (s1s j)) 0 false ∗ dutyTok ER (dCell (ynb c) (s1r j)) 0 false)
      ⊢ iprop(((cred (tallyAt (dCell c (s1s j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot csM j) (.remote (Dev.tc n : Thread nD τ) (slot rsM j) (.dma (s1s j)) hsc) (.dma (s1r j)) hsrc hdst hsem) k) Q) := by
  subst hn
  iintro ⟨#Hrec, Hsrc, Hdst, HO, Ht1, Ht2⟩ Hk
  iapply (Rounds.wp_send_pointsTo 𝒱₀ ER (sched m) (c : Thread nD τ) none (c' := (ynb c : Thread nD τ))
      (src := slot csM j) (dst := slot rsM j) (sS := .dma (s1s j)) (sem := .dma (s1r j)) (q := fullShare) (fs := fs) (fd := fd)
      (κ₁ := K (c, xIdx (s1s j) (s1s_lt j))) (κ₂ := K (ynb c, xIdx (s1r j) (s1r_lt j)))
      (r₁ := 0) (r₂ := 0) (d₁ := false) (d₂ := false)
      (by rw [duties_x m c _ (s1s_lt j)]; exact Finset.mem_singleton_self _)
      (by rw [duties_x m (ynb c) _ (s1r_lt j)]; exact Finset.mem_singleton_self _)
      () () N (slot_credit' rsM j) (amount_x m c (s1s j) false) (amount_x m (ynb c) (s1r j) false) O hO (W := W)
      (by rw [payload_s1s m c j false]; unfold slotAny; iintro H; iexists fs; iexact H)
      (by
        rw [payload_s1r m (ynb c) j false]; unfold rsPay slotIs
        iintro H
        iexists ((slot rsM j).view.write (Elt F) fd ((slot csM j).view.read (Elt F) fs) Finset.univ)
        isplitr
        · ipureintro; rw [View.read_write_univ, hfs, ynb_ynb]
        · iexact H))
    $$ [Hsrc Hdst HO Ht1 Ht2] Hk
  isplitr; · iapply (inv_x m K c (s1s j) (s1s_lt j)); iexact Hrec
  isplitr; · iapply (inv_x m K (ynb c) (s1r j) (s1r_lt j)); iexact Hrec
  isplitl [Hsrc]; · iexact Hsrc
  isplitl [Hdst]; · iexact Hdst
  isplitl [HO]; · iexact HO
  isplitl [Ht1]; · iexact Ht1
  isplitr; · iapply (reached_x m K c (s1s j) (s1s_lt j)); iexact Hrec
  isplitl [Ht2]; · iexact Ht2
  iapply (reached_x m K (ynb c) (s1r j) (s1r_lt j)); iexact Hrec

/-- The transfer of chunk `j` of the sum to the x-neighbour. -/
theorem send2 (K : Dev nD × Fin 17 → ℕ) (c n : Dev nD) (hn : n = xnb c) (j : Fin 4)
    {hsc : (slot prM j : Memref sig (Dev.tc n : Thread nD τ).2.kind .vmem S256x256 .bf16).view.ref.isScScratch = false}
    {hsrc : (slot psM j).view.WordExact} {hdst : (slot prM j).view.WordExact}
    {hsem : DmaTarget.Typed .vmem (.dma (s2r j)) (.remote (Dev.tc n : Thread nD τ) (slot prM j) (.dma (s2s j)) hsc)}
    {α : Type} {Q : α → sProp 𝕄} {k : PUnit → Prog (TpuEff nD τ sig (Elt F) Λ₀ .tc) α}
    (fs : Buf (Elt F) ((slot psM j).view.loc (c : Thread nD τ))) (hfs : (slot psM j).view.read (Elt F) fs = p2V m c j)
    (fd : Buf (Elt F) ((slot prM j).view.loc (xnb c : Thread nD τ)))
    (O O' : CellTallies nD τ sig Unit) (hO : O' = O + tallyAt (dCell (xnb c) (s2r j)) () N) (W : Waits sig Unit) :
    iprop(records m K
        ∗ ((slot psM j).view.loc (c : Thread nD τ) ↦[(slot psM j).view.set]{fullShare} fs)
        ∗ ((slot prM j).view.loc (xnb c : Thread nD τ) ↦[(slot prM j).view.set]{fullShare} fd)
        ∗ owes (c : Thread nD τ) O' W
        ∗ dutyTok ER (dCell c (s2s j)) 0 false ∗ dutyTok ER (dCell (xnb c) (s2r j)) 0 false)
      ⊢ iprop(((cred (tallyAt (dCell c (s2s j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot psM j) (.remote (Dev.tc n : Thread nD τ) (slot prM j) (.dma (s2s j)) hsc) (.dma (s2r j)) hsrc hdst hsem) k) Q) := by
  subst hn
  iintro ⟨#Hrec, Hsrc, Hdst, HO, Ht1, Ht2⟩ Hk
  iapply (Rounds.wp_send_pointsTo 𝒱₀ ER (sched m) (c : Thread nD τ) none (c' := (xnb c : Thread nD τ))
      (src := slot psM j) (dst := slot prM j) (sS := .dma (s2s j)) (sem := .dma (s2r j)) (q := fullShare) (fs := fs) (fd := fd)
      (κ₁ := K (c, xIdx (s2s j) (s2s_lt j))) (κ₂ := K (xnb c, xIdx (s2r j) (s2r_lt j)))
      (r₁ := 0) (r₂ := 0) (d₁ := false) (d₂ := false)
      (by rw [duties_x m c _ (s2s_lt j)]; exact Finset.mem_singleton_self _)
      (by rw [duties_x m (xnb c) _ (s2r_lt j)]; exact Finset.mem_singleton_self _)
      () () N (slot_credit' prM j) (amount_x m c (s2s j) false) (amount_x m (xnb c) (s2r j) false) O hO (W := W)
      (by rw [payload_s2s m c j false]; unfold slotAny; iintro H; iexists fs; iexact H)
      (by
        rw [payload_s2r m (xnb c) j false]; unfold prPay slotIs
        iintro H
        iexists ((slot prM j).view.write (Elt F) fd ((slot psM j).view.read (Elt F) fs) Finset.univ)
        isplitr
        · ipureintro; rw [View.read_write_univ, hfs, xnb_xnb]
        · iexact H))
    $$ [Hsrc Hdst HO Ht1 Ht2] Hk
  isplitr; · iapply (inv_x m K c (s2s j) (s2s_lt j)); iexact Hrec
  isplitr; · iapply (inv_x m K (xnb c) (s2r j) (s2r_lt j)); iexact Hrec
  isplitl [Hsrc]; · iexact Hsrc
  isplitl [Hdst]; · iexact Hdst
  isplitl [HO]; · iexact HO
  isplitl [Ht1]; · iexact Ht1
  isplitr; · iapply (reached_x m K c (s2s j) (s2s_lt j)); iexact Hrec
  isplitl [Ht2]; · iexact Ht2
  iapply (reached_x m K (xnb c) (s2r j) (s2r_lt j)); iexact Hrec

/-! ## The waits on the exchange cells -/

/-- The wait for the whole round of one of the own exchange cells, the destination any slot. -/
theorem wait_x (K : Dev nD × Fin 17 → ℕ) (c : Dev nD) (q : DmaSem sig) (hq : q.val < 16)
    (Md : Memref sig .tc .vmem S4x256x256 .bf16) (jd : Fin 4)
    {sp' : Space} {s' : Shape} {e' : EltTy} {src : Memref sig .tc sp' s' e'}
    {hsrc : src.view.WordExact} {hdst : (slot Md jd).view.WordExact}
    {α : Type} {Q : α → sProp 𝕄} {k : PUnit → Prog (TpuEff nD τ sig (Elt F) Λ₀ .tc) α}
    (O : CellTallies nD τ sig Unit) (W : Waits sig Unit) :
    iprop(records m K ∗ cred (tallyAt (dCell c q) () N) ∗ owes (c : Thread nD τ) O W
        ∗ MayWait (c : Thread nD τ) (.dma q) () O ∗ atPos ER (dCell c q) 0 ∅ 0)
      ⊢ iprop(((owes (c : Thread nD τ) O (insert (SemLoc.dma q, ()) W) ∗ atPos ER (dCell c q) 1 ∅ 0 ∗ xPay m c q)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src (slot Md jd) hsrc hdst) k) Q) := by
  iintro ⟨#Hrec, Hc, HO, Hmay, Hat⟩ Hk
  iapply (Rounds.wp_wait_rest_token 𝒱₀ ER (sched m) (c : Thread nD τ) none (κ := K (c, xIdx q hq))
      (wpE_waitDma2_eq 𝒱₀ (c : Thread nD τ) none Set.univ) (Set.mem_univ _) () (O := O) (W := W) (R := 0) (m := 0) (T := ∅)
      (by rw [expect_x m c q hq, Nat.zero_add])) $$ [Hc HO Hmay Hat]
  · isplitr; · iapply (inv_x m K c q hq); iexact Hrec
    isplitl [Hc]; · rw [slot_credit' Md jd]; iexact Hc
    isplitl [HO]; · iexact HO
    isplitl [Hmay]; · iexact Hmay
    iexact Hat
  iintro ⟨HO, Hat, -, Hpay⟩
  ihave Hp := (Entails.of_eq (rest_x m c q hq)) $$ Hpay
  iapply Hk
  isplitl [HO]; · iexact HO
  isplitl [Hat]; · iexact Hat
  iexact Hp

/-- The wait on the own first receive cell `j`: the receive slot holding the y-neighbour's partial product. -/
theorem wait_s1r (K : Dev nD × Fin 17 → ℕ) (c : Dev nD) (j : Fin 4)
    {sp' : Space} {s' : Shape} {e' : EltTy} {src : Memref sig .tc sp' s' e'}
    {hsrc : src.view.WordExact} {hdst : (slot rsM j).view.WordExact}
    {α : Type} {Q : α → sProp 𝕄} {k : PUnit → Prog (TpuEff nD τ sig (Elt F) Λ₀ .tc) α}
    (O : CellTallies nD τ sig Unit) (W : Waits sig Unit) :
    iprop(records m K ∗ cred (tallyAt (dCell c (s1r j)) () N) ∗ owes (c : Thread nD τ) O W
        ∗ MayWait (c : Thread nD τ) (.dma (s1r j)) () O ∗ atPos ER (dCell c (s1r j)) 0 ∅ 0)
      ⊢ iprop(((owes (c : Thread nD τ) O (insert (SemLoc.dma (s1r j), ()) W) ∗ atPos ER (dCell c (s1r j)) 1 ∅ 0 ∗ rsPay m c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (s1r j) src (slot rsM j) hsrc hdst) k) Q) := by
  have h := wait_x m K c (s1r j) (s1r_lt j) rsM j (src := src) (hsrc := hsrc) (hdst := hdst) (Q := Q) (k := k) O W
  rw [← payload_x m c (s1r j) (s1r_lt j) false, payload_s1r m c j false] at h
  exact h

/-- The wait on the own second receive cell `j`: the second receive slot holding the x-neighbour's sum. -/
theorem wait_s2r (K : Dev nD × Fin 17 → ℕ) (c : Dev nD) (j : Fin 4)
    {sp' : Space} {s' : Shape} {e' : EltTy} {src : Memref sig .tc sp' s' e'}
    {hsrc : src.view.WordExact} {hdst : (slot prM j).view.WordExact}
    {α : Type} {Q : α → sProp 𝕄} {k : PUnit → Prog (TpuEff nD τ sig (Elt F) Λ₀ .tc) α}
    (O : CellTallies nD τ sig Unit) (W : Waits sig Unit) :
    iprop(records m K ∗ cred (tallyAt (dCell c (s2r j)) () N) ∗ owes (c : Thread nD τ) O W
        ∗ MayWait (c : Thread nD τ) (.dma (s2r j)) () O ∗ atPos ER (dCell c (s2r j)) 0 ∅ 0)
      ⊢ iprop(((owes (c : Thread nD τ) O (insert (SemLoc.dma (s2r j), ()) W) ∗ atPos ER (dCell c (s2r j)) 1 ∅ 0 ∗ prPay m c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (s2r j) src (slot prM j) hsrc hdst) k) Q) := by
  have h := wait_x m K c (s2r j) (s2r_lt j) prM j (src := src) (hsrc := hsrc) (hdst := hdst) (Q := Q) (k := k) O W
  rw [← payload_x m c (s2r j) (s2r_lt j) false, payload_s2r m c j false] at h
  exact h

/-- The wait on the own first send cell `j`: the send slot back, at any contents. -/
theorem wait_s1s (K : Dev nD × Fin 17 → ℕ) (c : Dev nD) (j : Fin 4)
    {sp' : Space} {s' : Shape} {e' : EltTy} {src : Memref sig .tc sp' s' e'}
    {hsrc : src.view.WordExact} {hdst : (slot csM j).view.WordExact}
    {α : Type} {Q : α → sProp 𝕄} {k : PUnit → Prog (TpuEff nD τ sig (Elt F) Λ₀ .tc) α}
    (O : CellTallies nD τ sig Unit) (W : Waits sig Unit) :
    iprop(records m K ∗ cred (tallyAt (dCell c (s1s j)) () N) ∗ owes (c : Thread nD τ) O W
        ∗ MayWait (c : Thread nD τ) (.dma (s1s j)) () O ∗ atPos ER (dCell c (s1s j)) 0 ∅ 0)
      ⊢ iprop(((owes (c : Thread nD τ) O (insert (SemLoc.dma (s1s j), ()) W) ∗ atPos ER (dCell c (s1s j)) 1 ∅ 0 ∗ slotAny csM c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (s1s j) src (slot csM j) hsrc hdst) k) Q) := by
  have h := wait_x m K c (s1s j) (s1s_lt j) csM j (src := src) (hsrc := hsrc) (hdst := hdst) (Q := Q) (k := k) O W
  rw [← payload_x m c (s1s j) (s1s_lt j) false, payload_s1s m c j false] at h
  exact h

/-- The wait on the own second send cell `j`: the second send slot back, at any contents. -/
theorem wait_s2s (K : Dev nD × Fin 17 → ℕ) (c : Dev nD) (j : Fin 4)
    {sp' : Space} {s' : Shape} {e' : EltTy} {src : Memref sig .tc sp' s' e'}
    {hsrc : src.view.WordExact} {hdst : (slot psM j).view.WordExact}
    {α : Type} {Q : α → sProp 𝕄} {k : PUnit → Prog (TpuEff nD τ sig (Elt F) Λ₀ .tc) α}
    (O : CellTallies nD τ sig Unit) (W : Waits sig Unit) :
    iprop(records m K ∗ cred (tallyAt (dCell c (s2s j)) () N) ∗ owes (c : Thread nD τ) O W
        ∗ MayWait (c : Thread nD τ) (.dma (s2s j)) () O ∗ atPos ER (dCell c (s2s j)) 0 ∅ 0)
      ⊢ iprop(((owes (c : Thread nD τ) O (insert (SemLoc.dma (s2s j), ()) W) ∗ atPos ER (dCell c (s2s j)) 1 ∅ 0 ∗ slotAny psM c j)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (s2s j) src (slot psM j) hsrc hdst) k) Q) := by
  have h := wait_x m K c (s2s j) (s2s_lt j) psM j (src := src) (hsrc := hsrc) (hdst := hdst) (Q := Q) (k := k) O W
  rw [← payload_x m c (s2s j) (s2s_lt j) false, payload_s2s m c j false] at h
  exact h

/-! ## Closing an exchange cell -/

/-- Past its one round an exchange cell closes: its counter, at zero, is the device's again. -/
theorem close_x (K : Dev nD × Fin 17 → ℕ) (c : Dev nD) (q : DmaSem sig) (hq : q.val < 16) :
    iprop(records m K ∗ atPos ER (dCell c q) 1 ∅ 0) ⊢ iprop(|={Set.univ}=> semVal (dCell c q) 0) := by
  iintro ⟨#Hrec, Hat⟩
  iapply (Rounds.cell_close ER (sched m) (Set.mem_univ (K (c, xIdx q hq))) (fun h => h) (R := 1) (fun r hr => duties_later m (dCell c q) r hr))
  isplitr; · iapply (inv_x m K c q hq); iexact Hrec
  iexact Hat

/-! ## A four-slot buffer and its slots -/

/-- The rectangle of slot `j`: the elements under the leading index `j`. -/
abbrev slotRect (j : Fin 4) : Rect S4x256x256 := Rect.unit (s := S4x256x256) ![j.val, 0, 0] S1x256x256.size (slot_inb j)

/-- An element lies in slot `j` exactly when its leading index is `j`. -/
theorem mem_slotRect (j : Fin 4) (i : S4x256x256.Idx) : i ∈ (slotRect j).set ↔ (i 0).val = j.val := by
  rw [Rect.mem_set_unit]
  constructor
  · intro h
    have h0 : j.val ≤ (i 0).val ∧ (i 0).val < j.val + 1 := h 0
    omega
  · intro h a
    have h1 : (i 1).val < 256 := (i 1).isLt
    have h2 : (i 2).val < 256 := (i 2).isLt
    fin_cases a
    · show j.val ≤ (i 0).val ∧ (i 0).val < j.val + 1; omega
    · show 0 ≤ (i 1).val ∧ (i 1).val < 0 + 256; omega
    · show 0 ≤ (i 2).val ∧ (i 2).val < 0 + 256; omega

theorem slotRect_disjoint {j j' : Fin 4} (h : j ≠ j') : Disjoint (slotRect j).set (slotRect j').set := by
  rw [Finset.disjoint_left]
  intro i hi hi'
  rw [mem_slotRect] at hi hi'
  exact h (Fin.ext (hi.symm.trans hi'))

/-- The elements under slot `j` of a four-slot memref: those of the memref under the slot's rectangle. -/
theorem slot_set (M : Memref sig .tc .vmem S4x256x256 .bf16) (j : Fin 4) :
    (slot M j).view.set = (slotRect j).set.map M.view.emb := by
  show ((M.view.slice (slotRect j)).reshape S256x256 _).set = _
  rw [View.set_reshape, View.set_slice]

theorem slot_sets_disjoint (M : Memref sig .tc .vmem S4x256x256 .bf16) {j j' : Fin 4} (h : j ≠ j') :
    Disjoint (slot M j).view.set (slot M j').view.set := by
  rw [slot_set, slot_set]
  exact (Finset.disjoint_map _).mpr (slotRect_disjoint h)

theorem slot_sets_cover (M : Memref sig .tc .vmem S4x256x256 .bf16) :
    (Finset.univ : Finset (Fin 4)).biUnion (fun j => (slot M j).view.set) = M.view.set := by
  ext i
  rw [Finset.mem_biUnion]
  constructor
  · rintro ⟨j, -, hi⟩
    rw [slot_set, Finset.mem_map] at hi
    obtain ⟨x, -, rfl⟩ := hi
    exact View.emb_mem_set _ x
  · intro hi
    rw [View.set, Finset.mem_map] at hi
    obtain ⟨x, -, rfl⟩ := hi
    refine ⟨⟨(x 0).val, (x 0).isLt⟩, Finset.mem_univ _, ?_⟩
    rw [slot_set]
    exact Finset.mem_map_of_mem _ ((mem_slotRect _ x).mpr rfl)

/-- The four slots of a four-slot buffer of device `c`, all at the contents `f`. -/
def slots4 (M : Memref sig .tc .vmem S4x256x256 .bf16) (c : Dev nD) (q : PosShare TreeShare)
    (f : Buf (Elt F) (M.view.loc (c : Thread nD τ))) : sProp 𝕄 :=
  iprop(((slot M 0).view.loc (c : Thread nD τ) ↦[(slot M 0).view.set]{q} f)
    ∗ ((slot M 1).view.loc (c : Thread nD τ) ↦[(slot M 1).view.set]{q} f)
    ∗ ((slot M 2).view.loc (c : Thread nD τ) ↦[(slot M 2).view.set]{q} f)
    ∗ ((slot M 3).view.loc (c : Thread nD τ) ↦[(slot M 3).view.set]{q} f))

/-- A four-slot buffer is its four slots. -/
theorem slots_split (M : Memref sig .tc .vmem S4x256x256 .bf16) (c : Dev nD) (q : PosShare TreeShare)
    (f : Buf (Elt F) (M.view.loc (c : Thread nD τ))) :
    (M.view.loc (c : Thread nD τ) ↦[M.view.set]{q} f) ⊣⊢ slots4 M c q f := by
  have h := pointsTo_biUnion (Ix := Unit) (Name := ℕ) (U := UU) (Lvl := ℕ) (ℓ := M.view.loc (c : Thread nD τ)) (q := q) (f := f)
    (Finset.univ : Finset (Fin 4)) (fun j => (slot M j).view.set) (fun j _ j' _ hne => slot_sets_disjoint M hne)
  rw [slot_sets_cover, bigSep_univ_eq_bigSepL [0, 1, 2, 3] (by decide) (by decide)] at h
  simp only [bigSepL_cons_cons, bigSepL_singleton] at h
  rw [h]
  exact .rfl

theorem cs_split (c : Dev nD) (f : Buf (Elt F) ((c : Thread nD τ).loc cc0_scratch0)) :
    (((c : Thread nD τ).loc cc0_scratch0) ↦{fullShare} f) ⊣⊢ slots4 csM c fullShare f := by
  have h := slots_split (F := F) csM c fullShare f
  have hs : (csM : Memref sig .tc .vmem S4x256x256 .bf16).view.set = Finset.univ := View.set_whole _
  rw [hs] at h
  exact h
theorem rs_split (c : Dev nD) (f : Buf (Elt F) ((c : Thread nD τ).loc cc0_scratch1)) :
    (((c : Thread nD τ).loc cc0_scratch1) ↦{fullShare} f) ⊣⊢ slots4 rsM c fullShare f := by
  have h := slots_split (F := F) rsM c fullShare f
  have hs : (rsM : Memref sig .tc .vmem S4x256x256 .bf16).view.set = Finset.univ := View.set_whole _
  rw [hs] at h
  exact h
theorem ps_split (c : Dev nD) (f : Buf (Elt F) ((c : Thread nD τ).loc cc0_scratch2)) :
    (((c : Thread nD τ).loc cc0_scratch2) ↦{fullShare} f) ⊣⊢ slots4 psM c fullShare f := by
  have h := slots_split (F := F) psM c fullShare f
  have hs : (psM : Memref sig .tc .vmem S4x256x256 .bf16).view.set = Finset.univ := View.set_whole _
  rw [hs] at h
  exact h
theorem pr_split (c : Dev nD) (f : Buf (Elt F) ((c : Thread nD τ).loc cc0_scratch3)) :
    (((c : Thread nD τ).loc cc0_scratch3) ↦{fullShare} f) ⊣⊢ slots4 prM c fullShare f := by
  have h := slots_split (F := F) prM c fullShare f
  have hs : (prM : Memref sig .tc .vmem S4x256x256 .bf16).view.set = Finset.univ := View.set_whole _
  rw [hs] at h
  exact h

/-- Four slots, each at any contents, are the whole buffer at some contents: a points-to on a set of elements
    depends on the contents on that set alone. -/
theorem slots_join (M : Memref sig .tc .vmem S4x256x256 .bf16) (c : Dev nD) :
    iprop(slotAny M c 0 ∗ slotAny M c 1 ∗ slotAny M c 2 ∗ slotAny M c 3)
      ⊢ (iprop(∃ f : Buf (Elt F) (M.view.loc (c : Thread nD τ)), M.view.loc (c : Thread nD τ) ↦[M.view.set]{fullShare} f) : sProp 𝕄) := by
  unfold slotAny
  iintro ⟨⟨%f0, H0⟩, ⟨%f1, H1⟩, ⟨%f2, H2⟩, ⟨%f3, H3⟩⟩
  let fs : Fin 4 → Buf (Elt F) (M.view.loc (c : Thread nD τ)) := fun j => match j with
    | 0 => f0 | 1 => f1 | 2 => f2 | 3 => f3
  have hchain : (iprop((M.view.loc (c : Thread nD τ) ↦[(slot M 0).view.set]{fullShare} f0)
        ∗ (M.view.loc (c : Thread nD τ) ↦[(slot M 1).view.set]{fullShare} f1)
        ∗ (M.view.loc (c : Thread nD τ) ↦[(slot M 2).view.set]{fullShare} f2)
        ∗ (M.view.loc (c : Thread nD τ) ↦[(slot M 3).view.set]{fullShare} f3)) : sProp 𝕄)
      = bigSep (Finset.univ : Finset (Fin 4)) (fun j => M.view.loc (c : Thread nD τ) ↦[(slot M j).view.set]{fullShare} fs j) := by
    rw [bigSep_univ_eq_bigSepL [0, 1, 2, 3] (by decide) (by decide)]; rfl
  have h := pointsTo_biUnion_join (Ix := Unit) (Name := ℕ) (U := UU) (Lvl := ℕ) (ℓ := M.view.loc (c : Thread nD τ)) (q := fullShare)
    (Finset.univ : Finset (Fin 4)) (fun j => (slot M j).view.set) fs f0
    (fun j _ j' _ hne => slot_sets_disjoint M hne)
  rw [slot_sets_cover, ← hchain] at h
  ihave H := h $$ [H0 H1 H2 H3]
  · isplitl [H0]; · iexact H0
    isplitl [H1]; · iexact H1
    isplitl [H2]; · iexact H2
    iexact H3
  icases H with ⟨%g, -, H⟩
  iexists g
  iexact H

theorem cs_join (c : Dev nD) :
    (iprop(slotAny csM c 0 ∗ slotAny csM c 1 ∗ slotAny csM c 2 ∗ slotAny csM c 3) : sProp 𝕄) ⊢ bufAny cc0_scratch0 c := by
  have h := slots_join (F := F) csM c
  have hs : (csM : Memref sig .tc .vmem S4x256x256 .bf16).view.set = Finset.univ := View.set_whole _
  rw [hs] at h
  exact h
theorem rs_join (c : Dev nD) :
    (iprop(slotAny rsM c 0 ∗ slotAny rsM c 1 ∗ slotAny rsM c 2 ∗ slotAny rsM c 3) : sProp 𝕄) ⊢ bufAny cc0_scratch1 c := by
  have h := slots_join (F := F) rsM c
  have hs : (rsM : Memref sig .tc .vmem S4x256x256 .bf16).view.set = Finset.univ := View.set_whole _
  rw [hs] at h
  exact h
theorem ps_join (c : Dev nD) :
    (iprop(slotAny psM c 0 ∗ slotAny psM c 1 ∗ slotAny psM c 2 ∗ slotAny psM c 3) : sProp 𝕄) ⊢ bufAny cc0_scratch2 c := by
  have h := slots_join (F := F) psM c
  have hs : (psM : Memref sig .tc .vmem S4x256x256 .bf16).view.set = Finset.univ := View.set_whole _
  rw [hs] at h
  exact h
theorem pr_join (c : Dev nD) :
    (iprop(slotAny prM c 0 ∗ slotAny prM c 1 ∗ slotAny prM c 2 ∗ slotAny prM c 3) : sProp 𝕄) ⊢ bufAny cc0_scratch3 c := by
  have h := slots_join (F := F) prM c
  have hs : (prM : Memref sig .tc .vmem S4x256x256 .bf16).view.set = Finset.univ := View.set_whole _
  rw [hs] at h
  exact h

/-- info: 'Cert.KernelIdeal.Steps.send1' depends on axioms: [propext, Classical.choice, Quot.sound] -/
#guard_msgs in #print axioms send1
/-- info: 'Cert.KernelIdeal.Steps.send2' depends on axioms: [propext, Classical.choice, Quot.sound] -/
#guard_msgs in #print axioms send2
/-- info: 'Cert.KernelIdeal.Steps.wait_x' depends on axioms: [propext, Classical.choice, Quot.sound] -/
#guard_msgs in #print axioms wait_x
/-- info: 'Cert.KernelIdeal.Steps.wait_bar' depends on axioms: [propext, Classical.choice, Quot.sound] -/
#guard_msgs in #print axioms wait_bar
/-- info: 'Cert.KernelIdeal.Steps.sig_x' depends on axioms: [propext, Classical.choice, Quot.sound] -/
#guard_msgs in #print axioms sig_x
/-- info: 'Cert.KernelIdeal.Steps.close_x' depends on axioms: [propext, Classical.choice, Quot.sound] -/
#guard_msgs in #print axioms close_x
/-- info: 'Cert.KernelIdeal.Steps.slots_split' depends on axioms: [propext, Classical.choice, Quot.sound] -/
#guard_msgs in #print axioms slots_split
/-- info: 'Cert.KernelIdeal.Steps.slots_join' depends on axioms: [propext, Classical.choice, Quot.sound] -/
#guard_msgs in #print axioms slots_join

end Cert.KernelIdeal.Steps

end
-- ==== Proof.Splits.lean ====
/-
  Buffers the body writes slice by slice, cut into their slices and put together again. A points-to of a region of a
  buffer depends only on the contents on the region, regions that tile a buffer split its points-to into theirs, and
  points-tos of the tiles at any contents join into the buffer's at the contents pieced together from them.
  • The staging buffer of the device's half of `dy` (512 × 1024) is tiled by its four 256-column slices.
  • An array of the result's shape (256 × 2048) — the result array itself, and its staging buffer — is tiled by the eight
    256-column slices the body names on device `c`: columns `1024·mx + 256·j …` (the device's own sums) and columns
    `1024·(1 − mx) + 256·j …` (the x-neighbour's), `j < 4`. When each of the result's slices reads as the value the
    protocol delivers there, the array pieced together from them is right on the device.
-/
import proofs.«900593_g7700000000000594_dist_rsdw_v7x_xy2x2_y_m512_d512_f2048_f32_1_alg».proof.Proof.Proto
import Idealize.ShloMosaic.Lib.Pipeline.Value
import Idealize.ShloMosaic.Rules.PointsTo

noncomputable section

namespace Cert.KernelIdeal.Splits

open Cert.KernelIdeal Cert.KernelIdeal.Gen Cert.KernelIdeal.Vals Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The staging buffer of `dy`'s half: four column slices -/

theorem dyh_inb (j : Fin 4) : ∀ a, (![0, 256 * j.val] : Fin 2 → Nat) a + S512x256.size a ≤ S512x1024.size a := by
  revert j; decide

/-- Columns `256·j …` of the 512 × 1024 shape, as a rectangle … -/
abbrev dyhR (j : Fin 4) : Rect S512x1024 := Rect.unit (s := S512x1024) ![0, 256 * j.val] S512x256.size (dyh_inb j)

/-- … and of the staging buffer of `dy`'s half, as the body's copies name them. -/
abbrev dyhSl (j : Fin 4) : Memref sig .tc .vmem S512x256 .f32 :=
  (Memref.whole cc0_scratch4).slice (Rect.unit (s := S512x1024) ![0, 256 * j.val] S512x256.size (dyh_inb j)) (fun _ => rfl)

/-- Slice `j` of that buffer on device `c`, at any contents. -/
def dyhAny (c : Dev nD) (j : Fin 4) : sProp 𝕄 :=
  iprop(∃ f : Buf (Elt F) ((dyhSl j).view.loc (c : Thread nD τ)), (dyhSl j).view.loc (c : Thread nD τ) ↦[(dyhSl j).view.set]{fullShare} f)

/-- An index lies in rectangle `j` when its column lies in `[256·j, 256·j + 256)`: every row is in it. -/
theorem mem_dyhR (j : Fin 4) (i : S512x1024.Idx) :
    i ∈ (dyhR j).set ↔ 256 * j.val ≤ (i 1).val ∧ (i 1).val < 256 * j.val + 256 := by
  rw [Rect.mem_set_unit, Fin.forall_fin_two]
  have h0 : (i 0).val < 512 := (i 0).isLt
  show ((0 ≤ (i 0).val ∧ (i 0).val < 0 + 512) ∧ (256 * j.val ≤ (i 1).val ∧ (i 1).val < 256 * j.val + 256)) ↔ _
  omega

/-- The four rectangles cover the shape: a column `k < 1024` lies in rectangle `k / 256` … -/
theorem dyh_cover : (Finset.univ : Finset S512x1024.Idx) = (Finset.univ : Finset (Fin 4)).biUnion (fun j => (dyhR j).set) := by
  ext i
  simp only [Finset.mem_univ, Finset.mem_biUnion, true_and, true_iff]
  have h1 : (i 1).val < 1024 := (i 1).isLt
  refine ⟨⟨(i 1).val / 256, by omega⟩, (mem_dyhR _ i).mpr ?_⟩
  show 256 * ((i 1).val / 256) ≤ (i 1).val ∧ (i 1).val < 256 * ((i 1).val / 256) + 256
  omega

/-- … and two of them share no index. -/
theorem dyh_disj (j j' : Fin 4) (h : j ≠ j') : Disjoint (dyhR j).set (dyhR j').set := by
  rw [Finset.disjoint_left]
  intro i hi hi'
  rw [mem_dyhR] at hi hi'
  have : j.val ≠ j'.val := fun e => h (Fin.ext e)
  omega

/-- A slice's elements are its rectangle's. -/
theorem dyh_set (j : Fin 4) : (dyhSl j).view.set = (dyhR j).set := View.set_slice_whole cc0_scratch4 (dyhR j)

/-- The buffer is its four slices. -/
theorem dyh_split (c : Dev nD) (f : Buf (Elt F) ((Memref.whole cc0_scratch4).view.loc (c : Thread nD τ))) :
    ((Memref.whole cc0_scratch4).view.loc (c : Thread nD τ) ↦{fullShare} f : sProp 𝕄)
      ⊢ iprop(((dyhSl 0).view.loc (c : Thread nD τ) ↦[(dyhSl 0).view.set]{fullShare} f)
          ∗ ((dyhSl 1).view.loc (c : Thread nD τ) ↦[(dyhSl 1).view.set]{fullShare} f)
          ∗ ((dyhSl 2).view.loc (c : Thread nD τ) ↦[(dyhSl 2).view.set]{fullShare} f)
          ∗ ((dyhSl 3).view.loc (c : Thread nD τ) ↦[(dyhSl 3).view.set]{fullShare} f)) := by
  have e : ((Memref.whole cc0_scratch4).view.loc (c : Thread nD τ) ↦[(Finset.univ : Finset (Fin 4)).biUnion (fun j => (dyhR j).set)]{fullShare} f : sProp 𝕄)
      = bigSep Finset.univ fun j : Fin 4 => ((Memref.whole cc0_scratch4).view.loc (c : Thread nD τ) ↦[(dyhR j).set]{fullShare} f : sProp 𝕄) :=
    pointsTo_biUnion Finset.univ _ (fun t _ t' _ ht => dyh_disj t t' ht)
  rw [← dyh_cover, show (Finset.univ : Finset (Fin 4)) = {0, 1, 2, 3} by decide, bigSep_insert (by decide),
    bigSep_insert (by decide), bigSep_insert (by decide), bigSep_singleton] at e
  rw [dyh_set 0, dyh_set 1, dyh_set 2, dyh_set 3]
  exact Entails.of_eq e

/-- Four slices, each at its own contents, are the whole buffer at some contents. -/
theorem dyh_join4 (c : Dev nD) (f0 f1 f2 f3 : Buf (Elt F) ((Memref.whole cc0_scratch4).view.loc (c : Thread nD τ))) :
    (iprop(((dyhSl 0).view.loc (c : Thread nD τ) ↦[(dyhSl 0).view.set]{fullShare} f0)
          ∗ ((dyhSl 1).view.loc (c : Thread nD τ) ↦[(dyhSl 1).view.set]{fullShare} f1)
          ∗ ((dyhSl 2).view.loc (c : Thread nD τ) ↦[(dyhSl 2).view.set]{fullShare} f2)
          ∗ ((dyhSl 3).view.loc (c : Thread nD τ) ↦[(dyhSl 3).view.set]{fullShare} f3)) : sProp 𝕄)
      ⊢ bufAny cc0_scratch4 c := by
  have J := pointsTo_biUnion_join (ℓ := (Memref.whole cc0_scratch4).view.loc (c : Thread nD τ)) (q := fullShare)
    (Ix := Unit) (Name := ℕ) (U := UU) (Lvl := ℕ)
    (Finset.univ : Finset (Fin 4)) (fun j => (dyhR j).set) ![f0, f1, f2, f3] f0 (fun t _ t' _ ht => dyh_disj t t' ht)
  rw [← dyh_cover, show (Finset.univ : Finset (Fin 4)) = {0, 1, 2, 3} by decide, bigSep_insert (by decide),
    bigSep_insert (by decide), bigSep_insert (by decide), bigSep_singleton] at J
  rw [dyh_set 0, dyh_set 1, dyh_set 2, dyh_set 3]
  refine J.trans ?_
  unfold bufAny
  iintro ⟨%g, %hg, H⟩
  iexists g
  iexact H

theorem dyh_join (c : Dev nD) :
    (iprop(dyhAny c 0 ∗ dyhAny c 1 ∗ dyhAny c 2 ∗ dyhAny c 3) : sProp 𝕄) ⊢ bufAny cc0_scratch4 c := by
  unfold dyhAny
  iintro ⟨⟨%f0, H0⟩, ⟨%f1, H1⟩, ⟨%f2, H2⟩, ⟨%f3, H3⟩⟩
  iapply (dyh_join4 c f0 f1 f2 f3)
  isplitl [H0]; · iexact H0
  isplitl [H1]; · iexact H1
  isplitl [H2]; · iexact H2
  iexact H3

/-! ## An array of the result's shape: eight column slices -/

/-- Columns `1024·mx + 256·j …` of the 256 × 2048 shape, as the body computes them on device `c` … -/
abbrev mineR (c : Dev nD) (j : Fin 4) : Rect S256x2048 :=
  Rect.unit (s := S256x2048) (k0_off4 c (cw j)) S256x256.size (k0_off4_inb c j)
/-- … and columns `1024·(1 − mx) + 256·j …`. -/
abbrev theirsR (c : Dev nD) (j : Fin 4) : Rect S256x2048 :=
  Rect.unit (s := S256x2048) (k0_off5 c (cw j)) S256x256.size (k0_off5_inb c j)

/-- Those columns of a 256 × 2048 array, as the body names them … -/
abbrev mineSl {sp : Space} (M : Memref sig .tc sp S256x2048 .f32) (c : Dev nD) (j : Fin 4) : Memref sig .tc sp S256x256 .f32 :=
  M.slice (Rect.unit (s := S256x2048) (k0_off4 c (cw j)) S256x256.size (k0_off4_inb c j)) (fun _ => rfl)
/-- … -/
abbrev theirsSl {sp : Space} (M : Memref sig .tc sp S256x2048 .f32) (c : Dev nD) (j : Fin 4) : Memref sig .tc sp S256x256 .f32 :=
  M.slice (Rect.unit (s := S256x2048) (k0_off5 c (cw j)) S256x256.size (k0_off5_inb c j)) (fun _ => rfl)

/-- The result array's slices are these. -/
theorem outMine_eq (c : Dev nD) (j : Fin 4) : outMine c j = mineSl (Memref.whole main_v1) c j := rfl
theorem outTheirs_eq (c : Dev nD) (j : Fin 4) : outTheirs c j = theirsSl (Memref.whole main_v1) c j := rfl

/-- An index lies in the device's own rectangle `j` when its column lies in `[1024·mx + 256·j, … + 256)` … -/
theorem mem_mineR (c : Dev nD) (j : Fin 4) (i : S256x2048.Idx) :
    i ∈ (mineR c j).set ↔ 1024 * (c.val / 2) + 256 * j.val ≤ (i 1).val ∧ (i 1).val < 1024 * (c.val / 2) + 256 * j.val + 256 := by
  rw [Rect.mem_set_unit, Fin.forall_fin_two]
  have h0 : (i 0).val < 256 := (i 0).isLt
  have e := Gen.k0_off4_eq c j
  show ((k0_off4 c (cw j) 0 ≤ (i 0).val ∧ (i 0).val < k0_off4 c (cw j) 0 + 256)
    ∧ (k0_off4 c (cw j) 1 ≤ (i 1).val ∧ (i 1).val < k0_off4 c (cw j) 1 + 256)) ↔ _
  rw [e]
  show ((0 ≤ (i 0).val ∧ (i 0).val < 0 + 256)
    ∧ (1024 * (c.val / 2) + 256 * j.val ≤ (i 1).val ∧ (i 1).val < 1024 * (c.val / 2) + 256 * j.val + 256)) ↔ _
  omega
/-- … in the neighbour's rectangle `j` when it lies in `[1024·(1 − mx) + 256·j, … + 256)`. -/
theorem mem_theirsR (c : Dev nD) (j : Fin 4) (i : S256x2048.Idx) :
    i ∈ (theirsR c j).set ↔ (256 * j.val + 1024) - 1024 * (c.val / 2) ≤ (i 1).val ∧ (i 1).val < (256 * j.val + 1024) - 1024 * (c.val / 2) + 256 := by
  rw [Rect.mem_set_unit, Fin.forall_fin_two]
  have h0 : (i 0).val < 256 := (i 0).isLt
  have e := Gen.k0_off5_eq c j
  show ((k0_off5 c (cw j) 0 ≤ (i 0).val ∧ (i 0).val < k0_off5 c (cw j) 0 + 256)
    ∧ (k0_off5 c (cw j) 1 ≤ (i 1).val ∧ (i 1).val < k0_off5 c (cw j) 1 + 256)) ↔ _
  rw [e]
  show ((0 ≤ (i 0).val ∧ (i 0).val < 0 + 256)
    ∧ ((256 * j.val + 1024) - 1024 * (c.val / 2) ≤ (i 1).val ∧ (i 1).val < (256 * j.val + 1024) - 1024 * (c.val / 2) + 256)) ↔ _
  omega

/-- The eight rectangles on device `c`, indexed by (neighbour's?, chunk). -/
def colS (c : Dev nD) : Bool × Fin 4 → Finset S256x2048.Idx
  | (false, j) => (mineR c j).set
  | (true, j) => (theirsR c j).set

/-- They cover the shape: a column `k < 2048` lies in the own half when `k / 1024 = mx`, in chunk `(k % 1024) / 256` … -/
theorem col_cover (c : Dev nD) (i : S256x2048.Idx) : ∃ p, i ∈ colS c p := by
  have hc : c.val < 4 := c.isLt
  have h1 : (i 1).val < 2048 := (i 1).isLt
  by_cases hh : (i 1).val / 1024 = c.val / 2
  · refine ⟨(false, ⟨(i 1).val % 1024 / 256, by omega⟩), (mem_mineR c _ i).mpr ?_⟩
    show 1024 * (c.val / 2) + 256 * ((i 1).val % 1024 / 256) ≤ (i 1).val
      ∧ (i 1).val < 1024 * (c.val / 2) + 256 * ((i 1).val % 1024 / 256) + 256
    omega
  · refine ⟨(true, ⟨(i 1).val % 1024 / 256, by omega⟩), (mem_theirsR c _ i).mpr ?_⟩
    show (256 * ((i 1).val % 1024 / 256) + 1024) - 1024 * (c.val / 2) ≤ (i 1).val
      ∧ (i 1).val < (256 * ((i 1).val % 1024 / 256) + 1024) - 1024 * (c.val / 2) + 256
    omega

/-- … and two of them share no index. -/
theorem col_disj (c : Dev nD) (p p' : Bool × Fin 4) (h : p ≠ p') : Disjoint (colS c p) (colS c p') := by
  have hc : c.val < 4 := c.isLt
  rw [Finset.disjoint_left]
  intro i hi hi'
  obtain ⟨b, j⟩ := p
  obtain ⟨b', j'⟩ := p'
  have hj : j.val < 4 := j.isLt
  have hj' : j'.val < 4 := j'.isLt
  cases b <;> cases b'
  · have : j.val ≠ j'.val := fun e => h (by rw [Fin.ext e])
    rw [show colS c (false, j) = (mineR c j).set from rfl, mem_mineR] at hi
    rw [show colS c (false, j') = (mineR c j').set from rfl, mem_mineR] at hi'
    omega
  · rw [show colS c (false, j) = (mineR c j).set from rfl, mem_mineR] at hi
    rw [show colS c (true, j') = (theirsR c j').set from rfl, mem_theirsR] at hi'
    omega
  · rw [show colS c (true, j) = (theirsR c j).set from rfl, mem_theirsR] at hi
    rw [show colS c (false, j') = (mineR c j').set from rfl, mem_mineR] at hi'
    omega
  · have : j.val ≠ j'.val := fun e => h (by rw [Fin.ext e])
    rw [show colS c (true, j) = (theirsR c j).set from rfl, mem_theirsR] at hi
    rw [show colS c (true, j') = (theirsR c j').set from rfl, mem_theirsR] at hi'
    omega

/-- The eight slices of such an array on device `c`, each at its own contents: the own four, then the neighbour's four. -/
def cols8 {sp : Space} (M : Memref sig .tc sp S256x2048 .f32) (c : Dev nD) (q : PosShare TreeShare)
    (g h : Fin 4 → Buf (Elt F) (M.view.loc (c : Thread nD τ))) : sProp 𝕄 :=
  iprop(((mineSl M c 0).view.loc (c : Thread nD τ) ↦[(mineSl M c 0).view.set]{q} g 0)
    ∗ ((mineSl M c 1).view.loc (c : Thread nD τ) ↦[(mineSl M c 1).view.set]{q} g 1)
    ∗ ((mineSl M c 2).view.loc (c : Thread nD τ) ↦[(mineSl M c 2).view.set]{q} g 2)
    ∗ ((mineSl M c 3).view.loc (c : Thread nD τ) ↦[(mineSl M c 3).view.set]{q} g 3)
    ∗ ((theirsSl M c 0).view.loc (c : Thread nD τ) ↦[(theirsSl M c 0).view.set]{q} h 0)
    ∗ ((theirsSl M c 1).view.loc (c : Thread nD τ) ↦[(theirsSl M c 1).view.set]{q} h 1)
    ∗ ((theirsSl M c 2).view.loc (c : Thread nD τ) ↦[(theirsSl M c 2).view.set]{q} h 2)
    ∗ ((theirsSl M c 3).view.loc (c : Thread nD τ) ↦[(theirsSl M c 3).view.set]{q} h 3))

/-- A separating conjunction over the eight indices, written out in that order. -/
theorem bigSep_cols (Φ : Bool × Fin 4 → sProp 𝕄) :
    bigSep Finset.univ Φ = iprop(Φ (false, 0) ∗ Φ (false, 1) ∗ Φ (false, 2) ∗ Φ (false, 3)
      ∗ Φ (true, 0) ∗ Φ (true, 1) ∗ Φ (true, 2) ∗ Φ (true, 3)) := by
  rw [show (Finset.univ : Finset (Bool × Fin 4))
      = {(false, 0), (false, 1), (false, 2), (false, 3), (true, 0), (true, 1), (true, 2), (true, 3)} by decide,
    bigSep_insert (by decide), bigSep_insert (by decide), bigSep_insert (by decide), bigSep_insert (by decide),
    bigSep_insert (by decide), bigSep_insert (by decide), bigSep_insert (by decide), bigSep_singleton]
  rfl

section Generic
variable {sp : Space} (M : Memref sig .tc sp S256x2048 .f32) (c : Dev nD)

/-- The elements of the array under rectangle `p`. -/
def colM (p : Bool × Fin 4) : Finset M.view.ty.Idx := (colS c p).map M.view.emb

theorem mine_set (j : Fin 4) : (mineSl M c j).view.set = colM M c (false, j) := M.view.set_slice (mineR c j)
theorem theirs_set (j : Fin 4) : (theirsSl M c j).view.set = colM M c (true, j) := M.view.set_slice (theirsR c j)

theorem colM_cover : M.view.set = (Finset.univ : Finset (Bool × Fin 4)).biUnion (colM M c) := by
  ext x
  simp only [View.set, colM, Finset.mem_map, Finset.mem_biUnion, Finset.mem_univ, true_and]
  constructor
  · rintro ⟨i, rfl⟩
    obtain ⟨p, hp⟩ := col_cover c i
    exact ⟨p, i, hp, rfl⟩
  · rintro ⟨p, i, _, rfl⟩
    exact ⟨i, rfl⟩

theorem colM_disj (p p' : Bool × Fin 4) (h : p ≠ p') : Disjoint (colM M c p) (colM M c p') :=
  (Finset.disjoint_map _).mpr (col_disj c p p' h)

/-- Such an array is its eight slices. -/
theorem cols_split (q : PosShare TreeShare) (f : Buf (Elt F) (M.view.loc (c : Thread nD τ))) :
    (M.view.loc (c : Thread nD τ) ↦[M.view.set]{q} f : sProp 𝕄) ⊢ cols8 M c q (fun _ => f) (fun _ => f) := by
  have e : (M.view.loc (c : Thread nD τ) ↦[(Finset.univ : Finset (Bool × Fin 4)).biUnion (colM M c)]{q} f : sProp 𝕄)
      = bigSep Finset.univ fun p : Bool × Fin 4 => (M.view.loc (c : Thread nD τ) ↦[colM M c p]{q} f : sProp 𝕄) :=
    pointsTo_biUnion Finset.univ _ (fun t _ t' _ ht => colM_disj M c t t' ht)
  rw [← colM_cover, bigSep_cols] at e
  unfold cols8
  rw [mine_set M c 0, mine_set M c 1, mine_set M c 2, mine_set M c 3,
    theirs_set M c 0, theirs_set M c 1, theirs_set M c 2, theirs_set M c 3]
  exact Entails.of_eq e

/-- Eight slices at eight contents are the array at contents that agree with each on its slice. -/
theorem cols_join (q : PosShare TreeShare) (g h : Fin 4 → Buf (Elt F) (M.view.loc (c : Thread nD τ))) :
    cols8 M c q g h ⊢ (iprop(∃ f : Buf (Elt F) (M.view.loc (c : Thread nD τ)),
        ⌜(∀ j, ∀ i ∈ (mineSl M c j).view.set, f i = g j i) ∧ (∀ j, ∀ i ∈ (theirsSl M c j).view.set, f i = h j i)⌝
        ∗ (M.view.loc (c : Thread nD τ) ↦[M.view.set]{q} f)) : sProp 𝕄) := by
  have J := pointsTo_biUnion_join (ℓ := M.view.loc (c : Thread nD τ)) (q := q)
    (Ix := Unit) (Name := ℕ) (U := UU) (Lvl := ℕ)
    (Finset.univ : Finset (Bool × Fin 4)) (colM M c) (fun p => bif p.1 then h p.2 else g p.2) (g 0)
    (fun t _ t' _ ht => colM_disj M c t t' ht)
  rw [← colM_cover, bigSep_cols] at J
  unfold cols8
  rw [mine_set M c 0, mine_set M c 1, mine_set M c 2, mine_set M c 3,
    theirs_set M c 0, theirs_set M c 1, theirs_set M c 2, theirs_set M c 3]
  refine J.trans ?_
  iintro ⟨%G, %hG, H⟩
  iexists G
  isplitr
  · ipureintro
    exact ⟨fun j i hi => hG (false, j) (Finset.mem_univ _) i (by rw [← mine_set]; exact hi),
      fun j i hi => hG (true, j) (Finset.mem_univ _) i (by rw [← theirs_set]; exact hi)⟩
  · iexact H

end Generic

/-- The result array is its eight slices … -/
theorem out_split (c : Dev nD) (f : Buf (Elt F) ((Memref.whole main_v1).view.loc (c : Thread nD τ))) :
    ((Memref.whole main_v1).view.loc (c : Thread nD τ) ↦{fullShare} f : sProp 𝕄)
      ⊢ iprop(((outMine c 0).view.loc (c : Thread nD τ) ↦[(outMine c 0).view.set]{fullShare} f)
          ∗ ((outMine c 1).view.loc (c : Thread nD τ) ↦[(outMine c 1).view.set]{fullShare} f)
          ∗ ((outMine c 2).view.loc (c : Thread nD τ) ↦[(outMine c 2).view.set]{fullShare} f)
          ∗ ((outMine c 3).view.loc (c : Thread nD τ) ↦[(outMine c 3).view.set]{fullShare} f)
          ∗ ((outTheirs c 0).view.loc (c : Thread nD τ) ↦[(outTheirs c 0).view.set]{fullShare} f)
          ∗ ((outTheirs c 1).view.loc (c : Thread nD τ) ↦[(outTheirs c 1).view.set]{fullShare} f)
          ∗ ((outTheirs c 2).view.loc (c : Thread nD τ) ↦[(outTheirs c 2).view.set]{fullShare} f)
          ∗ ((outTheirs c 3).view.loc (c : Thread nD τ) ↦[(outTheirs c 3).view.set]{fullShare} f)) := by
  have h := cols_split (F := F) (Memref.whole main_v1) c fullShare f
  rw [View.set_whole] at h
  exact h

/-- … and eight slices that read as the values the protocol delivers are a result array that is right on the device. -/
theorem out_join (m : (ℓ : Loc nD τ sig) → Buf (Elt F) ℓ) (c : Dev nD)
    (g h : Fin 4 → Buf (Elt F) ((c : Thread nD τ).loc main_v1))
    (hg : ∀ j, (outMine c j).view.read (Elt F) (g j) = valV m c j)
    (hh : ∀ j, (outTheirs c j).view.read (Elt F) (h j) = theirsV m c j) :
    (iprop(((outMine c 0).view.loc (c : Thread nD τ) ↦[(outMine c 0).view.set]{fullShare} g 0)
          ∗ ((outMine c 1).view.loc (c : Thread nD τ) ↦[(outMine c 1).view.set]{fullShare} g 1)
          ∗ ((outMine c 2).view.loc (c : Thread nD τ) ↦[(outMine c 2).view.set]{fullShare} g 2)
          ∗ ((outMine c 3).view.loc (c : Thread nD τ) ↦[(outMine c 3).view.set]{fullShare} g 3)
          ∗ ((outTheirs c 0).view.loc (c : Thread nD τ) ↦[(outTheirs c 0).view.set]{fullShare} h 0)
          ∗ ((outTheirs c 1).view.loc (c : Thread nD τ) ↦[(outTheirs c 1).view.set]{fullShare} h 1)
          ∗ ((outTheirs c 2).view.loc (c : Thread nD τ) ↦[(outTheirs c 2).view.set]{fullShare} h 2)
          ∗ ((outTheirs c 3).view.loc (c : Thread nD τ) ↦[(outTheirs c 3).view.set]{fullShare} h 3)) : sProp 𝕄)
      ⊢ iprop(∃ f : Buf (Elt F) ((c : Thread nD τ).loc main_v1), ⌜OutOk m c f⌝ ∗ (((c : Thread nD τ).loc main_v1) ↦{fullShare} f)) := by
  have J := cols_join (F := F) (Memref.whole main_v1) c fullShare g h
  rw [View.set_whole] at J
  refine (show _ ⊢ _ from J).trans ?_
  iintro ⟨%f, %hf, H⟩
  iexists f
  isplitr
  · ipureintro
    exact ⟨fun j => (View.read_congr (hf.1 j)).trans (hg j), fun j => (View.read_congr (hf.2 j)).trans (hh j)⟩
  · iexact H

/-- The same, the eight contents given one by one. -/
theorem out_join8 (m : (ℓ : Loc nD τ sig) → Buf (Elt F) ℓ) (c : Dev nD)
    (g0 g1 g2 g3 h0 h1 h2 h3 : Buf (Elt F) ((c : Thread nD τ).loc main_v1))
    (hg0 : (outMine c 0).view.read (Elt F) g0 = valV m c 0) (hg1 : (outMine c 1).view.read (Elt F) g1 = valV m c 1)
    (hg2 : (outMine c 2).view.read (Elt F) g2 = valV m c 2) (hg3 : (outMine c 3).view.read (Elt F) g3 = valV m c 3)
    (hh0 : (outTheirs c 0).view.read (Elt F) h0 = theirsV m c 0) (hh1 : (outTheirs c 1).view.read (Elt F) h1 = theirsV m c 1)
    (hh2 : (outTheirs c 2).view.read (Elt F) h2 = theirsV m c 2) (hh3 : (outTheirs c 3).view.read (Elt F) h3 = theirsV m c 3) :
    (iprop(((outMine c 0).view.loc (c : Thread nD τ) ↦[(outMine c 0).view.set]{fullShare} g0)
          ∗ ((outMine c 1).view.loc (c : Thread nD τ) ↦[(outMine c 1).view.set]{fullShare} g1)
          ∗ ((outMine c 2).view.loc (c : Thread nD τ) ↦[(outMine c 2).view.set]{fullShare} g2)
          ∗ ((outMine c 3).view.loc (c : Thread nD τ) ↦[(outMine c 3).view.set]{fullShare} g3)
          ∗ ((outTheirs c 0).view.loc (c : Thread nD τ) ↦[(outTheirs c 0).view.set]{fullShare} h0)
          ∗ ((outTheirs c 1).view.loc (c : Thread nD τ) ↦[(outTheirs c 1).view.set]{fullShare} h1)
          ∗ ((outTheirs c 2).view.loc (c : Thread nD τ) ↦[(outTheirs c 2).view.set]{fullShare} h2)
          ∗ ((outTheirs c 3).view.loc (c : Thread nD τ) ↦[(outTheirs c 3).view.set]{fullShare} h3)) : sProp 𝕄)
      ⊢ iprop(∃ f : Buf (Elt F) ((c : Thread nD τ).loc main_v1), ⌜OutOk m c f⌝ ∗ (((c : Thread nD τ).loc main_v1) ↦{fullShare} f)) :=
  out_join m c ![g0, g1, g2, g3] ![h0, h1, h2, h3]
    (fun j => match j with | ⟨0, _⟩ => hg0 | ⟨1, _⟩ => hg1 | ⟨2, _⟩ => hg2 | ⟨3, _⟩ => hg3)
    (fun j => match j with | ⟨0, _⟩ => hh0 | ⟨1, _⟩ => hh1 | ⟨2, _⟩ => hh2 | ⟨3, _⟩ => hh3)

/-- The result's staging buffer is its eight slices … -/
theorem ov_split (c : Dev nD) (f : Buf (Elt F) (ovM.view.loc (c : Thread nD τ))) :
    (ovM.view.loc (c : Thread nD τ) ↦{fullShare} f : sProp 𝕄) ⊢ cols8 ovM c fullShare (fun _ => f) (fun _ => f) := by
  have h := cols_split (F := F) ovM c fullShare f
  rw [View.set_whole] at h
  exact h

/-- … and its eight slices, at any contents, are the buffer at some contents. -/
theorem ov_join (c : Dev nD) (g h : Fin 4 → Buf (Elt F) (ovM.view.loc (c : Thread nD τ))) :
    cols8 ovM c fullShare g h ⊢ (bufAny cc0_scratch7 c : sProp 𝕄) := by
  have J := cols_join (F := F) ovM c fullShare g h
  rw [View.set_whole] at J
  refine J.trans ?_
  unfold bufAny
  iintro ⟨%f, %hf, H⟩
  iexists f
  iexact H

end Cert.KernelIdeal.Splits

end
-- ==== Proof.ViewVals.lean ====
/-
  What the body's loads read back from what its copies and stores wrote: a staging buffer filled whole by one copy and
  loaded whole; a column slice of the staging buffer of `dy`'s half filled through the slice and loaded through the whole
  buffer at the slice's rectangle; a slot of a four-slot buffer stored through the whole buffer at the slot's rectangle and
  read through the slot; a received slot loaded through the whole buffer. And the values the body computes from them,
  written with the named values of the protocol.
-/
import proofs.«900593_g7700000000000594_dist_rsdw_v7x_xy2x2_y_m512_d512_f2048_f32_1_alg».proof.Proof.Proto
import proofs.«900593_g7700000000000594_dist_rsdw_v7x_xy2x2_y_m512_d512_f2048_f32_1_alg».proof.Proof.Splits
import proofs.«900593_g7700000000000594_dist_rsdw_v7x_xy2x2_y_m512_d512_f2048_f32_1_alg».proof.Proof.Gen.KernelIdeal.Skeleton
import Idealize.ShloMosaic.Lib.Pipeline.Value
import Idealize.ShloMosaic.Lib.Writes

noncomputable section

namespace Cert.KernelIdeal.ViewVals

open Cert.KernelIdeal Cert.KernelIdeal.Gen Cert.KernelIdeal.Vals Cert.KernelIdeal.Proto Cert.KernelIdeal.Splits

open Idealize.ShloMosaic
open Idealize.ShloMosaic.TcCoe
open Idealize.SL Idealize.SL.Sem

variable {F : FTy → Type} [FloatOps F]

/-! ## Shape casts between a slot's value and its stored form -/

/-- A 256×256 value under a leading unit axis, and back. -/
theorem unslot_slotV (v : FVec F S256x256 .bf16) :
    shapeCast S256x256 (slotV v) shapeCasts_S1x256x256_S256x256 = v :=
  shapeCast_shapeCast v _ _

/-- A stored slot's value, squeezed and put under a unit axis again. -/
theorem slotV_unslot (w : FVec F S1x256x256 .bf16) :
    slotV (shapeCast S256x256 w shapeCasts_S1x256x256_S256x256) = w :=
  shapeCast_shapeCast w _ _

/-- A copy that reads its source as it is delivers what it read. -/
theorem same_apply {s : Shape} {e : EltTy} (X : s.Idx → Elt F e) : (ReadAs.same : ReadAs (Elt F) s e s e).apply X = X := rfl

/-! ## A staging buffer filled whole and loaded whole -/

theorem hz2 : (![0, 0] : Fin 2 → Nat) = fun _ => 0 := funext fun a => by fin_cases a <;> rfl

/-- The staging buffer of the half of `x` sent on: written whole, it loads as what was written. -/
theorem read_xs (f : (cc0_scratch6 : Ref sig .tc).ty.Contents (Elt F)) (X : Vec F S512x256 .f32)
    (h : ∀ a, (![0, 0] : Fin 2 → Nat) a + S512x256.size a ≤ S512x256.size a) :
    View.readAt (Elt F) (Memref.whole cc0_scratch6 : Memref sig .tc .vmem S512x256 .f32).view
        (Rect.unit (s := S512x256) ![0, 0] S512x256.size h).toLoadRect
        (View.write (Elt F) (Memref.whole cc0_scratch6 : Memref sig .tc .vmem S512x256 .f32).view f X Finset.univ) = X := by
  have hw : View.write (Elt F) (Memref.whole cc0_scratch6 : Memref sig .tc .vmem S512x256 .f32).view f X Finset.univ = X :=
    View.write_whole_univ cc0_scratch6 f X
  rw [hw]
  exact Memref.readAt_unit_zero (Elt F) cc0_scratch6 hz2 _ X

/-- The staging buffer of the half of `x` kept: likewise. -/
theorem read_xk (f : (cc0_scratch5 : Ref sig .tc).ty.Contents (Elt F)) (X : Vec F S512x256 .f32)
    (h : ∀ a, (![0, 0] : Fin 2 → Nat) a + S512x256.size a ≤ S512x256.size a) :
    View.readAt (Elt F) (Memref.whole cc0_scratch5 : Memref sig .tc .vmem S512x256 .f32).view
        (Rect.unit (s := S512x256) ![0, 0] S512x256.size h).toLoadRect
        (View.write (Elt F) (Memref.whole cc0_scratch5 : Memref sig .tc .vmem S512x256 .f32).view f X Finset.univ) = X := by
  have hw : View.write (Elt F) (Memref.whole cc0_scratch5 : Memref sig .tc .vmem S512x256 .f32).view f X Finset.univ = X :=
    View.write_whole_univ cc0_scratch5 f X
  rw [hw]
  exact Memref.readAt_unit_zero (Elt F) cc0_scratch5 hz2 _ X

/-! ## A column slice of the staging buffer of `dy`'s half -/

/-- Columns `256·j …` filled through the slice, loaded through the whole buffer at the slice's rectangle. -/
theorem read_dyh (j : Fin 4) (off : Fin 2 → Nat) (hoff : off = ![0, 256 * j.val])
    (g : (cc0_scratch4 : Ref sig .tc).ty.Contents (Elt F)) (Y : Vec F S512x256 .f32)
    (h : ∀ a, off a + S512x256.size a ≤ S512x1024.size a) :
    View.readAt (Elt F) (Memref.whole cc0_scratch4 : Memref sig .tc .vmem S512x1024 .f32).view
        (Rect.unit (s := S512x1024) off S512x256.size h).toLoadRect
        ((dyhSl j).view.writes (Elt F) g [⟨Rect.whole S512x256, Y⟩]) = Y := by
  subst hoff
  funext x
  show (dyhSl j).view.read (Elt F) ((dyhSl j).view.writes (Elt F) g [⟨Rect.whole S512x256, Y⟩]) x = Y x
  have hx := View.read_writes_cons_emb (dyhSl j).view g (Rect.whole S512x256) Y [] x
  rwa [Rect.emb_whole_apply] at hx

/-! ## A slot of a four-slot buffer -/

/-- Reading through a slot is reading through the whole buffer at the slot's rectangle, squeezed. -/
theorem slot_read (M : Memref sig .tc .vmem S4x256x256 .bf16) (j : Fin 4) (off : Fin 3 → Nat) (hoff : off = ![j.val, 0, 0])
    (h : ∀ a, off a + S1x256x256.size a ≤ S4x256x256.size a) (f : M.view.ty.Contents (Elt F)) :
    (slot M j).view.read (Elt F) f
      = shapeCast S256x256 (View.readAt (Elt F) M.view (Rect.unit (s := S4x256x256) off S1x256x256.size h).toLoadRect f)
          shapeCasts_S1x256x256_S256x256 := by
  subst hoff; rfl

/-- A slot stored through the whole buffer at the slot's rectangle reads, through the slot, as what was stored, squeezed. -/
theorem slot_read_write (M : Memref sig .tc .vmem S4x256x256 .bf16) (j : Fin 4) (off : Fin 3 → Nat) (hoff : off = ![j.val, 0, 0])
    (h : ∀ a, off a + S1x256x256.size a ≤ S4x256x256.size a) (f : M.view.ty.Contents (Elt F)) (w : FVec F S1x256x256 .bf16) :
    (slot M j).view.read (Elt F)
        (View.write (Elt F) (M.access (Rect.unit (s := S4x256x256) off S1x256x256.size h)) f w Finset.univ)
      = shapeCast S256x256 w shapeCasts_S1x256x256_S256x256 := by
  rw [slot_read M j off hoff h]
  show shapeCast S256x256 ((M.access (Rect.unit (s := S4x256x256) off S1x256x256.size h)).read (Elt F)
    (View.write (Elt F) (M.access (Rect.unit (s := S4x256x256) off S1x256x256.size h)) f w Finset.univ)) _ = _
  rw [View.read_write_univ]

/-- The same for a 256×256 value stored under a leading unit axis. -/
theorem slot_read_write_slotV (M : Memref sig .tc .vmem S4x256x256 .bf16) (j : Fin 4) (off : Fin 3 → Nat) (hoff : off = ![j.val, 0, 0])
    (h : ∀ a, off a + S1x256x256.size a ≤ S4x256x256.size a) (f : M.view.ty.Contents (Elt F)) (v : FVec F S256x256 .bf16) :
    (slot M j).view.read (Elt F)
        (View.write (Elt F) (M.access (Rect.unit (s := S4x256x256) off S1x256x256.size h)) f (slotV v) Finset.univ) = v := by
  rw [slot_read_write M j off hoff h, unslot_slotV]

/-- A slot loaded through the whole buffer at the slot's rectangle: what the slot reads, under a leading unit axis. -/
theorem readAt_slot (M : Memref sig .tc .vmem S4x256x256 .bf16) (j : Fin 4) (off : Fin 3 → Nat) (hoff : off = ![j.val, 0, 0])
    (h : ∀ a, off a + S1x256x256.size a ≤ S4x256x256.size a) (f : M.view.ty.Contents (Elt F)) :
    View.readAt (Elt F) M.view (Rect.unit (s := S4x256x256) off S1x256x256.size h).toLoadRect f
      = slotV ((slot M j).view.read (Elt F) f) := by
  rw [slot_read M j off hoff h, slotV_unslot]

/-- A received slot loaded and squeezed is the value the slot holds. -/
theorem unslot_readAt (M : Memref sig .tc .vmem S4x256x256 .bf16) (j : Fin 4) (off : Fin 3 → Nat) (hoff : off = ![j.val, 0, 0])
    (h : ∀ a, off a + S1x256x256.size a ≤ S4x256x256.size a) (f : M.view.ty.Contents (Elt F)) (v : FVec F S256x256 .bf16)
    (hv : (slot M j).view.read (Elt F) f = v) :
    shapeCast S256x256 (View.readAt (Elt F) M.view (Rect.unit (s := S4x256x256) off S1x256x256.size h).toLoadRect f)
        shapeCasts_S1x256x256_S256x256 = v := by
  rw [← slot_read M j off hoff h, hv]

/-! ## The values the body computes, in the protocol's names -/

section Pay
variable (a b : Vec F S512x256 .f32) (s : FVec F S256x256 .f32) (v : FVec F S256x256 .bf16) (w : Vec F S1x256x256 .bf16)

/-- The partial product of a chunk, narrowed, in its stored form. -/
theorem pay1_eq : k0_pay1 a b = slotV (truncf .bf16 (mm a b) bitsLt_bf16_f32) := rfl
theorem pay2_eq : k0_pay2 a b = slotV (truncf .bf16 (mm a b) bitsLt_bf16_f32) := rfl
theorem pay3_eq : k0_pay3 a b = truncf .bf16 (mm a b) bitsLt_bf16_f32 := rfl
theorem pay4_eq : k0_pay4 v = slotV v := rfl
theorem pay5_eq : k0_pay5 a b = slotV (truncf .bf16 (mm a b) bitsLt_bf16_f32) := rfl
/-- The own product of a chunk. -/
theorem pay6_eq : k0_pay6 a b = mm a b := rfl
theorem pay16_eq : k0_pay16 a b = mm a b := rfl
/-- A loaded slot, squeezed. -/
theorem pay7_eq : k0_pay7 w = shapeCast S256x256 w shapeCasts_S1x256x256_S256x256 := rfl
/-- The sum of the own product and the received partial, widened. -/
theorem pay8_eq : k0_pay8 s v = addf s (extf .f32 v bitsLt_bf16_f32) := rfl
theorem pay9_eq : k0_pay9 s v = slotV (truncf .bf16 (addf s (extf .f32 v bitsLt_bf16_f32)) bitsLt_bf16_f32) := rfl
theorem pay10_eq : k0_pay10 s v = addf s (extf .f32 v bitsLt_bf16_f32) := shapeCast_self _ _
theorem pay11_eq : k0_pay11 s v = addf s (extf .f32 v bitsLt_bf16_f32) := shapeCast_self _ _
theorem pay12_eq : k0_pay12 a b w
    = addf (mm a b) (extf .f32 (shapeCast S256x256 w shapeCasts_S1x256x256_S256x256) bitsLt_bf16_f32) := rfl
theorem pay13_eq : k0_pay13 a b w
    = slotV (truncf .bf16 (addf (mm a b) (extf .f32 (shapeCast S256x256 w shapeCasts_S1x256x256_S256x256) bitsLt_bf16_f32)) bitsLt_bf16_f32) := rfl
theorem pay14_eq : k0_pay14 a b w
    = addf (mm a b) (extf .f32 (shapeCast S256x256 w shapeCasts_S1x256x256_S256x256) bitsLt_bf16_f32) := shapeCast_self _ _
theorem pay15_eq : k0_pay15 a b w
    = addf (mm a b) (extf .f32 (shapeCast S256x256 w shapeCasts_S1x256x256_S256x256) bitsLt_bf16_f32) := shapeCast_self _ _
theorem pay17_eq : k0_pay17 s w
    = addf s (extf .f32 (shapeCast S256x256 w shapeCasts_S1x256x256_S256x256) bitsLt_bf16_f32) := rfl
theorem pay18_eq : k0_pay18 s w
    = slotV (truncf .bf16 (addf s (extf .f32 (shapeCast S256x256 w shapeCasts_S1x256x256_S256x256) bitsLt_bf16_f32)) bitsLt_bf16_f32) := rfl
theorem pay19_eq : k0_pay19 s w
    = addf s (extf .f32 (shapeCast S256x256 w shapeCasts_S1x256x256_S256x256) bitsLt_bf16_f32) := shapeCast_self _ _
theorem pay20_eq : k0_pay20 s w
    = addf s (extf .f32 (shapeCast S256x256 w shapeCasts_S1x256x256_S256x256) bitsLt_bf16_f32) := shapeCast_self _ _
theorem pay21_eq : k0_pay21 a b w
    = addf (mm a b) (extf .f32 (shapeCast S256x256 w shapeCasts_S1x256x256_S256x256) bitsLt_bf16_f32) := rfl
theorem pay22_eq : k0_pay22 a b w
    = slotV (truncf .bf16 (addf (mm a b) (extf .f32 (shapeCast S256x256 w shapeCasts_S1x256x256_S256x256) bitsLt_bf16_f32)) bitsLt_bf16_f32) := rfl
theorem pay23_eq : k0_pay23 a b w
    = addf (mm a b) (extf .f32 (shapeCast S256x256 w shapeCasts_S1x256x256_S256x256) bitsLt_bf16_f32) := shapeCast_self _ _
theorem pay24_eq : k0_pay24 a b w
    = addf (mm a b) (extf .f32 (shapeCast S256x256 w shapeCasts_S1x256x256_S256x256) bitsLt_bf16_f32) := shapeCast_self _ _
/-- A loaded slot of the x-neighbour's sums, squeezed and widened. -/
theorem pay25_eq : k0_pay25 w = extf .f32 (shapeCast S256x256 w shapeCasts_S1x256x256_S256x256) bitsLt_bf16_f32 := shapeCast_self _ _
theorem pay26_eq : k0_pay26 w = extf .f32 (shapeCast S256x256 w shapeCasts_S1x256x256_S256x256) bitsLt_bf16_f32 := shapeCast_self _ _
theorem pay27_eq : k0_pay27 w = extf .f32 (shapeCast S256x256 w shapeCasts_S1x256x256_S256x256) bitsLt_bf16_f32 := shapeCast_self _ _
theorem pay28_eq : k0_pay28 w = extf .f32 (shapeCast S256x256 w shapeCasts_S1x256x256_S256x256) bitsLt_bf16_f32 := shapeCast_self _ _
theorem pay29_eq : k0_pay29 w = extf .f32 (shapeCast S256x256 w shapeCasts_S1x256x256_S256x256) bitsLt_bf16_f32 := shapeCast_self _ _
theorem pay30_eq : k0_pay30 w = extf .f32 (shapeCast S256x256 w shapeCasts_S1x256x256_S256x256) bitsLt_bf16_f32 := shapeCast_self _ _
theorem pay31_eq : k0_pay31 w = extf .f32 (shapeCast S256x256 w shapeCasts_S1x256x256_S256x256) bitsLt_bf16_f32 := shapeCast_self _ _
theorem pay32_eq : k0_pay32 w = extf .f32 (shapeCast S256x256 w shapeCasts_S1x256x256_S256x256) bitsLt_bf16_f32 := shapeCast_self _ _

end Pay

/-! ## What a send slot reads after the body's store: the value the transfer carries -/

section Sent
variable (M : Memref sig .tc .vmem S4x256x256 .bf16) (j : Fin 4) (off : Fin 3 → Nat) (hoff : off = ![j.val, 0, 0])
  (h : ∀ a, off a + S1x256x256.size a ≤ S4x256x256.size a) (f : M.view.ty.Contents (Elt F))
  (a b : Vec F S512x256 .f32) (s : FVec F S256x256 .f32) (v : FVec F S256x256 .bf16) (w : Vec F S1x256x256 .bf16)
include hoff

theorem sent_pay1 : (slot M j).view.read (Elt F)
      (View.write (Elt F) (M.access (Rect.unit (s := S4x256x256) off S1x256x256.size h)) f (k0_pay1 a b) Finset.univ)
    = truncf .bf16 (mm a b) bitsLt_bf16_f32 := by
  rw [pay1_eq]; exact slot_read_write_slotV M j off hoff h f _
theorem sent_pay2 : (slot M j).view.read (Elt F)
      (View.write (Elt F) (M.access (Rect.unit (s := S4x256x256) off S1x256x256.size h)) f (k0_pay2 a b) Finset.univ)
    = truncf .bf16 (mm a b) bitsLt_bf16_f32 := by
  rw [pay2_eq]; exact slot_read_write_slotV M j off hoff h f _
theorem sent_pay4 : (slot M j).view.read (Elt F)
      (View.write (Elt F) (M.access (Rect.unit (s := S4x256x256) off S1x256x256.size h)) f (k0_pay4 (k0_pay3 a b)) Finset.univ)
    = truncf .bf16 (mm a b) bitsLt_bf16_f32 := by
  rw [pay4_eq, pay3_eq]; exact slot_read_write_slotV M j off hoff h f _
theorem sent_pay5 : (slot M j).view.read (Elt F)
      (View.write (Elt F) (M.access (Rect.unit (s := S4x256x256) off S1x256x256.size h)) f (k0_pay5 a b) Finset.univ)
    = truncf .bf16 (mm a b) bitsLt_bf16_f32 := by
  rw [pay5_eq]; exact slot_read_write_slotV M j off hoff h f _
theorem sent_pay9 : (slot M j).view.read (Elt F)
      (View.write (Elt F) (M.access (Rect.unit (s := S4x256x256) off S1x256x256.size h)) f (k0_pay9 s v) Finset.univ)
    = truncf .bf16 (addf s (extf .f32 v bitsLt_bf16_f32)) bitsLt_bf16_f32 := by
  rw [pay9_eq]; exact slot_read_write_slotV M j off hoff h f _
theorem sent_pay13 : (slot M j).view.read (Elt F)
      (View.write (Elt F) (M.access (Rect.unit (s := S4x256x256) off S1x256x256.size h)) f (k0_pay13 a b w) Finset.univ)
    = truncf .bf16 (addf (mm a b) (extf .f32 (shapeCast S256x256 w shapeCasts_S1x256x256_S256x256) bitsLt_bf16_f32)) bitsLt_bf16_f32 := by
  rw [pay13_eq]; exact slot_read_write_slotV M j off hoff h f _
theorem sent_pay18 : (slot M j).view.read (Elt F)
      (View.write (Elt F) (M.access (Rect.unit (s := S4x256x256) off S1x256x256.size h)) f (k0_pay18 s w) Finset.univ)
    = truncf .bf16 (addf s (extf .f32 (shapeCast S256x256 w shapeCasts_S1x256x256_S256x256) bitsLt_bf16_f32)) bitsLt_bf16_f32 := by
  rw [pay18_eq]; exact slot_read_write_slotV M j off hoff h f _
theorem sent_pay22 : (slot M j).view.read (Elt F)
      (View.write (Elt F) (M.access (Rect.unit (s := S4x256x256) off S1x256x256.size h)) f (k0_pay22 a b w) Finset.univ)
    = truncf .bf16 (addf (mm a b) (extf .f32 (shapeCast S256x256 w shapeCasts_S1x256x256_S256x256) bitsLt_bf16_f32)) bitsLt_bf16_f32 := by
  rw [pay22_eq]; exact slot_read_write_slotV M j off hoff h f _

end Sent

/-! ## The protocol's named values, unfolded one step -/

section Named
variable (m : (ℓ : Loc nD τ sig) → Buf (Elt F) ℓ) (c : Dev nD) (j : Fin 4)

theorem p1V_def : truncf .bf16 (mm (xsV m c) (dyV m c j)) bitsLt_bf16_f32 = p1V m c j := rfl
theorem keepV_def : mm (xkV m c) (dyV m c j) = keepV m c j := rfl
theorem valV_def : addf (keepV m c j) (extf .f32 (p1V m (ynb c) j) bitsLt_bf16_f32) = valV m c j := rfl
theorem valV_def' : addf (mm (xkV m c) (dyV m c j)) (extf .f32 (p1V m (ynb c) j) bitsLt_bf16_f32) = valV m c j := rfl
theorem p2V_def : truncf .bf16 (valV m c j) bitsLt_bf16_f32 = p2V m c j := rfl
theorem theirsV_def : extf .f32 (p2V m (xnb c) j) bitsLt_bf16_f32 = theirsV m c j := rfl

end Named

/-- info: 'Cert.KernelIdeal.ViewVals.read_dyh' depends on axioms: [propext, Classical.choice, Quot.sound] -/
#guard_msgs in #print axioms read_dyh
/-- info: 'Cert.KernelIdeal.ViewVals.slot_read_write_slotV' depends on axioms: [propext, Classical.choice, Quot.sound] -/
#guard_msgs in #print axioms slot_read_write_slotV
/-- info: 'Cert.KernelIdeal.ViewVals.unslot_readAt' depends on axioms: [propext, Classical.choice, Quot.sound] -/
#guard_msgs in #print axioms unslot_readAt
/-- info: 'Cert.KernelIdeal.ViewVals.sent_pay22' depends on axioms: [propext, Classical.choice, Quot.sound] -/
#guard_msgs in #print axioms sent_pay22

end Cert.KernelIdeal.ViewVals

end
-- ==== Proof.OutVals.lean ====
/-
  A buffer written piece by piece and read back through one piece's rectangle: the rectangle written last reads, through
  its own slice, as what was written there; a later write through a rectangle that shares no element with a slice is not
  seen through the slice; and a buffer written whole last reads as what was written. These say what the copy of one
  256-column slice of the result's staging buffer carries to the result array after the stores into the staging buffer.
-/
import proofs.«900593_g7700000000000594_dist_rsdw_v7x_xy2x2_y_m512_d512_f2048_f32_1_alg».proof.Proof.ViewVals
import Idealize.ShloMosaic.Lib.Writes

noncomputable section

namespace Cert.KernelIdeal.OutVals

open Idealize.ShloMosaic
open Idealize.SL Idealize.SL.Sem

section Writes
variable {sig : RefSig} {κ : Kind} {sp : Space} {s : Shape} {e : EltTy} {Val : EltTy → Type}

/-- A buffer written whole last reads as what was written. -/
theorem read_writes_whole (v : View sig κ sp s e) (g : v.ty.Contents Val) (Y : s.Idx → Val e) (L : List (View.Piece Val s e)) :
    v.read Val (v.writes Val g (⟨Rect.whole s, Y⟩ :: L)) = Y := by
  funext x
  have hx := View.read_writes_cons_emb v g (Rect.whole s) Y L x
  rwa [Rect.emb_whole_apply] at hx

/-- The rectangle written last reads, through its own slice, as what was written there. -/
theorem read_slice_writes_head (v : View sig κ sp s e) (f : v.ty.Contents Val) (off off' size : Fin s.rank → Nat)
    (h : ∀ a, off a + size a ≤ s.size a) (h' : ∀ a, off' a + size a ≤ s.size a) (hoff : off = off')
    (w : (Rect.unit (s := s) off' size h').shape.Idx → Val e) (L : List (View.Piece Val s e)) :
    (v.slice (Rect.unit (s := s) off size h)).read Val (v.writes Val f (⟨Rect.unit (s := s) off' size h', w⟩ :: L)) = w := by
  subst hoff
  exact View.read_write_univ _ w

/-- A later write through a rectangle that shares no element with the slice is not seen through the slice. -/
theorem read_slice_writes_skip (v : View sig κ sp s e) (f : v.ty.Contents Val) (r : Rect s) (p : View.Piece Val s e)
    (L : List (View.Piece Val s e)) (hd : Disjoint r.set p.1.set) :
    (v.slice r).read Val (v.writes Val f (p :: L)) = (v.slice r).read Val (v.writes Val f L) := by
  refine View.read_slice_write_slice_of_disjoint r p.1 _ p.2 Finset.univ ?_
  rw [View.setOn_univ, View.set_slice, View.set_slice]
  exact (Finset.disjoint_map _).mpr hd

end Writes

/-- info: 'Cert.KernelIdeal.OutVals.read_writes_whole' depends on axioms: [propext, Classical.choice, Quot.sound] -/
#guard_msgs in #print axioms read_writes_whole
/-- info: 'Cert.KernelIdeal.OutVals.read_slice_writes_head' depends on axioms: [propext, Classical.choice, Quot.sound] -/
#guard_msgs in #print axioms read_slice_writes_head
/-- info: 'Cert.KernelIdeal.OutVals.read_slice_writes_skip' depends on axioms: [propext, Classical.choice, Quot.sound] -/
#guard_msgs in #print axioms read_slice_writes_skip

end Cert.KernelIdeal.OutVals

end
-- ==== Proof.Exit.lean ====
/-
  The end of the body on device `c`: the sixteen exchange cells closed, their counters and the fourteen local ones
  joined into the device's own semaphores at zero, the scratch buffers regrouped, and the protocol's end state
  assembled from the pieces.
-/
import proofs.«900593_g7700000000000594_dist_rsdw_v7x_xy2x2_y_m512_d512_f2048_f32_1_alg».proof.Proof.Proto
import proofs.«900593_g7700000000000594_dist_rsdw_v7x_xy2x2_y_m512_d512_f2048_f32_1_alg».proof.Proof.Steps
import Idealize.ShloMosaic.Lib.Pipeline.Launch
import Idealize.ShloMosaic.Lib.Pipeline.Kit
import Idealize.ShloMosaic.Lib.Tactic

noncomputable section

namespace Cert.KernelIdeal.Exit

open Cert.KernelIdeal Cert.KernelIdeal.Gen Cert.KernelIdeal.Vals Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Finite conjunctions, listed -/

theorem bigSepL_cons_cons' {I : Type} (i j : I) (l : List I) (Φ : I → sProp 𝕄) : bigSepL (i :: j :: l) Φ = iprop(Φ i ∗ bigSepL (j :: l) Φ) := rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin14 (Φ : Fin 14 → sProp 𝕄) : bigSep Finset.univ Φ = bigSepL [0, 1, 2, 3, 4, 5, 6, 7, 8, 9, 10, 11, 12, 13] Φ :=
  bigSep_univ_eq_bigSepL _ (by decide) (by decide) Φ
theorem bigSep_fin16 (Φ : Fin 16 → sProp 𝕄) : bigSep Finset.univ Φ = bigSepL [0, 1, 2, 3, 4, 5, 6, 7, 8, 9, 10, 11, 12, 13, 14, 15] Φ :=
  bigSep_univ_eq_bigSepL _ (by decide) (by decide) Φ

/-! ## The device's own semaphores at zero, from the exchange cells' counters and the local copies' -/

/-- The sixteen exchange semaphores by their places, and the fourteen local ones: all thirty. -/
theorem sems_join (c : Dev nD) :
    (iprop((bigSep Finset.univ fun q : Fin 16 => semVal (dCell c ⟨q.val, by have := q.isLt; show q.val < 30; omega⟩) 0) ∗ localSems c) : sProp 𝕄)
      ⊢ Pipeline.ownSems0 (Ix := Unit) (Name := ℕ) (U := UU) (Lvl := ℕ) (Val := Elt F) (τ := τ) osem c := by
  unfold localSems
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide), bigSep_fin16, bigSep_fin14]
  simp only [bigSepL_cons_cons', bigSepL_singleton]
  iintro ⟨⟨H0, H1, H2, H3, H4, H5, H6, H7, H8, H9, H10, H11, H12, H13, H14, H15⟩, H16, H17, H18, H19, H20, H21, H22, H23, H24, H25, H26, H27, H28, H29⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The same, the sixteen given as the four families of four. -/
theorem sems_join4 (c : Dev nD) :
    (iprop((bigSep Finset.univ fun j : Fin 4 => semVal (dCell c (s1s j)) 0)
        ∗ (bigSep Finset.univ fun j : Fin 4 => semVal (dCell c (s1r j)) 0)
        ∗ (bigSep Finset.univ fun j : Fin 4 => semVal (dCell c (s2s j)) 0)
        ∗ (bigSep Finset.univ fun j : Fin 4 => semVal (dCell c (s2r j)) 0)
        ∗ localSems c) : sProp 𝕄)
      ⊢ Pipeline.ownSems0 (Ix := Unit) (Name := ℕ) (U := UU) (Lvl := ℕ) (Val := Elt F) (τ := τ) osem c := by
  unfold localSems
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide), bigSep_fin4, bigSep_fin4, bigSep_fin4, bigSep_fin4, bigSep_fin14]
  simp only [bigSepL_cons_cons', bigSepL_singleton]
  iintro ⟨⟨A0, A1, A2, A3⟩, ⟨B0, B1, B2, B3⟩, ⟨C0, C1, C2, C3⟩, ⟨D0, D1, D2, D3⟩, H16, H17, H18, H19, H20, H21, H22, H23, H24, H25, H26, H27, H28, H29⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2]; · iexact D2
  isplitl [D3]; · iexact D3
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The fourteen local semaphores' counters, one by one, are localSems. -/
theorem localSems_intro (c : Dev nD) :
    (iprop(semVal (dCell c (lsem 0)) 0
        ∗ semVal (dCell c (lsem 1)) 0
        ∗ semVal (dCell c (lsem 2)) 0
        ∗ semVal (dCell c (lsem 3)) 0
        ∗ semVal (dCell c (lsem 4)) 0
        ∗ semVal (dCell c (lsem 5)) 0
        ∗ semVal (dCell c (lsem 6)) 0
        ∗ semVal (dCell c (lsem 7)) 0
        ∗ semVal (dCell c (lsem 8)) 0
        ∗ semVal (dCell c (lsem 9)) 0
        ∗ semVal (dCell c (lsem 10)) 0
        ∗ semVal (dCell c (lsem 11)) 0
        ∗ semVal (dCell c (lsem 12)) 0
        ∗ semVal (dCell c (lsem 13)) 0) : sProp 𝕄)
      ⊢ localSems c := by
  unfold localSems
  rw [bigSep_fin14]
  simp only [bigSepL_cons_cons', bigSepL_singleton]
  exact BI.Entails.refl _

/-! ## Closing the sixteen exchange cells -/

/-- A family of exchange cells past their one round closes: their counters, at zero, are the device's again. -/
theorem close_fam (K : Dev nD × Fin 17 → ℕ) (c : Dev nD) (q : Fin 4 → DmaSem sig) (hq : ∀ j, (q j).val < 16) :
    iprop(records m K ∗ bigSep Finset.univ fun j : Fin 4 => atPos ER (dCell c (q j)) 1 ∅ 0)
      ⊢ (|={Set.univ}=> bigSep Finset.univ fun j : Fin 4 => semVal (dCell c (q j)) 0 : sProp 𝕄) :=
  (bigSep_with_persistent (R := records m K) fun j _ => Steps.close_x m K c (q j) (hq j)).trans (bigSep_fupd _ _)

/-- All sixteen. -/
theorem close_all (K : Dev nD × Fin 17 → ℕ) (c : Dev nD) :
    iprop(records m K
        ∗ (bigSep Finset.univ fun j : Fin 4 => atPos ER (dCell c (s1s j)) 1 ∅ 0)
        ∗ (bigSep Finset.univ fun j : Fin 4 => atPos ER (dCell c (s1r j)) 1 ∅ 0)
        ∗ (bigSep Finset.univ fun j : Fin 4 => atPos ER (dCell c (s2s j)) 1 ∅ 0)
        ∗ (bigSep Finset.univ fun j : Fin 4 => atPos ER (dCell c (s2r j)) 1 ∅ 0))
      ⊢ (|={Set.univ}=> iprop((bigSep Finset.univ fun j : Fin 4 => semVal (dCell c (s1s j)) 0)
          ∗ (bigSep Finset.univ fun j : Fin 4 => semVal (dCell c (s1r j)) 0)
          ∗ (bigSep Finset.univ fun j : Fin 4 => semVal (dCell c (s2s j)) 0)
          ∗ (bigSep Finset.univ fun j : Fin 4 => semVal (dCell c (s2r j)) 0)) : sProp 𝕄) := by
  iintro ⟨#Hrec, HA, HB, HC, HD⟩
  imod (close_fam m K c s1s Steps.s1s_lt) $$ [HA] with HA
  · isplitr; · iexact Hrec
    iexact HA
  imod (close_fam m K c s1r Steps.s1r_lt) $$ [HB] with HB
  · isplitr; · iexact Hrec
    iexact HB
  imod (close_fam m K c s2s Steps.s2s_lt) $$ [HC] with HC
  · isplitr; · iexact Hrec
    iexact HC
  imod (close_fam m K c s2r Steps.s2r_lt) $$ [HD] with HD
  · isplitr; · iexact Hrec
    iexact HD
  imodintro
  isplitl [HA]; · iexact HA
  isplitl [HB]; · iexact HB
  isplitl [HC]; · iexact HC
  iexact HD

/-- The sixteen cells closed and the local counters joined: every own semaphore of the device at zero. -/
theorem sems_close (K : Dev nD × Fin 17 → ℕ) (c : Dev nD) :
    iprop(records m K
        ∗ (bigSep Finset.univ fun j : Fin 4 => atPos ER (dCell c (s1s j)) 1 ∅ 0)
        ∗ (bigSep Finset.univ fun j : Fin 4 => atPos ER (dCell c (s1r j)) 1 ∅ 0)
        ∗ (bigSep Finset.univ fun j : Fin 4 => atPos ER (dCell c (s2s j)) 1 ∅ 0)
        ∗ (bigSep Finset.univ fun j : Fin 4 => atPos ER (dCell c (s2r j)) 1 ∅ 0)
        ∗ localSems c)
      ⊢ (|={Set.univ}=> Pipeline.ownSems0 (Ix := Unit) (Name := ℕ) (U := UU) (Lvl := ℕ) (Val := Elt F) (τ := τ) osem c : sProp 𝕄) := by
  iintro ⟨#Hrec, HA, HB, HC, HD, Hloc⟩
  imod (close_all m K c) $$ [HA HB HC HD] with ⟨HA, HB, HC, HD⟩
  · isplitr; · iexact Hrec
    isplitl [HA]; · iexact HA
    isplitl [HB]; · iexact HB
    isplitl [HC]; · iexact HC
    iexact HD
  imodintro
  iapply (sems_join4 (F := F) c)
  isplitl [HA]; · iexact HA
  isplitl [HB]; · iexact HB
  isplitl [HC]; · iexact HC
  isplitl [HD]; · iexact HD
  iexact Hloc

/-! ## The end state -/

/-- The eight scratch buffers, each whole at some contents. -/
theorem scratch_intro (c : Dev nD) :
    (iprop(bufAny cc0_scratch0 c ∗ bufAny cc0_scratch1 c ∗ bufAny cc0_scratch2 c ∗ bufAny cc0_scratch3 c
        ∗ bufAny cc0_scratch4 c ∗ bufAny cc0_scratch5 c ∗ bufAny cc0_scratch6 c ∗ bufAny cc0_scratch7 c) : sProp 𝕄) ⊢ scratch c := by
  unfold scratch; exact BI.Entails.refl _

/-- The argument arrays unchanged and a result array that is right. -/
theorem outArgs_intro (c : Dev nD) (f : Buf (Elt F) ((c : Thread nD τ).loc main_v1)) (hf : OutOk m c f) :
    (iprop((((c : Thread nD τ).loc main_arg0) ↦{fullShare} m ((c : Thread nD τ).loc main_arg0))
        ∗ (((c : Thread nD τ).loc main_arg1) ↦{fullShare} m ((c : Thread nD τ).loc main_arg1))
        ∗ (((c : Thread nD τ).loc main_v1) ↦{fullShare} f)) : sProp 𝕄) ⊢ outArgs m c := by
  unfold outArgs
  iintro ⟨H0, H1, Hv⟩
  isplitl [H0]; · iexact H0
  isplitl [H1]; · iexact H1
  iexists f
  isplitr; · ipureintro; exact hf
  iexact Hv

/-- The protocol's end state from its pieces. -/
theorem post_intro (c : Dev nD) (W' : Waits sig Unit) :
    iprop(scratch c ∗ Pipeline.ownSems0 (Ix := Unit) (Name := ℕ) (U := UU) (Lvl := ℕ) (Val := Elt F) (τ := τ) osem c ∗ outArgs m c
        ∗ owes (c : Thread nD τ) 0 W')
      ⊢ bodyPost m c := by
  unfold bodyPost Φ₁
  iintro ⟨Hs, Ho, Ha, HO⟩
  isplitl [Hs Ho Ha]
  · isplitl [Hs]; · iexact Hs
    isplitl [Ho]; · iexact Ho
    iexact Ha
  · iexists W'; iexact HO

/-- info: 'Cert.KernelIdeal.Exit.sems_close' depends on axioms: [propext, Classical.choice, Quot.sound] -/
#guard_msgs in #print axioms sems_close
/-- info: 'Cert.KernelIdeal.Exit.post_intro' depends on axioms: [propext, Classical.choice, Quot.sound] -/
#guard_msgs in #print axioms post_intro

end Cert.KernelIdeal.Exit

end
-- ==== Proof.BodyTac.lean ====
/-
  The body's run on one device, written once as a tactic over the device: the protocol's remote steps (two barrier
  signals, the barrier wait, four transfers to the y-neighbour, four receive waits, four transfers to the
  x-neighbour, four more receive waits, eight send waits) by their rules in program order, every local step — the
  fourteen local copies and their waits, the loads, the products and sums, the stores, the device-dependent branches — by
  symbolic execution between them, and at the end the cells closed and the buffers rejoined.
-/
import proofs.«900593_g7700000000000594_dist_rsdw_v7x_xy2x2_y_m512_d512_f2048_f32_1_alg».proof.Proof.Proto
import proofs.«900593_g7700000000000594_dist_rsdw_v7x_xy2x2_y_m512_d512_f2048_f32_1_alg».proof.Proof.Steps
import proofs.«900593_g7700000000000594_dist_rsdw_v7x_xy2x2_y_m512_d512_f2048_f32_1_alg».proof.Proof.Splits
import proofs.«900593_g7700000000000594_dist_rsdw_v7x_xy2x2_y_m512_d512_f2048_f32_1_alg».proof.Proof.ViewVals
import proofs.«900593_g7700000000000594_dist_rsdw_v7x_xy2x2_y_m512_d512_f2048_f32_1_alg».proof.Proof.OutVals
import proofs.«900593_g7700000000000594_dist_rsdw_v7x_xy2x2_y_m512_d512_f2048_f32_1_alg».proof.Proof.Exit
import proofs.«900593_g7700000000000594_dist_rsdw_v7x_xy2x2_y_m512_d512_f2048_f32_1_alg».proof.Proof.Gen.KernelIdeal.Skeleton
import Idealize.ShloMosaic.Lib.Pipeline.Value
import Idealize.ShloMosaic.Lib.Tactic

noncomputable section

namespace Cert.KernelIdeal.BodyProof

open Cert.KernelIdeal Cert.KernelIdeal.Gen Cert.KernelIdeal.Vals Cert.KernelIdeal.Proto Cert.KernelIdeal.Steps Cert.KernelIdeal.Splits

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem to_pt (c : Dev nD) (b : Ref sig .tc) (f : Buf (Elt F) ((c : Thread nD τ).loc b)) :
    (((c : Thread nD τ).loc b ↦{fullShare} f : sProp 𝕄)) ⊢ ((Memref.whole b).view.loc (c : Thread nD τ) ↦{fullShare} f) := BI.Entails.refl _

set_option maxHeartbeats 4000000 in
/-- The body's run on one device: the protocol's steps in program order, the local steps by symbolic execution. -/
macro "body_run_KernelIdeal " F:term:max m:term:max K:term:max W:term:max c:term:max : tactic => `(tactic| (
  unfold bodyPre ghost linear payToks localSems creds args scratch bufAny
  rw [bigSep_fin14, bigSep_fin17]
  simp only [bigSep_fin4]
  iintro ⟨⟨#HR, ⟨HaB, Ha1, Ha2, Ha3, Ha4, Ha5, Ha6, Ha7, Ha8, Ha9, Ha10, Ha11, Ha12, Ha13, Ha14, Ha15, Ha16⟩, Htx, Hty, ⟨Hr0, Hr1, Hr2, Hr3⟩, ⟨Hq0, Hq1, Hq2, Hq3⟩, ⟨Hs0, Hs1, Hs2, Hs3⟩, ⟨Hp0, Hp1, Hp2, Hp3⟩⟩,
    ⟨Hl0, Hl1, Hl2, Hl3, Hl4, Hl5, Hl6, Hl7, Hl8, Hl9, Hl10, Hl11, Hl12, Hl13⟩, ⟨HcB, ⟨Hc10, Hc11, Hc12, Hc13⟩, ⟨Hc20, Hc21, Hc22, Hc23⟩⟩, #Hlev, ⟨HA0, HA1, HV1⟩,
    ⟨⟨%f0, H0⟩, ⟨%f1, H1⟩, ⟨%f2, H2⟩, ⟨%f3, H3⟩, ⟨%f4, H4⟩, ⟨%f5, H5⟩, ⟨%f6, H6⟩, ⟨%f7, H7⟩⟩, HO⟩
  ihave GA0 := (to_pt _ main_arg0 _) $$ HA0
  ihave GA1 := (to_pt _ main_arg1 _) $$ HA1
  ihave GV1 := (to_pt _ main_v1 _) $$ HV1
  ihave G0s := (Steps.cs_split (F := $F) $c f0).1 $$ H0
  unfold Steps.slots4
  icases G0s with ⟨C0, C1, C2, C3⟩
  ihave G1 := (to_pt _ cc0_scratch1 f1) $$ H1
  ihave G2s := (Steps.ps_split (F := $F) $c f2).1 $$ H2
  unfold Steps.slots4
  icases G2s with ⟨P0, P1, P2, P3⟩
  ihave G3 := (to_pt _ cc0_scratch3 f3) $$ H3
  ihave G4 := (to_pt _ cc0_scratch4 f4) $$ H4
  ihave G5 := (to_pt _ cc0_scratch5 f5) $$ H5
  ihave G6 := (to_pt _ cc0_scratch6 f6) $$ H6
  ihave G7 := (to_pt _ cc0_scratch7 f7) $$ H7
  ihave GD := (Splits.dyh_split (F := $F) $c f4) $$ G4
  icases GD with ⟨D0, D1, D2, D3⟩
  ihave GO := (Splits.out_split (F := $F) $c ($m ((Dev.tc $c : Thread nD τ).loc main_v1))) $$ GV1
  icases GO with ⟨OM0, OM1, OM2, OM3, OT0, OT1, OT2, OT3⟩
  sl_exec_parts
  iapply (Steps.sig_x $m $K $c _ (by decide +kernel) $W f3) $$ [HO Htx G3]
  · isplitr; · iexact HR
    isplitl [HO]; · iexact HO
    isplitl [Htx]; · iexact Htx
    iexact G3
  iintro HO
  sl_exec_parts
  iapply (Steps.sig_y $m $K $c _ (by decide +kernel) $W f1) $$ [HO Hty G1]
  · isplitr; · iexact HR
    isplitl [HO]; · iexact HO
    isplitl [Hty]; · iexact Hty
    iexact G1
  iintro HO
  sl_exec_parts
  iapply (Steps.wait_bar $m $K $c $W) $$ [HcB HO HaB]
  · isplitr; · iexact HR
    isplitl [HcB]; · iexact HcB
    isplitl [HO]; · iexact HO
    isplitl [HaB]; · iexact HaB
    iexact Hlev
  iintro ⟨HO, HaB, X3, Y1⟩
  unfold bufAny
  icases X3 with ⟨%g3, X3⟩
  icases Y1 with ⟨%g1, Y1⟩
  ihave XS := (Steps.pr_split (F := $F) (xnb $c) g3).1 $$ X3
  ihave YS := (Steps.rs_split (F := $F) (ynb $c) g1).1 $$ Y1
  unfold Steps.slots4
  icases XS with ⟨X0, X1, X2, X3⟩
  icases YS with ⟨Y0, Y1, Y2, Y3⟩
  have hmw20 := mayWait_O2 (F := $F) $c (.dma ⟨20, by decide⟩) (by decide) (O2 $c) (fun _ _ h => h)
  have hmw16 := mayWait_O2 (F := $F) $c (.dma ⟨16, by decide⟩) (by decide) (O2 $c) (fun _ _ h => h)
  sl_exec_parts
  iapply (Steps.send1 $m $K $c _ (by decide +kernel) 0 _ ?hv0 g1 (O3 $c) (O2 $c) rfl _) $$ [C0 Y0 HO Hs0 Hr0]
  rotate_left 1
  · isplitr; · iexact HR
    isplitl [C0]; · iexact C0
    isplitl [Y0]; · iexact Y0
    isplitl [HO]; · iexact HO
    isplitl [Hs0]; · iexact Hs0
    iexact Hr0
  rotate_left 1
  · (sl_unfold_words; rw [ViewVals.sent_pay1 csM 0 ![0, 0, 0] rfl, ViewVals.read_xs, ViewVals.read_dyh 0 ![0, 0] rfl]; rfl)
  iintro ⟨Hcs0, HO⟩
  have hmw17 := mayWait_O2 (F := $F) $c (.dma ⟨17, by decide⟩) (by decide) (O3 $c) (fun _ _ h => by unfold O2; exact pos_add_left h)
  sl_exec_parts
  iapply (Steps.send1 $m $K $c _ (by decide +kernel) 1 _ ?hv1 g1 (O4 $c) (O3 $c) rfl _) $$ [C1 Y1 HO Hs1 Hr1]
  rotate_left 1
  · isplitr; · iexact HR
    isplitl [C1]; · iexact C1
    isplitl [Y1]; · iexact Y1
    isplitl [HO]; · iexact HO
    isplitl [Hs1]; · iexact Hs1
    iexact Hr1
  rotate_left 1
  · (sl_unfold_words; rw [ViewVals.sent_pay2 csM 1 ![1, 0, 0] rfl, ViewVals.read_xs, ViewVals.read_dyh 1 ![0, 256] rfl]; rfl)
  iintro ⟨Hcs1, HO⟩
  have hmw18 := mayWait_O2 (F := $F) $c (.dma ⟨18, by decide⟩) (by decide) (O4 $c) (fun _ _ h => by unfold O2 O3; exact pos_add_left (pos_add_left h))
  sl_exec_parts
  iapply (Steps.send1 $m $K $c _ (by decide +kernel) 2 _ ?hv2 g1 (O5 $c) (O4 $c) rfl _) $$ [C2 Y2 HO Hs2 Hr2]
  rotate_left 1
  · isplitr; · iexact HR
    isplitl [C2]; · iexact C2
    isplitl [Y2]; · iexact Y2
    isplitl [HO]; · iexact HO
    isplitl [Hs2]; · iexact Hs2
    iexact Hr2
  rotate_left 1
  · (sl_unfold_words; rw [ViewVals.sent_pay4 csM 2 ![2, 0, 0] rfl, ViewVals.read_xs, ViewVals.read_dyh 2 ![0, 512] rfl]; rfl)
  iintro ⟨Hcs2, HO⟩
  have hmw19 := mayWait_O2 (F := $F) $c (.dma ⟨19, by decide⟩) (by decide) (O5 $c) (fun _ _ h => by unfold O2 O3 O4; exact pos_add_left (pos_add_left (pos_add_left h)))
  sl_exec_parts
  iapply (Steps.send1 $m $K $c _ (by decide +kernel) 3 _ ?hv3 g1 (O6 $c) (O5 $c) rfl _) $$ [C3 Y3 HO Hs3 Hr3]
  rotate_left 1
  · isplitr; · iexact HR
    isplitl [C3]; · iexact C3
    isplitl [Y3]; · iexact Y3
    isplitl [HO]; · iexact HO
    isplitl [Hs3]; · iexact Hs3
    iexact Hr3
  rotate_left 1
  · (sl_unfold_words; rw [ViewVals.sent_pay5 csM 3 ![3, 0, 0] rfl, ViewVals.read_xs, ViewVals.read_dyh 3 ![0, 768] rfl]; rfl)
  iintro ⟨Hcs3, HO⟩
  have hmw21 := mayWait_O6 (F := $F) $c (.dma ⟨21, by decide⟩) (by decide) (O6 $c) (fun _ _ h => h)
  sl_exec_parts
  ihave Hm0 := (mayWait_O6 (F := $F) $c (.dma (s1r 0)) (le_of_eq (lv_s1r _ _)) (O6 $c) (fun _ _ h => h)) $$ Hlev
  iapply (Steps.wait_s1r $m $K $c 0 (O6 $c) _) $$ [Hc10 HO Hm0 Ha5]
  · isplitr; · iexact HR
    isplitl [Hc10]; · iexact Hc10
    isplitl [HO]; · iexact HO
    isplitl [Hm0]; · iexact Hm0
    iexact Ha5
  iintro ⟨HO, Ha5, Hpay0⟩
  unfold rsPay slotIs
  icases Hpay0 with ⟨%r0, %hr0, R0⟩
  sl_exec_parts
  iapply (Steps.send2 $m $K $c _ (by decide +kernel) 0 _ ?hv4 g3 (O7 $c) (O6 $c) rfl _) $$ [P0 X0 HO Hp0 Hq0]
  rotate_left 1
  · isplitr; · iexact HR
    isplitl [P0]; · iexact P0
    isplitl [X0]; · iexact X0
    isplitl [HO]; · iexact HO
    isplitl [Hp0]; · iexact Hp0
    iexact Hq0
  rotate_left 1
  · (sl_unfold_words; rw [ViewVals.sent_pay9 psM 0 ![0, 0, 0] rfl, ViewVals.pay6_eq, ViewVals.pay7_eq, ViewVals.read_xk, ViewVals.read_dyh 0 ![0, 0] rfl, ViewVals.unslot_readAt rsM 0 ![0, 0, 0] rfl _ r0 _ hr0]; rfl)
  iintro ⟨Hps0, HO⟩
  sl_exec_parts
  ihave Hm1 := (mayWait_O6 (F := $F) $c (.dma (s1r 1)) (le_of_eq (lv_s1r _ _)) (O7 $c) (fun _ _ h => by unfold O6; exact pos_add_left h)) $$ Hlev
  iapply (Steps.wait_s1r $m $K $c 1 (O7 $c) _) $$ [Hc11 HO Hm1 Ha6]
  · isplitr; · iexact HR
    isplitl [Hc11]; · iexact Hc11
    isplitl [HO]; · iexact HO
    isplitl [Hm1]; · iexact Hm1
    iexact Ha6
  iintro ⟨HO, Ha6, Hpay1⟩
  unfold rsPay slotIs
  icases Hpay1 with ⟨%r1, %hr1, R1⟩
  sl_exec_parts
  iapply (Steps.send2 $m $K $c _ (by decide +kernel) 1 _ ?hv5 g3 (O8 $c) (O7 $c) rfl _) $$ [P1 X1 HO Hp1 Hq1]
  rotate_left 1
  · isplitr; · iexact HR
    isplitl [P1]; · iexact P1
    isplitl [X1]; · iexact X1
    isplitl [HO]; · iexact HO
    isplitl [Hp1]; · iexact Hp1
    iexact Hq1
  rotate_left 1
  · (sl_unfold_words; rw [ViewVals.sent_pay13 psM 1 ![1, 0, 0] rfl, ViewVals.read_xk, ViewVals.read_dyh 1 ![0, 256] rfl, ViewVals.unslot_readAt rsM 1 ![1, 0, 0] rfl _ r1 _ hr1]; rfl)
  iintro ⟨Hps1, HO⟩
  sl_exec_parts
  ihave Hm2 := (mayWait_O6 (F := $F) $c (.dma (s1r 2)) (le_of_eq (lv_s1r _ _)) (O8 $c) (fun _ _ h => by unfold O6 O7; exact pos_add_left (pos_add_left h))) $$ Hlev
  iapply (Steps.wait_s1r $m $K $c 2 (O8 $c) _) $$ [Hc12 HO Hm2 Ha7]
  · isplitr; · iexact HR
    isplitl [Hc12]; · iexact Hc12
    isplitl [HO]; · iexact HO
    isplitl [Hm2]; · iexact Hm2
    iexact Ha7
  iintro ⟨HO, Ha7, Hpay2⟩
  unfold rsPay slotIs
  icases Hpay2 with ⟨%r2, %hr2, R2⟩
  sl_exec_parts
  iapply (Steps.send2 $m $K $c _ (by decide +kernel) 2 _ ?hv6 g3 (O9 $c) (O8 $c) rfl _) $$ [P2 X2 HO Hp2 Hq2]
  rotate_left 1
  · isplitr; · iexact HR
    isplitl [P2]; · iexact P2
    isplitl [X2]; · iexact X2
    isplitl [HO]; · iexact HO
    isplitl [Hp2]; · iexact Hp2
    iexact Hq2
  rotate_left 1
  · (sl_unfold_words; rw [ViewVals.sent_pay18 psM 2 ![2, 0, 0] rfl, ViewVals.pay16_eq, ViewVals.read_xk, ViewVals.read_dyh 2 ![0, 512] rfl, ViewVals.unslot_readAt rsM 2 ![2, 0, 0] rfl _ r2 _ hr2]; rfl)
  iintro ⟨Hps2, HO⟩
  sl_exec_parts
  ihave Hm3 := (mayWait_O6 (F := $F) $c (.dma (s1r 3)) (le_of_eq (lv_s1r _ _)) (O9 $c) (fun _ _ h => by unfold O6 O7 O8; exact pos_add_left (pos_add_left (pos_add_left h)))) $$ Hlev
  iapply (Steps.wait_s1r $m $K $c 3 (O9 $c) _) $$ [Hc13 HO Hm3 Ha8]
  · isplitr; · iexact HR
    isplitl [Hc13]; · iexact Hc13
    isplitl [HO]; · iexact HO
    isplitl [Hm3]; · iexact Hm3
    iexact Ha8
  iintro ⟨HO, Ha8, Hpay3⟩
  unfold rsPay slotIs
  icases Hpay3 with ⟨%r3, %hr3, R3⟩
  sl_exec_parts
  iapply (Steps.send2 $m $K $c _ (by decide +kernel) 3 _ ?hv7 g3 (0 : CellTallies nD τ sig Unit) (O9 $c) rfl _) $$ [P3 X3 HO Hp3 Hq3]
  rotate_left 1
  · isplitr; · iexact HR
    isplitl [P3]; · iexact P3
    isplitl [X3]; · iexact X3
    isplitl [HO]; · iexact HO
    isplitl [Hp3]; · iexact Hp3
    iexact Hq3
  rotate_left 1
  · (sl_unfold_words; rw [ViewVals.sent_pay22 psM 3 ![3, 0, 0] rfl, ViewVals.read_xk, ViewVals.read_dyh 3 ![0, 768] rfl, ViewVals.unslot_readAt rsM 3 ![3, 0, 0] rfl _ r3 _ hr3]; rfl)
  iintro ⟨Hps3, HO⟩
  sl_exec_parts
  iapply (Steps.wait_s2r $m $K $c 0 (0 : CellTallies nD τ sig Unit) _) $$ [Hc20 HO Ha13]
  · isplitr; · iexact HR
    isplitl [Hc20]; · iexact Hc20
    isplitl [HO]; · iexact HO
    isplitr; · rw [MayWait_zero]; iempintro
    iexact Ha13
  iintro ⟨HO, Ha13, Hpq0⟩
  unfold prPay slotIs
  icases Hpq0 with ⟨%q0, %hq0, Q0⟩
  sl_exec_parts
  iapply (Steps.wait_s1s $m $K $c 0 (0 : CellTallies nD τ sig Unit) _) $$ [Hcs0 HO Ha1]
  · isplitr; · iexact HR
    isplitl [Hcs0]; · iexact Hcs0
    isplitl [HO]; · iexact HO
    isplitr; · rw [MayWait_zero]; iempintro
    iexact Ha1
  iintro ⟨HO, Ha1, Hcsl0⟩
  sl_exec_parts
  iapply (Steps.wait_s2s $m $K $c 0 (0 : CellTallies nD τ sig Unit) _) $$ [Hps0 HO Ha9]
  · isplitr; · iexact HR
    isplitl [Hps0]; · iexact Hps0
    isplitl [HO]; · iexact HO
    isplitr; · rw [MayWait_zero]; iempintro
    iexact Ha9
  iintro ⟨HO, Ha9, Hpsl0⟩
  sl_exec_parts
  iapply (Steps.wait_s2r $m $K $c 1 (0 : CellTallies nD τ sig Unit) _) $$ [Hc21 HO Ha14]
  · isplitr; · iexact HR
    isplitl [Hc21]; · iexact Hc21
    isplitl [HO]; · iexact HO
    isplitr; · rw [MayWait_zero]; iempintro
    iexact Ha14
  iintro ⟨HO, Ha14, Hpq1⟩
  unfold prPay slotIs
  icases Hpq1 with ⟨%q1, %hq1, Q1⟩
  sl_exec_parts
  iapply (Steps.wait_s1s $m $K $c 1 (0 : CellTallies nD τ sig Unit) _) $$ [Hcs1 HO Ha2]
  · isplitr; · iexact HR
    isplitl [Hcs1]; · iexact Hcs1
    isplitl [HO]; · iexact HO
    isplitr; · rw [MayWait_zero]; iempintro
    iexact Ha2
  iintro ⟨HO, Ha2, Hcsl1⟩
  sl_exec_parts
  iapply (Steps.wait_s2s $m $K $c 1 (0 : CellTallies nD τ sig Unit) _) $$ [Hps1 HO Ha10]
  · isplitr; · iexact HR
    isplitl [Hps1]; · iexact Hps1
    isplitl [HO]; · iexact HO
    isplitr; · rw [MayWait_zero]; iempintro
    iexact Ha10
  iintro ⟨HO, Ha10, Hpsl1⟩
  sl_exec_parts
  iapply (Steps.wait_s2r $m $K $c 2 (0 : CellTallies nD τ sig Unit) _) $$ [Hc22 HO Ha15]
  · isplitr; · iexact HR
    isplitl [Hc22]; · iexact Hc22
    isplitl [HO]; · iexact HO
    isplitr; · rw [MayWait_zero]; iempintro
    iexact Ha15
  iintro ⟨HO, Ha15, Hpq2⟩
  unfold prPay slotIs
  icases Hpq2 with ⟨%q2, %hq2, Q2⟩
  sl_exec_parts
  iapply (Steps.wait_s1s $m $K $c 2 (0 : CellTallies nD τ sig Unit) _) $$ [Hcs2 HO Ha3]
  · isplitr; · iexact HR
    isplitl [Hcs2]; · iexact Hcs2
    isplitl [HO]; · iexact HO
    isplitr; · rw [MayWait_zero]; iempintro
    iexact Ha3
  iintro ⟨HO, Ha3, Hcsl2⟩
  sl_exec_parts
  iapply (Steps.wait_s2s $m $K $c 2 (0 : CellTallies nD τ sig Unit) _) $$ [Hps2 HO Ha11]
  · isplitr; · iexact HR
    isplitl [Hps2]; · iexact Hps2
    isplitl [HO]; · iexact HO
    isplitr; · rw [MayWait_zero]; iempintro
    iexact Ha11
  iintro ⟨HO, Ha11, Hpsl2⟩
  sl_exec_parts
  iapply (Steps.wait_s2r $m $K $c 3 (0 : CellTallies nD τ sig Unit) _) $$ [Hc23 HO Ha16]
  · isplitr; · iexact HR
    isplitl [Hc23]; · iexact Hc23
    isplitl [HO]; · iexact HO
    isplitr; · rw [MayWait_zero]; iempintro
    iexact Ha16
  iintro ⟨HO, Ha16, Hpq3⟩
  unfold prPay slotIs
  icases Hpq3 with ⟨%q3, %hq3, Q3⟩
  sl_exec_parts
  iapply (Steps.wait_s1s $m $K $c 3 (0 : CellTallies nD τ sig Unit) _) $$ [Hcs3 HO Ha4]
  · isplitr; · iexact HR
    isplitl [Hcs3]; · iexact Hcs3
    isplitl [HO]; · iexact HO
    isplitr; · rw [MayWait_zero]; iempintro
    iexact Ha4
  iintro ⟨HO, Ha4, Hcsl3⟩
  sl_exec_parts
  iapply (Steps.wait_s2s $m $K $c 3 (0 : CellTallies nD τ sig Unit) _) $$ [Hps3 HO Ha12]
  · isplitr; · iexact HR
    isplitl [Hps3]; · iexact Hps3
    isplitl [HO]; · iexact HO
    isplitr; · rw [MayWait_zero]; iempintro
    iexact Ha12
  iintro ⟨HO, Ha12, Hpsl3⟩
  sl_exec_parts
  rw [wp_ret]
  imod (Exit.sems_close $m $K $c) $$ [Ha1 Ha2 Ha3 Ha4 Ha5 Ha6 Ha7 Ha8 Ha9 Ha10 Ha11 Ha12 Ha13 Ha14 Ha15 Ha16 Hl0 Hl1 Hl2 Hl3 Hl4 Hl5 Hl6 Hl7 Hl8 Hl9 Hl10 Hl11 Hl12 Hl13] with Hos
  · isplitr; · iexact HR
    rw [Exit.bigSep_fin4, Exit.bigSep_fin4, Exit.bigSep_fin4, Exit.bigSep_fin4]
    isplitl [Ha1 Ha2 Ha3 Ha4]
    · isplitl [Ha1]; · iexact Ha1
      isplitl [Ha2]; · iexact Ha2
      isplitl [Ha3]; · iexact Ha3
      iexact Ha4
    isplitl [Ha5 Ha6 Ha7 Ha8]
    · isplitl [Ha5]; · iexact Ha5
      isplitl [Ha6]; · iexact Ha6
      isplitl [Ha7]; · iexact Ha7
      iexact Ha8
    isplitl [Ha9 Ha10 Ha11 Ha12]
    · isplitl [Ha9]; · iexact Ha9
      isplitl [Ha10]; · iexact Ha10
      isplitl [Ha11]; · iexact Ha11
      iexact Ha12
    isplitl [Ha13 Ha14 Ha15 Ha16]
    · isplitl [Ha13]; · iexact Ha13
      isplitl [Ha14]; · iexact Ha14
      isplitl [Ha15]; · iexact Ha15
      iexact Ha16
    iapply (Exit.localSems_intro (F := $F) $c)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    iexact Hl13
  imodintro
  iapply (Exit.post_intro $m $c _)
  isplitl [Hcsl0 Hcsl1 Hcsl2 Hcsl3 R0 R1 R2 R3 Hpsl0 Hpsl1 Hpsl2 Hpsl3 Q0 Q1 Q2 Q3 D0 D1 D2 D3 G5 G6 G7]
  · iapply (Exit.scratch_intro (F := $F) $c)
    isplitl [Hcsl0 Hcsl1 Hcsl2 Hcsl3]
    · iapply (Steps.cs_join (F := $F) $c)
      isplitl [Hcsl0]; · iexact Hcsl0
      isplitl [Hcsl1]; · iexact Hcsl1
      isplitl [Hcsl2]; · iexact Hcsl2
      iexact Hcsl3
    isplitl [R0 R1 R2 R3]
    · iapply (Steps.rs_join (F := $F) $c)
      unfold slotAny
      isplitl [R0]; · (iexists _; iexact R0)
      isplitl [R1]; · (iexists _; iexact R1)
      isplitl [R2]; · (iexists _; iexact R2)
      (iexists _; iexact R3)
    isplitl [Hpsl0 Hpsl1 Hpsl2 Hpsl3]
    · iapply (Steps.ps_join (F := $F) $c)
      isplitl [Hpsl0]; · iexact Hpsl0
      isplitl [Hpsl1]; · iexact Hpsl1
      isplitl [Hpsl2]; · iexact Hpsl2
      iexact Hpsl3
    isplitl [Q0 Q1 Q2 Q3]
    · iapply (Steps.pr_join (F := $F) $c)
      unfold slotAny
      isplitl [Q0]; · (iexists _; iexact Q0)
      isplitl [Q1]; · (iexists _; iexact Q1)
      isplitl [Q2]; · (iexists _; iexact Q2)
      (iexists _; iexact Q3)
    isplitl [D0 D1 D2 D3]
    · iapply (Splits.dyh_join4 (F := $F) $c _ _ _ _)
      isplitl [D0]; · iexact D0
      isplitl [D1]; · iexact D1
      isplitl [D2]; · iexact D2
      iexact D3
    unfold bufAny
    isplitl [G5]; · (iexists _; iexact G5)
    isplitl [G6]; · (iexists _; iexact G6)
    iexists _; iexact G7
  isplitl [Hos]; · iexact Hos
  isplitl [GA0 GA1 OM0 OM1 OM2 OM3 OT0 OT1 OT2 OT3]
  · ihave Hout := (Splits.out_join8 $m $c _ _ _ _ _ _ _ _ ?hg0 ?hg1 ?hg2 ?hg3 ?hh0 ?hh1 ?hh2 ?hh3) $$ [OM0 OM1 OM2 OM3 OT0 OT1 OT2 OT3]
    rotate_left 8
    · isplitl [OM0]; · iexact OM0
      isplitl [OM1]; · iexact OM1
      isplitl [OM2]; · iexact OM2
      isplitl [OM3]; · iexact OM3
      isplitl [OT0]; · iexact OT0
      isplitl [OT1]; · iexact OT1
      isplitl [OT2]; · iexact OT2
      iexact OT3
    rotate_left 1
    · sl_unfold_words
      rw [OutVals.read_writes_whole, ViewVals.same_apply]
      refine (OutVals.read_slice_writes_head _ _ _ _ _ _ _ ?_ _ _).trans ?_
      · decide +kernel
      simp only [ViewVals.pay10_eq, ViewVals.pay11_eq, ViewVals.pay14_eq, ViewVals.pay15_eq, ViewVals.pay19_eq, ViewVals.pay20_eq, ViewVals.pay23_eq, ViewVals.pay24_eq, ViewVals.pay6_eq, ViewVals.pay16_eq, ViewVals.pay7_eq]
      rw [ViewVals.read_xk, ViewVals.read_dyh 0 ![0, 0] rfl, ViewVals.unslot_readAt rsM 0 ![0, 0, 0] rfl _ r0 _ hr0]
      rfl
    · sl_unfold_words
      rw [OutVals.read_writes_whole, ViewVals.same_apply]
      refine (OutVals.read_slice_writes_head _ _ _ _ _ _ _ ?_ _ _).trans ?_
      · decide +kernel
      simp only [ViewVals.pay10_eq, ViewVals.pay11_eq, ViewVals.pay14_eq, ViewVals.pay15_eq, ViewVals.pay19_eq, ViewVals.pay20_eq, ViewVals.pay23_eq, ViewVals.pay24_eq, ViewVals.pay6_eq, ViewVals.pay16_eq, ViewVals.pay7_eq]
      rw [ViewVals.read_xk, ViewVals.read_dyh 1 ![0, 256] rfl, ViewVals.unslot_readAt rsM 1 ![1, 0, 0] rfl _ r1 _ hr1]
      rfl
    · sl_unfold_words
      rw [OutVals.read_writes_whole, ViewVals.same_apply]
      refine (OutVals.read_slice_writes_head _ _ _ _ _ _ _ ?_ _ _).trans ?_
      · decide +kernel
      simp only [ViewVals.pay10_eq, ViewVals.pay11_eq, ViewVals.pay14_eq, ViewVals.pay15_eq, ViewVals.pay19_eq, ViewVals.pay20_eq, ViewVals.pay23_eq, ViewVals.pay24_eq, ViewVals.pay6_eq, ViewVals.pay16_eq, ViewVals.pay7_eq]
      rw [ViewVals.read_xk, ViewVals.read_dyh 2 ![0, 512] rfl, ViewVals.unslot_readAt rsM 2 ![2, 0, 0] rfl _ r2 _ hr2]
      rfl
    · sl_unfold_words
      rw [OutVals.read_writes_whole, ViewVals.same_apply]
      refine (OutVals.read_slice_writes_head _ _ _ _ _ _ _ ?_ _ _).trans ?_
      · decide +kernel
      simp only [ViewVals.pay10_eq, ViewVals.pay11_eq, ViewVals.pay14_eq, ViewVals.pay15_eq, ViewVals.pay19_eq, ViewVals.pay20_eq, ViewVals.pay23_eq, ViewVals.pay24_eq, ViewVals.pay6_eq, ViewVals.pay16_eq, ViewVals.pay7_eq]
      rw [ViewVals.read_xk, ViewVals.read_dyh 3 ![0, 768] rfl, ViewVals.unslot_readAt rsM 3 ![3, 0, 0] rfl _ r3 _ hr3]
      rfl
    · sl_unfold_words
      rw [OutVals.read_writes_whole, ViewVals.same_apply]
      refine (OutVals.read_slice_writes_head _ _ _ _ _ _ _ ?_ _ _).trans ?_
      · decide +kernel
      simp only [ViewVals.pay25_eq, ViewVals.pay26_eq, ViewVals.pay27_eq, ViewVals.pay28_eq, ViewVals.pay29_eq, ViewVals.pay30_eq, ViewVals.pay31_eq, ViewVals.pay32_eq]
      rw [ViewVals.unslot_readAt prM 0 ![0, 0, 0] rfl _ q0 _ hq0]
      rfl
    · sl_unfold_words
      rw [OutVals.read_writes_whole, ViewVals.same_apply]
      refine (OutVals.read_slice_writes_head _ _ _ _ _ _ _ ?_ _ _).trans ?_
      · decide +kernel
      simp only [ViewVals.pay25_eq, ViewVals.pay26_eq, ViewVals.pay27_eq, ViewVals.pay28_eq, ViewVals.pay29_eq, ViewVals.pay30_eq, ViewVals.pay31_eq, ViewVals.pay32_eq]
      rw [ViewVals.unslot_readAt prM 1 ![1, 0, 0] rfl _ q1 _ hq1]
      rfl
    · sl_unfold_words
      rw [OutVals.read_writes_whole, ViewVals.same_apply]
      refine (OutVals.read_slice_writes_head _ _ _ _ _ _ _ ?_ _ _).trans ?_
      · decide +kernel
      simp only [ViewVals.pay25_eq, ViewVals.pay26_eq, ViewVals.pay27_eq, ViewVals.pay28_eq, ViewVals.pay29_eq, ViewVals.pay30_eq, ViewVals.pay31_eq, ViewVals.pay32_eq]
      rw [ViewVals.unslot_readAt prM 2 ![2, 0, 0] rfl _ q2 _ hq2]
      rfl
    · sl_unfold_words
      rw [OutVals.read_writes_whole, ViewVals.same_apply]
      refine (OutVals.read_slice_writes_head _ _ _ _ _ _ _ ?_ _ _).trans ?_
      · decide +kernel
      simp only [ViewVals.pay25_eq, ViewVals.pay26_eq, ViewVals.pay27_eq, ViewVals.pay28_eq, ViewVals.pay29_eq, ViewVals.pay30_eq, ViewVals.pay31_eq, ViewVals.pay32_eq]
      rw [ViewVals.unslot_readAt prM 3 ![3, 0, 0] rfl _ q3 _ hq3]
      rfl
    icases Hout with ⟨%fo, %hfo, Hfo⟩
    iapply (Exit.outArgs_intro $m $c fo hfo)
    isplitl [GA0]; · iexact GA0
    isplitl [GA1]; · iexact GA1
    iexact Hfo
  iexact HO
  ))

end Cert.KernelIdeal.BodyProof

end
-- ==== Proof.BodyDev0.lean ====
/-
  The body on device 0 of the mesh (coordinates x = 0, y = 0).
-/
import proofs.«900593_g7700000000000594_dist_rsdw_v7x_xy2x2_y_m512_d512_f2048_f32_1_alg».proof.Proof.BodyTac

noncomputable section

namespace Cert.KernelIdeal.BodyProof

open Cert.KernelIdeal Cert.KernelIdeal.Gen Cert.KernelIdeal.Vals Cert.KernelIdeal.Proto Cert.KernelIdeal.Steps Cert.KernelIdeal.Splits

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_dev0 (K : Dev nD × Fin 17 → ℕ) (W : Waits sig Unit) :
    bodyPre m K (0 : Dev nD) W
      ⊢ wp frame (wpE (defs₀ (F := F)) 𝒱₀ ((0 : Dev nD) : Thread nD τ) none) Set.univ (bodyAt0 (F := F) t0_0) (fun _ => bodyPost m (0 : Dev nD)) := by
  body_run_KernelIdeal F m K W (0 : Dev nD)

end Cert.KernelIdeal.BodyProof

end
-- ==== Proof.BodyDev1.lean ====
/-
  The body on device 1 of the mesh (coordinates x = 0, y = 1).
-/
import proofs.«900593_g7700000000000594_dist_rsdw_v7x_xy2x2_y_m512_d512_f2048_f32_1_alg».proof.Proof.BodyTac

noncomputable section

namespace Cert.KernelIdeal.BodyProof

open Cert.KernelIdeal Cert.KernelIdeal.Gen Cert.KernelIdeal.Vals Cert.KernelIdeal.Proto Cert.KernelIdeal.Steps Cert.KernelIdeal.Splits

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_dev1 (K : Dev nD × Fin 17 → ℕ) (W : Waits sig Unit) :
    bodyPre m K (1 : Dev nD) W
      ⊢ wp frame (wpE (defs₀ (F := F)) 𝒱₀ ((1 : Dev nD) : Thread nD τ) none) Set.univ (bodyAt0 (F := F) t0_0) (fun _ => bodyPost m (1 : Dev nD)) := by
  body_run_KernelIdeal F m K W (1 : Dev nD)

end Cert.KernelIdeal.BodyProof

end
-- ==== Proof.BodyDev2.lean ====
/-
  The body on device 2 of the mesh (coordinates x = 1, y = 0).
-/
import proofs.«900593_g7700000000000594_dist_rsdw_v7x_xy2x2_y_m512_d512_f2048_f32_1_alg».proof.Proof.BodyTac

noncomputable section

namespace Cert.KernelIdeal.BodyProof

open Cert.KernelIdeal Cert.KernelIdeal.Gen Cert.KernelIdeal.Vals Cert.KernelIdeal.Proto Cert.KernelIdeal.Steps Cert.KernelIdeal.Splits

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_dev2 (K : Dev nD × Fin 17 → ℕ) (W : Waits sig Unit) :
    bodyPre m K (2 : Dev nD) W
      ⊢ wp frame (wpE (defs₀ (F := F)) 𝒱₀ ((2 : Dev nD) : Thread nD τ) none) Set.univ (bodyAt0 (F := F) t0_0) (fun _ => bodyPost m (2 : Dev nD)) := by
  body_run_KernelIdeal F m K W (2 : Dev nD)

end Cert.KernelIdeal.BodyProof

end
-- ==== Proof.BodyDev3.lean ====
/-
  The body on device 3 of the mesh (coordinates x = 1, y = 1).
-/
import proofs.«900593_g7700000000000594_dist_rsdw_v7x_xy2x2_y_m512_d512_f2048_f32_1_alg».proof.Proof.BodyTac

noncomputable section

namespace Cert.KernelIdeal.BodyProof

open Cert.KernelIdeal Cert.KernelIdeal.Gen Cert.KernelIdeal.Vals Cert.KernelIdeal.Proto Cert.KernelIdeal.Steps Cert.KernelIdeal.Splits

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_dev3 (K : Dev nD × Fin 17 → ℕ) (W : Waits sig Unit) :
    bodyPre m K (3 : Dev nD) W
      ⊢ wp frame (wpE (defs₀ (F := F)) 𝒱₀ ((3 : Dev nD) : Thread nD τ) none) Set.univ (bodyAt0 (F := F) t0_0) (fun _ => bodyPost m (3 : Dev nD)) := by
  body_run_KernelIdeal F m K W (3 : Dev nD)

end Cert.KernelIdeal.BodyProof

end
-- ==== Proof.Body.lean ====
/-
  The body of the kernel on every device: the four devices' runs (one module each) gathered by cases on the device. On
  each device the body pays every duty the device owes, waits for everything it is owed, and leaves the result array
  holding, slice by slice, the sums the protocol delivers.
-/
import proofs.«900593_g7700000000000594_dist_rsdw_v7x_xy2x2_y_m512_d512_f2048_f32_1_alg».proof.Proof.Proto
import proofs.«900593_g7700000000000594_dist_rsdw_v7x_xy2x2_y_m512_d512_f2048_f32_1_alg».proof.Proof.BodyDev0
import proofs.«900593_g7700000000000594_dist_rsdw_v7x_xy2x2_y_m512_d512_f2048_f32_1_alg».proof.Proof.BodyDev1
import proofs.«900593_g7700000000000594_dist_rsdw_v7x_xy2x2_y_m512_d512_f2048_f32_1_alg».proof.Proof.BodyDev2
import proofs.«900593_g7700000000000594_dist_rsdw_v7x_xy2x2_y_m512_d512_f2048_f32_1_alg».proof.Proof.BodyDev3
import proofs.«900593_g7700000000000594_dist_rsdw_v7x_xy2x2_y_m512_d512_f2048_f32_1_alg».proof.Proof.Gen.KernelIdeal.Skeleton
import Idealize.ShloMosaic.Lib.Pipeline.Value
import Idealize.ShloMosaic.Lib.Tactic

noncomputable section

namespace Cert.KernelIdeal.BodyProof

open Cert.KernelIdeal Cert.KernelIdeal.Gen Cert.KernelIdeal.Vals Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body on device `c`, from the protocol's start to its end. -/
theorem sound_body (K : Dev nD × Fin 17 → ℕ) (c : Dev nD) (W : Waits sig Unit) :
    bodyPre m K c W
      ⊢ wp frame (wpE (defs₀ (F := F)) 𝒱₀ (c : Thread nD τ) none) Set.univ (bodyAt0 (F := F) t0_0) (fun _ => bodyPost m c) := by
  obtain rfl | rfl | rfl | rfl : c = 0 ∨ c = 1 ∨ c = 2 ∨ c = 3 := by revert c; decide
  · exact body_dev0 m K W
  · exact body_dev1 m K W
  · exact body_dev2 m K W
  · exact body_dev3 m K W

end Cert.KernelIdeal.BodyProof

end
-- ==== Proof.Launch.lean ====
/-
  The launch: from each device's body to the run of the whole mesh. Every cell of every device is funded for its one
  round, the barrier and exchange semaphores' counters become the cells' invariants, each device is dealt the tokens of
  the duties it pays and the credit it will consume, the levels forbid a cycle of waits, and the run ends with every
  device's result array right and its argument arrays unchanged.
-/
import proofs.«900593_g7700000000000594_dist_rsdw_v7x_xy2x2_y_m512_d512_f2048_f32_1_alg».proof.Proof.Proto
import proofs.«900593_g7700000000000594_dist_rsdw_v7x_xy2x2_y_m512_d512_f2048_f32_1_alg».proof.Proof.Body
import proofs.«900593_g7700000000000594_dist_rsdw_v7x_xy2x2_y_m512_d512_f2048_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.LaunchProof

open Cert.KernelIdeal Cert.KernelIdeal.Gen Cert.KernelIdeal.Vals Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, pairwise distinct -/

theorem csem_injective : Function.Injective (csem : Fin 17 → SemLoc sig) := by
  intro k k' h
  by_cases h0 : k.val = 0 <;> by_cases h0' : k'.val = 0
  · exact Fin.ext (h0.trans h0'.symm)
  · simp only [csem, if_pos h0, if_neg h0'] at h; cases h
  · simp only [csem, if_pos h0', if_neg h0] at h; cases h
  · simp only [csem, if_neg h0, if_neg h0'] at h
    have h1 := congrArg Fin.val (SemLoc.dma.inj h)
    simp only at h1
    exact Fin.ext (by omega)

theorem kcell_injective : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  exact Prod.ext h1 (csem_injective h2)

/-- Every cell of every device. -/
def ringCells : Finset (GSem nD τ sig) := Finset.univ.map ⟨kcell, kcell_injective⟩

/-- The cell of the j-th token minted on a device's own cells: both duties of its barrier cell, then the one duty of
    each of its sixteen exchange cells; -/
def tcell (j : Fin 18) : Fin 17 := ⟨j.val - 1, by have := j.isLt; omega⟩
/-- and its duty. -/
def tduty (j : Fin 18) : Bool := decide (j.val = 1)

theorem tcell_tduty_injective : ∀ j j' : Fin 18, tcell j = tcell j' → tduty j = tduty j' → j = j' := by decide

abbrev tokOf (cj : Dev nD × Fin 18) : GSem nD τ sig × ℕ × Bool := (kcell (cj.1, tcell cj.2), 0, tduty cj.2)

theorem tokOf_injective : Function.Injective (tokOf : Dev nD × Fin 18 → GSem nD τ sig × ℕ × Bool) := by
  rintro ⟨c, j⟩ ⟨c', j'⟩ h
  have hk : (c, tcell j) = (c', tcell j') := kcell_injective (congrArg (fun x : GSem nD τ sig × ℕ × Bool => x.1) h)
  have hd : tduty j = tduty j' := congrArg (fun x : GSem nD τ sig × ℕ × Bool => x.2.2) h
  exact Prod.ext (show c = c' from congrArg Prod.fst hk) (tcell_tduty_injective j j' (show tcell j = tcell j' from congrArg Prod.snd hk) hd)

def ringToks : Finset (GSem nD τ sig × ℕ × Bool) := Finset.univ.map ⟨tokOf, tokOf_injective⟩

/-- The launch element: the staging cells' (none here), every cell of the protocol at its launch state with the tokens
    of its duties, and no counter of a local copy yet. -/
def u₀ : UU :=
  (initOf (Pipeline.cells cfgs cellOf_inj) (Pipeline.launchToks cfgs cellOf_inj), (initOf ringCells ringToks, 1))

/-- The duty tokens minted on device c's own cells. -/
def toks (c : Dev nD) : sProp 𝕄 := bigSep Finset.univ fun j : Fin 18 => dutyTok ER (kcell (c, tcell j)) 0 (tduty j)

/-- What the launch element deals device c. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element split: the staging cells' part to the pipeline, the protocol's part funded, the local copies'
    part left (their names are allocated where they are used). -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_ring m) $$ HR with HG
  imodintro
  isplitl [HP] <;> iassumption

/-! ## The semaphores at launch -/

theorem ownSemFacts : Pipeline.OwnSemFacts cfg0.spec osem := by decide

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin14 (Φ : Fin 14 → sProp 𝕄) : bigSep Finset.univ Φ = bigSepL [0, 1, 2, 3, 4, 5, 6, 7, 8, 9, 10, 11, 12, 13] Φ :=
  bigSep_univ_eq_bigSepL _ (by decide) (by decide) Φ
theorem bigSep_fin17 (Φ : Fin 17 → sProp 𝕄) : bigSep Finset.univ Φ = bigSepL [0, 1, 2, 3, 4, 5, 6, 7, 8, 9, 10, 11, 12, 13, 14, 15, 16] Φ :=
  bigSep_univ_eq_bigSepL _ (by decide) (by decide) Φ
theorem bigSep_fin18 (Φ : Fin 18 → sProp 𝕄) : bigSep Finset.univ Φ = bigSepL [0, 1, 2, 3, 4, 5, 6, 7, 8, 9, 10, 11, 12, 13, 14, 15, 16, 17] Φ :=
  bigSep_univ_eq_bigSepL _ (by decide) (by decide) Φ

theorem bigSepL_cons_cons' {I : Type} (i j : I) (l : List I) (Φ : I → sProp 𝕄) : bigSepL (i :: j :: l) Φ = iprop(Φ i ∗ bigSepL (j :: l) Φ) := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The sixteen exchange semaphores and the barrier's become the cells' counters; the fourteen others stay. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 17 => semVal (kcell (c, k)) 0) ∗ localSems c) : sProp 𝕄) := by
  unfold localSems
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide), unscopedSems0_eq, bigSep_fin17, bigSep_fin14]
  simp only [bigSepL_cons_cons', bigSepL_singleton]
  iintro ⟨⟨H0, H1, H2, H3, H4, H5, H6, H7, H8, H9, H10, H11, H12, H13, H14, H15, H16, H17, H18, H19, H20, H21, H22, H23, H24, H25, H26, H27, H28, H29⟩, HB⟩
  isplitl [HB H0 H1 H2 H3 H4 H5 H6 H7 H8 H9 H10 H11 H12 H13 H14 H15]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29

/-- What a device holds once its cells' invariants are allocated. -/
def allocd (c : Dev nD) : sProp 𝕄 :=
  iprop((bigSep Finset.univ fun k : Fin 17 => iprop(∃ κ : ℕ, cellInv ER (sched m) κ (kcell (c, k))))
    ∗ (bigSep Finset.univ fun k : Fin 17 => iprop(atPos ER (kcell (c, k)) 0 ∅ 0 ∗ reached ER (kcell (c, k)) 0)) ∗ toks c ∗ localSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> allocd m c := by
  unfold G allocd
  iintro ⟨Hos, Hus, Hst, Hat, Htok⟩
  ihave Hv := (sems_split (F := F) c) $$ [Hos Hus]
  · isplitl [Hos] <;> iassumption
  icases Hv with ⟨Hv, Hloc⟩
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The tokens dealt around the mesh -/

/-- The tokens minted on a device's own cells, grouped as they are dealt. -/
def toksS (c : Dev nD) : sProp 𝕄 :=
  iprop(dutyTok ER (barCell c) 0 false ∗ dutyTok ER (barCell c) 0 true
    ∗ (bigSep Finset.univ fun j : Fin 4 => dutyTok ER (dCell c (s1r j)) 0 false)
    ∗ (bigSep Finset.univ fun j : Fin 4 => dutyTok ER (dCell c (s2r j)) 0 false)
    ∗ (bigSep Finset.univ fun j : Fin 4 => dutyTok ER (dCell c (s1s j)) 0 false)
    ∗ (bigSep Finset.univ fun j : Fin 4 => dutyTok ER (dCell c (s2s j)) 0 false))

theorem toks_struct (c : Dev nD) : (toks c : sProp 𝕄) ⊢ toksS c := by
  unfold toks toksS
  rw [bigSep_fin18, bigSep_fin4, bigSep_fin4, bigSep_fin4, bigSep_fin4]
  simp only [bigSepL_cons_cons', bigSepL_singleton]
  iintro ⟨H0, H1, H2, H3, H4, H5, H6, H7, H8, H9, H10, H11, H12, H13, H14, H15, H16, H17⟩
  isplitl [H0]; · iexact H0
  isplitl [H1]; · iexact H1
  isplitl [H6 H7 H8 H9]
  · isplitl [H6]; · iexact H6
    isplitl [H7]; · iexact H7
    isplitl [H8]; · iexact H8
    iexact H9
  isplitl [H14 H15 H16 H17]
  · isplitl [H14]; · iexact H14
    isplitl [H15]; · iexact H15
    isplitl [H16]; · iexact H16
    iexact H17
  isplitl [H2 H3 H4 H5]
  · isplitl [H2]; · iexact H2
    isplitl [H3]; · iexact H3
    isplitl [H4]; · iexact H4
    iexact H5
  isplitl [H10]; · iexact H10
  isplitl [H11]; · iexact H11
  isplitl [H12]; · iexact H12
  iexact H13

/-- A barrier's false token goes to the x-neighbour, its true token to the y-neighbour; a first receive cell's token
    to the y-neighbour, a second receive cell's to the x-neighbour; the send cells' tokens stay. -/
theorem toks_around : (bigSep Finset.univ fun c : Dev nD => (toks c : sProp 𝕄)) ⊢ bigSep Finset.univ fun c : Dev nD => payToks c := by
  refine (bigSep_mono fun c _ => toks_struct c).trans ?_
  unfold toksS payToks
  rw [bigSep_sep', bigSep_sep', bigSep_sep', bigSep_sep', bigSep_sep', bigSep_sep', bigSep_sep', bigSep_sep', bigSep_sep', bigSep_sep',
    bigSep_univ_equiv xswap (fun c : Dev nD => (dutyTok ER (barCell c) 0 false : sProp 𝕄)),
    bigSep_univ_equiv yswap (fun c : Dev nD => (dutyTok ER (barCell c) 0 true : sProp 𝕄)),
    bigSep_univ_equiv yswap (fun c : Dev nD => (bigSep Finset.univ fun j : Fin 4 => dutyTok ER (dCell c (s1r j)) 0 false : sProp 𝕄)),
    bigSep_univ_equiv xswap (fun c : Dev nD => (bigSep Finset.univ fun j : Fin 4 => dutyTok ER (dCell c (s2r j)) 0 false : sProp 𝕄))]
  exact BI.Entails.refl _

theorem ghost_intro (K : Dev nD × Fin 17 → ℕ) (c : Dev nD) : iprop(records m K ∗ linear c ∗ localSems c) ⊢ G' m c := by
  unfold G' ghost
  iintro ⟨#HR, Hl, Hloc⟩
  isplitl [Hl]
  · iexists K
    isplitr; · iexact HR
    iexact Hl
  · iexact Hloc

theorem regroup : (bigSep Finset.univ fun c : Dev nD => allocd m c) ⊢ bigSep Finset.univ (G' m) := by
  unfold allocd
  rw [bigSep_sep', bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, Hloc⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => linear c) (fun c : Dev nD => (localSems c : sProp 𝕄))).symm)
    isplitl [Hat Htk]
    · iapply ((Entails.of_eq (bigSep_sep' Finset.univ (fun c : Dev nD => bigSep Finset.univ fun k : Fin 17 => (atPos ER (kcell (c, k)) 0 ∅ 0 : sProp 𝕄)) payToks).symm).trans
        (bigSep_mono fun c _ => show _ ⊢ linear c from Entails.of_eq (by unfold linear; rfl)))
      isplitl [Hat]; · iexact Hat
      iexact Htk
    · iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_two (g : GSem nD τ sig) : iprop(cred (tallyAt g () 1) ∗ cred (tallyAt g () 1)) ⊢ (cred (tallyAt g () 2) : sProp 𝕄) := by
  have h : (tallyAt g () 2 : CellTallies nD τ sig Unit) = tallyAt g () 1 + tallyAt g () 1 := (tallyAt_add g () 1 1).symm
  rw [h]; exact (cred_add _ _).2

/-- Summed over the devices, the dues are each device's own credit: two units on its barrier cell (one from each
    neighbour), a slot's credit on each first receive cell (from the y-neighbour) and on each second (from the x-neighbour). -/
theorem launch_creds (c : Dev nD) : (Pipeline.launchCred O₀ c : sProp 𝕄) ⊢ creds c := by
  have e0 : (Pipeline.launchCred O₀ c : sProp 𝕄) = iprop(Pipeline.launchCred O1 c ∗ Pipeline.launchCred (fun d => tallyAt (barCell (xnb d)) () 1) c) :=
    Pipeline.launchCred_add O1 (fun d => tallyAt (barCell (xnb d)) () 1) c
  have e1 : (Pipeline.launchCred O1 c : sProp 𝕄) = iprop(Pipeline.launchCred O2 c ∗ Pipeline.launchCred (fun d => tallyAt (barCell (ynb d)) () 1) c) :=
    Pipeline.launchCred_add O2 (fun d => tallyAt (barCell (ynb d)) () 1) c
  have e2 : (Pipeline.launchCred O2 c : sProp 𝕄) = iprop(Pipeline.launchCred O3 c ∗ Pipeline.launchCred (fun d => tallyAt (dCell (ynb d) (s1r 0)) () N) c) :=
    Pipeline.launchCred_add O3 (fun d => tallyAt (dCell (ynb d) (s1r 0)) () N) c
  have e3 : (Pipeline.launchCred O3 c : sProp 𝕄) = iprop(Pipeline.launchCred O4 c ∗ Pipeline.launchCred (fun d => tallyAt (dCell (ynb d) (s1r 1)) () N) c) :=
    Pipeline.launchCred_add O4 (fun d => tallyAt (dCell (ynb d) (s1r 1)) () N) c
  have e4 : (Pipeline.launchCred O4 c : sProp 𝕄) = iprop(Pipeline.launchCred O5 c ∗ Pipeline.launchCred (fun d => tallyAt (dCell (ynb d) (s1r 2)) () N) c) :=
    Pipeline.launchCred_add O5 (fun d => tallyAt (dCell (ynb d) (s1r 2)) () N) c
  have e5 : (Pipeline.launchCred O5 c : sProp 𝕄) = iprop(Pipeline.launchCred O6 c ∗ Pipeline.launchCred (fun d => tallyAt (dCell (ynb d) (s1r 3)) () N) c) :=
    Pipeline.launchCred_add O6 (fun d => tallyAt (dCell (ynb d) (s1r 3)) () N) c
  have e6 : (Pipeline.launchCred O6 c : sProp 𝕄) = iprop(Pipeline.launchCred O7 c ∗ Pipeline.launchCred (fun d => tallyAt (dCell (xnb d) (s2r 0)) () N) c) :=
    Pipeline.launchCred_add O7 (fun d => tallyAt (dCell (xnb d) (s2r 0)) () N) c
  have e7 : (Pipeline.launchCred O7 c : sProp 𝕄) = iprop(Pipeline.launchCred O8 c ∗ Pipeline.launchCred (fun d => tallyAt (dCell (xnb d) (s2r 1)) () N) c) :=
    Pipeline.launchCred_add O8 (fun d => tallyAt (dCell (xnb d) (s2r 1)) () N) c
  have e8 : (Pipeline.launchCred O8 c : sProp 𝕄) = iprop(Pipeline.launchCred O9 c ∗ Pipeline.launchCred (fun d => tallyAt (dCell (xnb d) (s2r 2)) () N) c) :=
    Pipeline.launchCred_add O9 (fun d => tallyAt (dCell (xnb d) (s2r 2)) () N) c
  have e9 : (Pipeline.launchCred O9 c : sProp 𝕄) = iprop(Pipeline.launchCred (fun _ : Dev nD => (0 : CellTallies nD τ sig Unit)) c ∗ Pipeline.launchCred (fun d => tallyAt (dCell (xnb d) (s2r 3)) () N) c) :=
    Pipeline.launchCred_add (fun _ : Dev nD => (0 : CellTallies nD τ sig Unit)) (fun d => tallyAt (dCell (xnb d) (s2r 3)) () N) c
  rw [e0, e1, e2, e3, e4, e5, e6, e7, e8, e9]
  unfold creds
  rw [bigSep_fin4, bigSep_fin4]
  iintro ⟨⟨⟨⟨⟨⟨⟨⟨⟨⟨-, Hx3⟩, Hx2⟩, Hx1⟩, Hx0⟩, Hy3⟩, Hy2⟩, Hy1⟩, Hy0⟩, HbY⟩, HbX⟩
  isplitl [HbX HbY]
  · iapply (cred_two (F := F) (barCell c))
    isplitl [HbX]
    · iapply (Pipeline.launchCred_tallyAt (.reg barS) xnb xnb xnb_xnb xnb_xnb () 1 c); iexact HbX
    · iapply (Pipeline.launchCred_tallyAt (.reg barS) ynb ynb ynb_ynb ynb_ynb () 1 c); iexact HbY
  isplitl [Hy0 Hy1 Hy2 Hy3]
  · isplitl [Hy0]; · iapply (Pipeline.launchCred_tallyAt (.dma (s1r 0)) ynb ynb ynb_ynb ynb_ynb () N c); iexact Hy0
    isplitl [Hy1]; · iapply (Pipeline.launchCred_tallyAt (.dma (s1r 1)) ynb ynb ynb_ynb ynb_ynb () N c); iexact Hy1
    isplitl [Hy2]; · iapply (Pipeline.launchCred_tallyAt (.dma (s1r 2)) ynb ynb ynb_ynb ynb_ynb () N c); iexact Hy2
    iapply (Pipeline.launchCred_tallyAt (.dma (s1r 3)) ynb ynb ynb_ynb ynb_ynb () N c); iexact Hy3
  · isplitl [Hx0]; · iapply (Pipeline.launchCred_tallyAt (.dma (s2r 0)) xnb xnb xnb_xnb xnb_xnb () N c); iexact Hx0
    isplitl [Hx1]; · iapply (Pipeline.launchCred_tallyAt (.dma (s2r 1)) xnb xnb xnb_xnb xnb_xnb () N c); iexact Hx1
    isplitl [Hx2]; · iapply (Pipeline.launchCred_tallyAt (.dma (s2r 2)) xnb xnb xnb_xnb xnb_xnb () N c); iexact Hx2
    iapply (Pipeline.launchCred_tallyAt (.dma (s2r 3)) xnb xnb xnb_xnb xnb_xnb () N c); iexact Hx3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (launch_creds (F := F) c) $$ Hcr
  imodintro
  unfold start args
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch bufAny
  iintro ⟨Hs, -, Hr⟩
  isplitl [Hs]; · iexact Hs
  iexact Hr

theorem phi1_exit (c : Dev nD) :
    (dats m 0 c).Φ (Fin.last cfg0.N) ⊢ iprop(outArgs m c ∗ Pipeline.ownSems0 osem c ∗ Pipeline.scopedRest cfg0.spec c) := by
  rw [show (dats m 0 c).Φ (Fin.last cfg0.N) = Φ₁ m c from rfl, scopedRest0_eq]
  unfold Φ₁ scratch bufAny
  iintro ⟨Hr, Hs, Ho⟩
  isplitl [Ho]; · iexact Ho
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w => w.elim0

/-- What a final state shows of device c's arrays. -/
def QYc (c : Dev nD) (s : MemSt nD τ sig (Elt F)) : Prop :=
  OutOk m c (s.mem ((c.tc : Thread nD τ).loc main_v1))
    ∧ s.mem ((c.tc : Thread nD τ).loc main_arg0) = m ((c.tc : Thread nD τ).loc main_arg0)
    ∧ s.mem ((c.tc : Thread nD τ).loc main_arg1) = m ((c.tc : Thread nD τ).loc main_arg1)

/-- The three arrays' points-to facts read against the final state. -/
theorem read_out (c : Dev nD) (s' : Phys nD τ sig (Elt F)) :
    iprop(outArgs m c ∗ emp ∗ SI s') ⊢ |={Set.univ}=> iprop(⌜QYc m c s'.mem⌝ ∗ SI s') := by
  unfold outArgs QYc
  iintro ⟨⟨H0, H1, %f, %hf, Hv⟩, -, HSI⟩
  icombine HSI H0 gives %h0
  icombine HSI H1 gives %h1
  icombine HSI Hv gives %hv
  imodintro
  isplitr
  · ipureintro
    refine ⟨?_, Buf.eq_of_forall_mem_univ h0, Buf.eq_of_forall_mem_univ h1⟩
    rw [Buf.eq_of_forall_mem_univ hv]; exact hf
  iexact HSI

/-! ## The body obligation -/

theorem bigSep_W (Φ : Fin cfg0.W → sProp 𝕄) : bigSep Finset.univ Φ = iprop(emp) := by
  show bigSep (Finset.univ : Finset (Fin 0)) Φ = _
  rw [Finset.univ_eq_empty, bigSep_empty]; rfl

theorem post_intro (c : Dev nD) : bodyPost m c ⊢ iprop(Φ₁ m c ∗ (dats m 0 c).owesAt () t0_0.succ ∗ emp) := by
  unfold bodyPost Dat.owesAt Pipeline.owesWithin
  rw [show (dats m 0 c).owed t0_0.succ = 0 from rfl]
  iintro ⟨H1, %W', HO⟩
  isplitl [H1]; · iexact H1
  isplitl [HO]
  · iexists W'
    isplitr; · ipureintro; exact fun _ _ => Or.inl trivial
    iexact HO
  · iempintro

/-- The pipeline's body obligation on device c, from the body lemma: the names and the recorded waits opened, the
    post weakened to what the next point asks. -/
theorem body_obligation (c : Dev nD) : BodyObligation (dats (F := F) m 0 c) (defs₀ (F := F)) 𝒱₀ () Set.univ := fun t => by
  rw [Gen.fin_N0 t, bigSep_W, bigSep_W]
  show iprop(Φ₀ m c ∗ (dats m 0 c).owesAt () t0_0.castSucc ∗ emp)
    ⊢ wp frame (wpE (defs₀ (F := F)) 𝒱₀ (c : Thread nD τ) none) Set.univ (bodyAt0 (F := F) t0_0)
        (fun _ => iprop(Φ₁ m c ∗ (dats m 0 c).owesAt () t0_0.succ ∗ emp))
  unfold Φ₀ start G' Dat.owesAt Pipeline.owesWithin
  rw [show (dats m 0 c).owed t0_0.castSucc = O₀ c from rfl]
  iintro ⟨⟨⟨⟨⟨%K, Hg⟩, Hloc⟩, Hcr, Hlev, Ha⟩, Hscr⟩, ⟨%W, -, HO⟩, -⟩
  iapply (wp_mono _ _ _ (Q := fun _ => bodyPost m c) fun _ => post_intro m c)
  iapply (BodyProof.sound_body m K c W)
  unfold bodyPre
  isplitl [Hg]; · iexact Hg
  isplitl [Hloc]; · iexact Hloc
  isplitl [Hcr]; · iexact Hcr
  isplitl [Hlev]; · iexact Hlev
  isplitl [Ha]; · iexact Ha
  isplitl [Hscr]; · iexact Hscr
  iexact HO

/-! ## The run -/

set_option maxRecDepth 8000 in
/-- At the compiled mesh of four devices, for any float values, from any memory with zero counters: every weakly fair
    execution of @main terminates, nothing faults, and in every final state each device's result array is right and its
    argument arrays hold what they held. -/
theorem run_main : θ_run (defs (F := F)) (onTc (τ := τ) (main (F := F))) ⟨m, fun _ => 0, ρ⟩ (fun r => ∀ c : Dev nD,
    OutOk m c (r.2.mem ((c.tc : Thread nD τ).loc main_v1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ w => w.elim0) (hpf := fun _ k => k.elim0)
    (X := start m) (Y := outArgs m) (Z := fun _ => iprop(emp))
    (hX := start_intro m ρ) (hin := phi0_intro m) (hout := phi1_exit m)
    (QY := QYc m)
    (hY := read_out m)
    (hQ := fun _ h c => (h c).2.2)

/-- info: 'Cert.KernelIdeal.LaunchProof.run_main' depends on axioms: [propext, Classical.choice, Quot.sound] -/
#guard_msgs in #print axioms run_main

end Cert.KernelIdeal.LaunchProof

end
-- ==== Proof.Value.lean ====
/-
  The value bridge at the ideal instance: a result array that holds, slice by slice, the sums the protocol delivers
  is device `c`'s block of rows of `xᵀ · dy` over the whole arrays — the sum over all 1024 rows split into the two
  512-row halves the two y-neighbours hold, in either order.

  The road. Every array of two axes is read at natural-number coordinates (`at2`), so that an index is compared by
  arithmetic alone. (1) Each slice the kernel names — the two column halves of the device's block of `x`, the four
  chunks of its block of `dy`, the eight slices of the result — read at an entry is the whole array at the slice's
  offsets plus the entry's coordinates, and the device's block of a whole array is the whole array `512·my` rows
  further down (`xkV_apply`, `xsV_apply`, `dyV_apply`, `outMine_read`, `outTheirs_read`). (2) The product `aᵀ · b`
  into a zero accumulator at an entry is the sum over the 512 rows of the factors' products (`mm_apply`). (3) The
  value a device stores for a chunk is its own 512-row sum plus its y-neighbour's, and the y-neighbour holds the other
  512 rows of the same columns: together the sum over all 1024 rows, the two halves in the order of the rows or the
  other way round as `my` is 0 or 1 — addition of extended reals is commutative, no finiteness is needed
  (`valV_apply`). (4) Every column of the result lies in exactly one of the eight slices, and the x-neighbour's sums
  are the same sums at the other column half (`f_at`). (5) The reference's `dot_general` of the transposed `x`
  with `dy` at an entry is the same 1024-row sum (`refOut_apply`); `out_eq` puts the two together.
-/
import proofs.«900593_g7700000000000594_dist_rsdw_v7x_xy2x2_y_m512_d512_f2048_f32_1_alg».proof.Defs
import proofs.«900593_g7700000000000594_dist_rsdw_v7x_xy2x2_y_m512_d512_f2048_f32_1_alg».proof.Proof.Vals
import proofs.«900593_g7700000000000594_dist_rsdw_v7x_xy2x2_y_m512_d512_f2048_f32_1_alg».proof.Proof.Gen.ReferenceIdeal.Run
import proofs.«900593_g7700000000000594_dist_rsdw_v7x_xy2x2_y_m512_d512_f2048_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Mathlib.Algebra.BigOperators.Fin

noncomputable section

namespace Cert.Proof.ValueBridge

open Idealize.ShloMosaic Idealize.ShloMosaic.TcCoe Idealize.SL.Sem
open Idealize.ShloMosaic.ValueIdx
open scoped BigOperators

/-- An array of two axes read at natural-number coordinates (zero outside the array). -/
def at2 {n0 n1 : Nat} (v : (⟨2, ![n0, n1]⟩ : Shape).Idx → EReal) (a b : Nat) : EReal :=
  if h : a < n0 ∧ b < n1 then v (ix2 ⟨a, h.1⟩ ⟨b, h.2⟩) else 0

/-- Every entry of such an array is the array read at the entry's two coordinates. -/
theorem at2_eq {n0 n1 : Nat} (v : (⟨2, ![n0, n1]⟩ : Shape).Idx → EReal) (i : (⟨2, ![n0, n1]⟩ : Shape).Idx) :
    v i = at2 v (i 0).val (i 1).val := by
  unfold at2
  rw [dif_pos ⟨idx2_lt0 i, idx2_lt1 i⟩]
  exact congrArg v (eq_ix2 i)

/-- Device `c`'s block coordinate on an axis cut by the mesh axis `y` is `c % 2`; on an axis not cut it is `0`. -/
theorem mesh_y (c : Fin 4) : Layout.meshLin [2, 2] c.val [1] = c.val % 2 := by revert c; decide
theorem mesh_nil (c : Nat) : Layout.meshLin [2, 2] c [] = 0 := rfl

section Operands
open Cert.KernelIdeal Cert.KernelIdeal.Vals

variable (m : (ℓ : Loc nD τ sig) → Buf (Elt Ideal) ℓ)
variable (x : (⟨2, ![1024, 512]⟩ : Shape).Idx → EReal) (dy : (⟨2, ![1024, 2048]⟩ : Shape).Idx → EReal)

/-- The kept column half of device `c`'s block of `x`, at row `r` and column `p`: `x` at row `512·my + r`, column `256·my + p`. -/
theorem xkV_apply (c : Dev nD)
    (h0 : m ((c.tc : Thread nD τ).loc main_arg0) = Layout.blockN ⟨2, ![512, 512]⟩ ⟨2, ![1024, 512]⟩ (Layout.meshBlock [2, 2] ![[1], []] c) x)
    (r : Fin 512) (p : Fin 256) :
    xkV (F := Ideal) m c (ix2 r p) = at2 x (512 * (c.val % 2) + r.val) (256 * (c.val % 2) + p.val) := by
  show m ((c.tc : Thread nD τ).loc main_arg0)
      ((Rect.unit (s := S512x512) (k0_off2 c) S512x256.size (Gen.k0_off2_inb c)).emb (ix2 r p)) = _
  rw [h0, Layout.blockN_apply, at2_eq x]
  have e := Gen.k0_off2_eq c
  congr 1
  · show Layout.meshLin [2, 2] c.val [1] * 512 + (k0_off2 c 0 + 1 * r.val) = _
    rw [e, mesh_y]; simp; omega
  · show Layout.meshLin [2, 2] c.val [] * 512 + (k0_off2 c 1 + 1 * p.val) = _
    rw [e, mesh_nil]; simp

/-- The sent column half, likewise: `x` at row `512·my + r`, column `256·(1 − my) + p`. -/
theorem xsV_apply (c : Dev nD)
    (h0 : m ((c.tc : Thread nD τ).loc main_arg0) = Layout.blockN ⟨2, ![512, 512]⟩ ⟨2, ![1024, 512]⟩ (Layout.meshBlock [2, 2] ![[1], []] c) x)
    (r : Fin 512) (p : Fin 256) :
    xsV (F := Ideal) m c (ix2 r p) = at2 x (512 * (c.val % 2) + r.val) (256 - 256 * (c.val % 2) + p.val) := by
  show m ((c.tc : Thread nD τ).loc main_arg0)
      ((Rect.unit (s := S512x512) (k0_off1 c) S512x256.size (Gen.k0_off1_inb c)).emb (ix2 r p)) = _
  rw [h0, Layout.blockN_apply, at2_eq x]
  have e := Gen.k0_off1_eq c
  congr 1
  · show Layout.meshLin [2, 2] c.val [1] * 512 + (k0_off1 c 0 + 1 * r.val) = _
    rw [e, mesh_y]; simp; omega
  · show Layout.meshLin [2, 2] c.val [] * 512 + (k0_off1 c 1 + 1 * p.val) = _
    rw [e, mesh_nil]; simp

/-- Chunk `j` of device `c`'s block of `dy`, at row `r` and column `q`: `dy` at row `512·my + r`, column `1024·mx + 256·j + q`. -/
theorem dyV_apply (c : Dev nD) (j : Fin 4)
    (h1 : m ((c.tc : Thread nD τ).loc main_arg1) = Layout.blockN ⟨2, ![512, 2048]⟩ ⟨2, ![1024, 2048]⟩ (Layout.meshBlock [2, 2] ![[1], []] c) dy)
    (r : Fin 512) (q : Fin 256) :
    dyV (F := Ideal) m c j (ix2 r q) = at2 dy (512 * (c.val % 2) + r.val) (1024 * (c.val / 2) + 256 * j.val + q.val) := by
  show m ((c.tc : Thread nD τ).loc main_arg1)
      ((Rect.unit (s := S512x2048) (k0_off3 c (cw j)) S512x256.size (Gen.k0_off3_inb c j)).emb (ix2 r q)) = _
  rw [h1, Layout.blockN_apply, at2_eq dy]
  have e := Gen.k0_off3_eq c j
  congr 1
  · show Layout.meshLin [2, 2] c.val [1] * 512 + (k0_off3 c (cw j) 0 + 1 * r.val) = _
    rw [e, mesh_y]; simp; omega
  · show Layout.meshLin [2, 2] c.val [] * 2048 + (k0_off3 c (cw j) 1 + 1 * q.val) = _
    rw [e, mesh_nil]; simp

end Operands

section Products
open Cert.KernelIdeal Cert.KernelIdeal.Vals

/-- The left factor's index of the product `aᵀ · b` at result entry `(p, q)` and contraction position `k`: column `p` … -/
theorem mm_lhs_1 (i : S256x256.Idx) (k : dot_S512x256_S512x256_S256x256_0_0_1_1_n_n.contr.Idx) :
    (dot_S512x256_S512x256_S256x256_0_0_1_1_n_n.lhsIdx i k 1).val = (i 0).val := by
  unfold DotDims.lhsIdx
  rw [dif_neg (show ¬(1 : Fin S512x256.rank) ∈ dot_S512x256_S512x256_S256x256_0_0_1_1_n_n.lhsBatch by decide),
    dif_pos (show (1 : Fin S512x256.rank) ∈ dot_S512x256_S512x256_S256x256_0_0_1_1_n_n.lhsNonContracting by decide)]
  rfl
/-- … at row `k`; -/
theorem mm_lhs_0 (i : S256x256.Idx) (k : dot_S512x256_S512x256_S256x256_0_0_1_1_n_n.contr.Idx) :
    (dot_S512x256_S512x256_S256x256_0_0_1_1_n_n.lhsIdx i k 0).val = (k ⟨0, by decide⟩).val :=
  dot_S512x256_S512x256_S256x256_0_0_1_1_n_n.lhsIdx_val_of_single rfl i k
/-- the right factor's: row `k` … -/
theorem mm_rhs_0 (i : S256x256.Idx) (k : dot_S512x256_S512x256_S256x256_0_0_1_1_n_n.contr.Idx) :
    (dot_S512x256_S512x256_S256x256_0_0_1_1_n_n.rhsIdx i k 0).val = (k ⟨0, by decide⟩).val :=
  dot_S512x256_S512x256_S256x256_0_0_1_1_n_n.rhsIdx_val_of_single rfl i k
/-- … at column `q`. -/
theorem mm_rhs_1 (i : S256x256.Idx) (k : dot_S512x256_S512x256_S256x256_0_0_1_1_n_n.contr.Idx) :
    (dot_S512x256_S512x256_S256x256_0_0_1_1_n_n.rhsIdx i k 1).val = (i 1).val := by
  unfold DotDims.rhsIdx
  rw [dif_neg (show ¬(1 : Fin S512x256.rank) ∈ dot_S512x256_S512x256_S256x256_0_0_1_1_n_n.rhsBatch by decide),
    dif_pos (show (1 : Fin S512x256.rank) ∈ dot_S512x256_S512x256_S256x256_0_0_1_1_n_n.rhsNonContracting by decide)]
  rfl

/-- The product `aᵀ · b` into the zero accumulator, at entry `(p, q)`: the sum over the 512 rows `r` of `a r p · b r q`. -/
theorem mm_apply (a b : S512x256.Idx → EReal) (p q : Fin 256) :
    mm (F := Ideal) a b (ix2 p q) = ∑ r : Fin 512, a (ix2 r p) * b (ix2 r q) := by
  unfold mm
  simp only [matmul]
  rw [Ideal.matmul_constant_zero_apply,
    ← Equiv.sum_comp (contrEquiv1 dot_S512x256_S512x256_S256x256_0_0_1_1_n_n 512 rfl rfl).symm]
  refine Finset.sum_congr rfl fun k _ => ?_
  have hk := contrEquiv1_symm_val dot_S512x256_S512x256_S256x256_0_0_1_1_n_n 512 rfl rfl k
  have el : dot_S512x256_S512x256_S256x256_0_0_1_1_n_n.lhsIdx (ix2 p q)
      ((contrEquiv1 dot_S512x256_S512x256_S256x256_0_0_1_1_n_n 512 rfl rfl).symm k) = ix2 k p := funext fun d => Fin.ext (by
    match d with
    | ⟨0, _⟩ => exact (mm_lhs_0 _ _).trans hk
    | ⟨1, _⟩ => exact mm_lhs_1 _ _)
  have er : dot_S512x256_S512x256_S256x256_0_0_1_1_n_n.rhsIdx (ix2 p q)
      ((contrEquiv1 dot_S512x256_S512x256_S256x256_0_0_1_1_n_n 512 rfl rfl).symm k) = ix2 k q := funext fun d => Fin.ext (by
    match d with
    | ⟨0, _⟩ => exact (mm_rhs_0 _ _).trans hk
    | ⟨1, _⟩ => exact mm_rhs_1 _ _)
  rw [el, er]

end Products

/-- A sum over 1024 rows is the sum over the first 512 plus the sum over the last 512. -/
theorem sum_halves (g : Nat → EReal) :
    ∑ k : Fin 1024, g k.val = ∑ r : Fin 512, g r.val + ∑ r : Fin 512, g (512 + r.val) :=
  Fin.sum_univ_add (a := 512) (b := 512) (fun k => g k.val)

section Sums
open Cert.KernelIdeal Cert.KernelIdeal.Vals

variable (m : (ℓ : Loc nD τ sig) → Buf (Elt Ideal) ℓ)
variable (x : (⟨2, ![1024, 512]⟩ : Shape).Idx → EReal) (dy : (⟨2, ![1024, 2048]⟩ : Shape).Idx → EReal)

/-- The y-neighbour has the other `my` and the same `mx`; the x-neighbour the same `my` and the other `mx`. -/
theorem ynb_mod (c : Dev nD) : (ynb c).val % 2 = 1 - c.val % 2 := by revert c; decide
theorem ynb_div (c : Dev nD) : (ynb c).val / 2 = c.val / 2 := by revert c; decide
theorem xnb_mod (c : Dev nD) : (xnb c).val % 2 = c.val % 2 := by revert c; decide
theorem xnb_div (c : Dev nD) : (xnb c).val / 2 = 1 - c.val / 2 := by revert c; decide

/-- What device `c` stores for chunk `j`, at entry `(p, q)`: the sum over ALL 1024 rows `k` of
    `x k (256·my + p) · dy k (1024·mx + 256·j + q)` — its own 512 rows plus the 512 its y-neighbour holds. -/
theorem valV_apply
    (hagree : ∀ c : Dev nD,
      m ((c.tc : Thread nD τ).loc main_arg0) = Layout.blockN ⟨2, ![512, 512]⟩ ⟨2, ![1024, 512]⟩ (Layout.meshBlock [2, 2] ![[1], []] c) x
      ∧ m ((c.tc : Thread nD τ).loc main_arg1) = Layout.blockN ⟨2, ![512, 2048]⟩ ⟨2, ![1024, 2048]⟩ (Layout.meshBlock [2, 2] ![[1], []] c) dy)
    (c : Dev nD) (j : Fin 4) (p q : Fin 256) :
    valV (F := Ideal) m c j (ix2 p q)
      = ∑ k : Fin 1024, at2 x k.val (256 * (c.val % 2) + p.val) * at2 dy k.val (1024 * (c.val / 2) + 256 * j.val + q.val) := by
  unfold valV p1V keepV
  rw [addf_apply, extf_apply, truncf_apply, mm_apply, mm_apply]
  simp only [xkV_apply m x c (hagree c).1, dyV_apply m dy c j (hagree c).2,
    xsV_apply m x (ynb c) (hagree (ynb c)).1, dyV_apply m dy (ynb c) j (hagree (ynb c)).2, ynb_mod, ynb_div]
  rw [sum_halves fun k => at2 x k (256 * (c.val % 2) + p.val) * at2 dy k (1024 * (c.val / 2) + 256 * j.val + q.val)]
  rcases Nat.mod_two_eq_zero_or_one c.val with h | h
  · refine congrArg₂ (· + ·) (Finset.sum_congr rfl fun r _ => ?_) (Finset.sum_congr rfl fun r _ => ?_) <;> congr 2 <;> omega
  · rw [add_comm]
    refine congrArg₂ (· + ·) (Finset.sum_congr rfl fun r _ => ?_) (Finset.sum_congr rfl fun r _ => ?_) <;> congr 2 <;> omega

end Sums

section Result
open Cert.KernelIdeal Cert.KernelIdeal.Vals

variable (m : (ℓ : Loc nD τ sig) → Buf (Elt Ideal) ℓ)
variable (x : (⟨2, ![1024, 512]⟩ : Shape).Idx → EReal) (dy : (⟨2, ![1024, 2048]⟩ : Shape).Idx → EReal)

/-- The slice of the result array that holds the device's own chunk `j`, at entry `(p, q)`: the array at row `p`, column `1024·mx + 256·j + q`. -/
theorem outMine_read (c : Dev nD) (f : (⟨2, ![256, 2048]⟩ : Shape).Idx → EReal) (j : Fin 4) (p q : Fin 256) :
    (outMine c j).view.read (Elt Ideal) f (ix2 p q) = at2 f p.val (1024 * (c.val / 2) + 256 * j.val + q.val) := by
  show f ((Rect.unit (s := S256x2048) (k0_off4 c (cw j)) S256x256.size (Gen.k0_off4_inb c j)).emb (ix2 p q)) = _
  rw [at2_eq f]
  have e := Gen.k0_off4_eq c j
  congr 1
  · show k0_off4 c (cw j) 0 + 1 * p.val = _
    rw [e]; simp
  · show k0_off4 c (cw j) 1 + 1 * q.val = _
    rw [e]; simp

/-- The slice that holds the x-neighbour's chunk `j`: the array at row `p`, column `1024·(1 − mx) + 256·j + q`. -/
theorem outTheirs_read (c : Dev nD) (f : (⟨2, ![256, 2048]⟩ : Shape).Idx → EReal) (j : Fin 4) (p q : Fin 256) :
    (outTheirs c j).view.read (Elt Ideal) f (ix2 p q) = at2 f p.val ((256 * j.val + 1024) - 1024 * (c.val / 2) + q.val) := by
  show f ((Rect.unit (s := S256x2048) (k0_off5 c (cw j)) S256x256.size (Gen.k0_off5_inb c j)).emb (ix2 p q)) = _
  rw [at2_eq f]
  have e := Gen.k0_off5_eq c j
  congr 1
  · show k0_off5 c (cw j) 0 + 1 * p.val = _
    rw [e]; simp
  · show k0_off5 c (cw j) 1 + 1 * q.val = _
    rw [e]; simp

/-- A result array that is right on device `c`, at row `p` and ANY column `col`: the sum over all 1024 rows `k` of
    `x k (256·my + p) · dy k col`. The column lies in one of the eight slices: in the device's own half
    (`col / 1024 = mx`) the device's own sum, in the other half the x-neighbour's, which has the same `my`. -/
theorem f_at
    (hagree : ∀ c : Dev nD,
      m ((c.tc : Thread nD τ).loc main_arg0) = Layout.blockN ⟨2, ![512, 512]⟩ ⟨2, ![1024, 512]⟩ (Layout.meshBlock [2, 2] ![[1], []] c) x
      ∧ m ((c.tc : Thread nD τ).loc main_arg1) = Layout.blockN ⟨2, ![512, 2048]⟩ ⟨2, ![1024, 2048]⟩ (Layout.meshBlock [2, 2] ![[1], []] c) dy)
    (c : Dev nD) (f : Buf (Elt Ideal) ((c.tc : Thread nD τ).loc main_v1)) (hf : OutOk (F := Ideal) m c f)
    (p : Fin 256) (col : Fin 2048) :
    at2 (n0 := 256) (n1 := 2048) f p.val col.val
      = ∑ k : Fin 1024, at2 x k.val (256 * (c.val % 2) + p.val) * at2 dy k.val col.val := by
  have hc : c.val < 4 := c.isLt
  have hcol : col.val < 2048 := col.isLt
  by_cases hh : col.val / 1024 = c.val / 2
  · have e : col.val = 1024 * (c.val / 2) + 256 * (col.val % 1024 / 256) + col.val % 256 := by omega
    have hj : col.val % 1024 / 256 < 4 := by omega
    have hq : col.val % 256 < 256 := by omega
    have key : at2 (n0 := 256) (n1 := 2048) f p.val (1024 * (c.val / 2) + 256 * (col.val % 1024 / 256) + col.val % 256)
        = ∑ k : Fin 1024, at2 x k.val (256 * (c.val % 2) + p.val)
            * at2 dy k.val (1024 * (c.val / 2) + 256 * (col.val % 1024 / 256) + col.val % 256) :=
      calc _ = (outMine c ⟨_, hj⟩).view.read (Elt Ideal) f (ix2 p ⟨_, hq⟩) := (outMine_read c f ⟨_, hj⟩ p ⟨_, hq⟩).symm
        _ = valV (F := Ideal) m c ⟨_, hj⟩ (ix2 p ⟨_, hq⟩) := congrFun (hf.1 ⟨_, hj⟩) _
        _ = _ := valV_apply m x dy hagree c ⟨_, hj⟩ p ⟨_, hq⟩
    rwa [← e] at key
  · have e : col.val = (256 * (col.val % 1024 / 256) + 1024) - 1024 * (c.val / 2) + col.val % 256 := by omega
    have hj : col.val % 1024 / 256 < 4 := by omega
    have hq : col.val % 256 < 256 := by omega
    have key : at2 (n0 := 256) (n1 := 2048) f p.val ((256 * (col.val % 1024 / 256) + 1024) - 1024 * (c.val / 2) + col.val % 256)
        = ∑ k : Fin 1024, at2 x k.val (256 * ((xnb c).val % 2) + p.val)
            * at2 dy k.val (1024 * ((xnb c).val / 2) + 256 * (col.val % 1024 / 256) + col.val % 256) :=
      calc _ = (outTheirs c ⟨_, hj⟩).view.read (Elt Ideal) f (ix2 p ⟨_, hq⟩) := (outTheirs_read c f ⟨_, hj⟩ p ⟨_, hq⟩).symm
        _ = theirsV (F := Ideal) m c ⟨_, hj⟩ (ix2 p ⟨_, hq⟩) := congrFun (hf.2 ⟨_, hj⟩) _
        _ = valV (F := Ideal) m (xnb c) ⟨_, hj⟩ (ix2 p ⟨_, hq⟩) := rfl
        _ = _ := valV_apply m x dy hagree (xnb c) ⟨_, hj⟩ p ⟨_, hq⟩
    rw [xnb_mod, xnb_div] at key
    have e' : 1024 * (1 - c.val / 2) + 256 * (col.val % 1024 / 256) + col.val % 256 = col.val := by omega
    rw [e'] at key
    rwa [← e] at key

end Result

/-- The reference's result as a function of the whole arrays. -/
def refOut (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v1) :=
  Host.dotGeneral (F := Ideal) (φ₁ := .f32) (φ₂ := .f32) Cert.ReferenceIdeal.dot_S512x1024_S1024x2048_S512x2048_1_0_0_1_n_n none
    (transpose Cert.ReferenceIdeal.S512x1024 [1, 0]
      (m' (((0 : Dev Cert.ReferenceIdeal.nD).tc : Thread Cert.ReferenceIdeal.nD Cert.ReferenceIdeal.τ).loc Cert.ReferenceIdeal.main_arg0)
        : (⟨Cert.ReferenceIdeal.S1024x512, .f32⟩ : BufTy).Contents (Elt Ideal))
      Cert.ReferenceIdeal.Gen.transposes_S1024x512_S512x1024_1_0)
    (m' (((0 : Dev Cert.ReferenceIdeal.nD).tc : Thread Cert.ReferenceIdeal.nD Cert.ReferenceIdeal.τ).loc Cert.ReferenceIdeal.main_arg1)
      : (⟨Cert.ReferenceIdeal.S1024x2048, .f32⟩ : BufTy).Contents (Elt Ideal))

/-- The reference's result at entry `(a, b)`: the sum over all 1024 rows `k` of `x k a · dy k b`. -/
theorem refOut_apply (m' : (ℓ : Loc Cert.ReferenceIdeal.nD Cert.ReferenceIdeal.τ Cert.ReferenceIdeal.sig) → Buf (Elt Ideal) ℓ)
    (i : Cert.ReferenceIdeal.S512x2048.Idx) :
    refOut m' i = ∑ k : Fin 1024,
      at2 (n0 := 1024) (n1 := 512) (m' (((0 : Dev Cert.ReferenceIdeal.nD).tc : Thread Cert.ReferenceIdeal.nD Cert.ReferenceIdeal.τ).loc Cert.ReferenceIdeal.main_arg0)) k.val (i 0).val
        * at2 (n0 := 1024) (n1 := 2048) (m' (((0 : Dev Cert.ReferenceIdeal.nD).tc : Thread Cert.ReferenceIdeal.nD Cert.ReferenceIdeal.τ).loc Cert.ReferenceIdeal.main_arg1)) k.val (i 1).val := by
  show Cert.ReferenceIdeal.Read.val_main_v1 (F := Ideal) _ _ i = _
  rw [Cert.ReferenceIdeal.Read.val_main_v1_apply]
  refine Finset.sum_congr rfl fun k _ => ?_
  rw [Cert.ReferenceIdeal.Read.val_main_v0_apply]
  exact congrArg₂ (· * ·) (at2_eq (n0 := 1024) (n1 := 512) _ _) (at2_eq (n0 := 1024) (n1 := 2048) _ _)

/-- The reference's own run, read at its one device, ends with its result array at `refOut` of the launch arrays
    and the arguments unchanged. -/
theorem ref_run (m' : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r =>
          r.2.mem (((0 : Dev Cert.ReferenceIdeal.nD).tc : Thread Cert.ReferenceIdeal.nD Cert.ReferenceIdeal.τ).loc Cert.ReferenceIdeal.main_v1) = refOut m'
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run _ _ _).mono (fun _ h => h 0) (Cert.ReferenceIdeal.Value.run (F := Ideal) m' ρ)

/-- A result array that holds, slice by slice, the sums the protocol delivers is device `c`'s block of rows
    `256·my …` of the reference's `xᵀ · dy`. -/
theorem out_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2] ![[1], []] c) (m' (((0 : Dev Cert.ReferenceIdeal.nD).tc : Thread Cert.ReferenceIdeal.nD Cert.ReferenceIdeal.τ).loc Cert.ReferenceIdeal.main_arg1)))
    (c : Dev Cert.KernelIdeal.nD)
    (f : Buf (Elt Ideal) ((c.tc : Thread Cert.KernelIdeal.nD Cert.KernelIdeal.τ).loc Cert.KernelIdeal.main_v1))
    (hf : Cert.KernelIdeal.Vals.OutOk (F := Ideal) m c f) :
    f = Layout.blockN ⟨2, ![256, 2048]⟩ ⟨2, ![512, 2048]⟩ (Layout.meshBlock [2, 2] ![[1], []] c) (refOut m') := by
  funext i
  refine (at2_eq (n0 := 256) (n1 := 2048) f i).trans ((f_at m _ _ hagree c f hf (i 0) (i 1)).trans ?_)
  rw [Layout.blockN_apply, refOut_apply]
  refine Finset.sum_congr rfl fun k _ => ?_
  congr 2
  · show 256 * (c.val % 2) + (i 0).val = Layout.meshLin [2, 2] c.val [1] * 256 + (i 0).val
    rw [mesh_y]; omega
  · show (i 1).val = Layout.meshLin [2, 2] c.val [] * 2048 + (i 1).val
    rw [mesh_nil]; omega

/-- info: 'Cert.Proof.ValueBridge.out_eq' depends on axioms: [propext, Classical.choice, Quot.sound] -/
#guard_msgs in #print axioms out_eq

end Cert.Proof.ValueBridge

end
-- ==== Proof.lean ====
/-
  The certificate's claims, assembled. The kernel computes, on each device of the 2×2 mesh, its block of rows of
  `xᵀ · dy`: every device multiplies its 512 rows of the two column halves of `x` with the four chunks of its 512 rows
  of `dy`, hands the products for the rows' other half of the result to its y-neighbour, adds what it receives to its
  own product — together the sum over all 1024 rows —, and hands that sum to its x-neighbour, so that both hold all
  2048 columns of their 256 rows.

  • The run of the kernel (Proof/Launch.lean `run_main`, for every float instance; Proof/KLaunch.lean the same text for
    the word-level program): every weakly fair execution on the four devices terminates, nothing faults, each device's
    result array holds slice by slice the sums the protocol delivers (`Vals.OutOk`) and the argument arrays end as
    they began. The two frame claims about the kernel read the last two conjuncts off it.
  • The reference is a straight-line host program (Proof/Gen/ReferenceIdeal/Run.lean `run`): its frame claim reads the
    arguments off that run.
  • The idealization rewrote no operation, so there is nothing to preserve.
  • The value claim at the ideal instance: the reference's result is `ValueBridge.refOut` of its launch arrays (the
    run's own term), and a result array that satisfies `Vals.OutOk` is the device's block of it (Proof/Value.lean
    `out_eq`: the 1024-row sum split in the two 512-row halves the y-neighbours hold).
-/
import proofs.«900593_g7700000000000594_dist_rsdw_v7x_xy2x2_y_m512_d512_f2048_f32_1_alg».proof.Defs
import proofs.«900593_g7700000000000594_dist_rsdw_v7x_xy2x2_y_m512_d512_f2048_f32_1_alg».proof.Proof.Gen.Kernel
import proofs.«900593_g7700000000000594_dist_rsdw_v7x_xy2x2_y_m512_d512_f2048_f32_1_alg».proof.Proof.Gen.KernelIdeal
import proofs.«900593_g7700000000000594_dist_rsdw_v7x_xy2x2_y_m512_d512_f2048_f32_1_alg».proof.Proof.Gen.ReferenceIdeal
import proofs.«900593_g7700000000000594_dist_rsdw_v7x_xy2x2_y_m512_d512_f2048_f32_1_alg».proof.Proof.Gen.Pre_finite_inputs_Kernel
import proofs.«900593_g7700000000000594_dist_rsdw_v7x_xy2x2_y_m512_d512_f2048_f32_1_alg».proof.Proof.Gen.Pre_finite_inputs_ReferenceIdeal
import proofs.«900593_g7700000000000594_dist_rsdw_v7x_xy2x2_y_m512_d512_f2048_f32_1_alg».proof.Proof.Gen.ReferenceIdeal.Run
import proofs.«900593_g7700000000000594_dist_rsdw_v7x_xy2x2_y_m512_d512_f2048_f32_1_alg».proof.Proof.Launch
import proofs.«900593_g7700000000000594_dist_rsdw_v7x_xy2x2_y_m512_d512_f2048_f32_1_alg».proof.Proof.KLaunch
import proofs.«900593_g7700000000000594_dist_rsdw_v7x_xy2x2_y_m512_d512_f2048_f32_1_alg».proof.Proof.Value

noncomputable section

namespace Cert.Proof

open Idealize.ShloMosaic Idealize.ShloMosaic.TcCoe Idealize.SL.Sem

/-- `Cert.frame_Kernel`: the word-level kernel's run keeps both argument arrays. -/
theorem frame_kernel : Cert.frame_Kernel := fun m g _ =>
  (θ_run _ _ _).mono (fun _ h c => ⟨(h c).2.1, (h c).2.2⟩) (Cert.Kernel.LaunchProof.run_main (F := Bits) m g)

/-- `Cert.frame_KernelIdeal`: the same run read at the extended reals. -/
theorem frame_kernelIdeal : Cert.frame_KernelIdeal := fun m g _ =>
  (θ_run _ _ _).mono (fun _ h c => ⟨(h c).2.1, (h c).2.2⟩) (Cert.KernelIdeal.LaunchProof.run_main (F := Ideal) m g)

/-- `Cert.frame_ReferenceIdeal`: the reference's two host operations write neither argument. -/
theorem frame_referenceIdeal : Cert.frame_ReferenceIdeal := fun m g _ =>
  (θ_run _ _ _).mono (fun _ h c => ⟨(h c).2.1, (h c).2.2⟩) (Cert.ReferenceIdeal.Value.run (F := Ideal) m g)

/-- `Cert.algebraic_KernelIdeal_ReferenceIdeal`: from memories where each device holds its blocks of the reference's
    arrays both programs run, the reference's result is `refOut` of its arrays, and each device's result array —
    right slice by slice — is its block of rows of it. -/
theorem algebraic : Cert.algebraic_KernelIdeal_ReferenceIdeal := fun m g m' g' _ hagree =>
  ⟨ValueBridge.refOut m',
    (θ_run _ _ _).mono (fun _ h c => ⟨ValueBridge.out_eq m m' hagree c _ (h c).1, (h c).2.1, (h c).2.2⟩)
      (Cert.KernelIdeal.LaunchProof.run_main (F := Ideal) m g),
    ValueBridge.ref_run m' g'⟩

/-- `Cert.Claim` (Defs.lean): the witnesses of every program's and predicate's stated facts, then the five claims. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, frame_referenceIdeal, trivial, algebraic⟩

end Cert.Proof

end
